-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S8192x64 : Shape := ⟨2, ![8192, 64]⟩
abbrev S8192 : Shape := ⟨1, ![8192]⟩
abbrev S1024x128 : Shape := ⟨2, ![1024, 128]⟩
abbrev S1024 : Shape := ⟨1, ![1024]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024 : S_.BroadcastsInDim S1024 (![] : Fin 0 → Fin S1024.rank)
  reducesTo_S1024_S_d0 : S1024.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : IVec S8192 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg3 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v18 main_v21
  main_v22

def fn {F : FTy → Type} [FloatOps F] (main_arg0 : IVec S65536 32) (main_arg1 : IVec S8192x64 32) (main_arg2 : IVec S8192 32) (main_arg3 : IVec S8192 32) (main_arg4 : FVec F S1024x128 .f32) (main_arg5 : FVec F S1024 .f32) (main_arg6 : FVec F S1024x128 .f32) (main_arg7 : FVec F S1024 .f32) : IVec S_ 1 :=
  let main_v0 : FVec F S1024x128 .f32 := Host.absf main_arg4
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024 .f32 := Host.absf main_arg5
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x128 .f32 := Host.absf main_arg6
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024 .f32 := Host.absf main_arg7
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg3 main_v13 main_v16
-- ==== Kernel.lean ====
abbrev S65536 : Shape := ⟨1, ![65536]⟩
abbrev S8192x64 : Shape := ⟨2, ![8192, 64]⟩
abbrev S8192 : Shape := ⟨1, ![8192]⟩
abbrev S1024x128 : Shape := ⟨2, ![1024, 128]⟩
abbrev S1024 : Shape := ⟨1, ![1024]⟩
abbrev S_ : Shape := ⟨0, ![]⟩
abbrev S8192x64x1 : Shape := ⟨3, ![8192, 64, 1]⟩
abbrev S8192x1 : Shape := ⟨2, ![8192, 1]⟩
abbrev S128x1024 : Shape := ⟨2, ![128, 1024]⟩
abbrev S1x1024 : Shape := ⟨2, ![1, 1024]⟩
abbrev S8192x1024 : Shape := ⟨2, ![8192, 1024]⟩
abbrev S256x64 : Shape := ⟨2, ![256, 64]⟩
abbrev S256x1 : Shape := ⟨2, ![256, 1]⟩
abbrev S256x1024 : Shape := ⟨2, ![256, 1024]⟩
abbrev S256x128x64 : Shape := ⟨3, ![256, 128, 64]⟩
abbrev S256x1x64 : Shape := ⟨3, ![256, 1, 64]⟩
abbrev S256x128 : Shape := ⟨2, ![256, 128]⟩
abbrev S1x8192 : Shape := ⟨2, ![1, 8192]⟩
abbrev S8192x8192 : Shape := ⟨2, ![8192, 8192]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 91
  | .vmem => 20
  | .smem => 0
  | _ => 0

abbrev bufTy : (tb : Table) → Fin (tcTables nBuf tb) → BufTy
  | .hbm, ⟨0, _⟩ => ⟨S65536, .i32⟩
  | .hbm, ⟨1, _⟩ => ⟨S8192x64, .i32⟩
  | .hbm, ⟨2, _⟩ => ⟨S8192, .i32⟩
  | .hbm, ⟨3, _⟩ => ⟨S8192, .i32⟩
  | .hbm, ⟨4, _⟩ => ⟨S1024x128, .f32⟩
  | .hbm, ⟨5, _⟩ => ⟨S1024, .f32⟩
  | .hbm, ⟨6, _⟩ => ⟨S1024x128, .f32⟩
  | .hbm, ⟨7, _⟩ => ⟨S1024, .f32⟩
  | .hbm, ⟨8, _⟩ => ⟨S_, .i32⟩
  | .hbm, ⟨9, _⟩ => ⟨S8192x64, .i32⟩
  | .hbm, ⟨10, _⟩ => ⟨S8192x64, .i1⟩
  | .hbm, ⟨11, _⟩ => ⟨S_, .i32⟩
  | .hbm, ⟨12, _⟩ => ⟨S_, .i32⟩
  | .hbm, ⟨13, _⟩ => ⟨S8192x64, .i32⟩
  | .hbm, ⟨14, _⟩ => ⟨S8192x64, .i32⟩
  | .hbm, ⟨15, _⟩ => ⟨S_, .i32⟩
  | .hbm, ⟨16, _⟩ => ⟨S8192x64, .i32⟩
  | .hbm, ⟨17, _⟩ => ⟨S8192x64, .i1⟩
  | .hbm, ⟨18, _⟩ => ⟨S_, .i32⟩
  | .hbm, ⟨19, _⟩ => ⟨S8192x64, .i32⟩
  | .hbm, ⟨20, _⟩ => ⟨S8192x64, .i32⟩
  | .hbm, ⟨21, _⟩ => ⟨S8192x64, .i32⟩
  | .hbm, ⟨22, _⟩ => ⟨S8192x64x1, .i32⟩
  | .hbm, ⟨23, _⟩ => ⟨S8192x64, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S8192x64, .i32⟩
  | .hbm, ⟨31, _⟩ => ⟨S8192x64, .i32⟩
  | .hbm, ⟨32, _⟩ => ⟨S_, .i32⟩
  | .hbm, ⟨33, _⟩ => ⟨S8192x64, .i32⟩
  | .hbm, ⟨34, _⟩ => ⟨S8192x64, .i1⟩
  | .hbm, ⟨35, _⟩ => ⟨S_, .i32⟩
  | .hbm, ⟨36, _⟩ => ⟨S8192x64, .i32⟩
  | .hbm, ⟨37, _⟩ => ⟨S8192x64, .i1⟩
  | .hbm, ⟨38, _⟩ => ⟨S_, .i32⟩
  | .hbm, ⟨39, _⟩ => ⟨S_, .i1⟩
  | .hbm, ⟨40, _⟩ => ⟨S8192x64, .i1⟩
  | .hbm, ⟨41, _⟩ => ⟨S8192x64, .i1⟩
  | .hbm, ⟨42, _⟩ => ⟨S8192x64, .i1⟩
  | .hbm, ⟨43, _⟩ => ⟨S8192x64, .i32⟩
  | .hbm, ⟨44, _⟩ => ⟨S8192x64, .i32⟩
  | .hbm, ⟨45, _⟩ => ⟨S8192x64, .i32⟩
  | .hbm, ⟨46, _⟩ => ⟨S_, .i32⟩
  | .hbm, ⟨47, _⟩ => ⟨S8192x64, .i32⟩
  | .hbm, ⟨48, _⟩ => ⟨S8192x64, .i32⟩
  | .hbm, ⟨49, _⟩ => ⟨S_, .i32⟩
  | .hbm, ⟨50, _⟩ => ⟨S8192x64, .i32⟩
  | .hbm, ⟨51, _⟩ => ⟨S8192x64, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S8192x64, .i32⟩
  | .hbm, ⟨59, _⟩ => ⟨S8192x64, .i32⟩
  | .hbm, ⟨60, _⟩ => ⟨S_, .i32⟩
  | .hbm, ⟨61, _⟩ => ⟨S8192x64, .i32⟩
  | .hbm, ⟨62, _⟩ => ⟨S8192x64, .i1⟩
  | .hbm, ⟨63, _⟩ => ⟨S_, .i32⟩
  | .hbm, ⟨64, _⟩ => ⟨S8192x64, .i32⟩
  | .hbm, ⟨65, _⟩ => ⟨S8192x64, .i1⟩
  | .hbm, ⟨66, _⟩ => ⟨S_, .i32⟩
  | .hbm, ⟨67, _⟩ => ⟨S_, .i1⟩
  | .hbm, ⟨68, _⟩ => ⟨S8192x64, .i1⟩
  | .hbm, ⟨69, _⟩ => ⟨S8192x64, .i1⟩
  | .hbm, ⟨70, _⟩ => ⟨S8192x64, .i1⟩
  | .hbm, ⟨71, _⟩ => ⟨S8192x64, .i32⟩
  | .hbm, ⟨72, _⟩ => ⟨S8192x64, .i32⟩
  | .hbm, ⟨73, _⟩ => ⟨S8192x64, .i32⟩
  | .hbm, ⟨74, _⟩ => ⟨S8192x64, .f32⟩
  | .hbm, ⟨75, _⟩ => ⟨S_, .i32⟩
  | .hbm, ⟨76, _⟩ => ⟨S8192, .i32⟩
  | .hbm, ⟨77, _⟩ => ⟨S8192, .i32⟩
  | .hbm, ⟨78, _⟩ => ⟨S8192, .f32⟩
  | .hbm, ⟨79, _⟩ => ⟨S8192x1, .f32⟩
  | .hbm, ⟨80, _⟩ => ⟨S128x1024, .f32⟩
  | .hbm, ⟨81, _⟩ => ⟨S128x1024, .f32⟩
  | .hbm, ⟨82, _⟩ => ⟨S1x1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S8192, .f32⟩
  | .hbm, ⟨87, _⟩ => ⟨S8192x1, .f32⟩
  | .hbm, ⟨88, _⟩ => ⟨S8192, .f32⟩
  | .hbm, ⟨89, _⟩ => ⟨S1x8192, .f32⟩
  | .hbm, ⟨90, _⟩ => ⟨S8192x8192, .f32⟩
  | .local _ .vmem, ⟨0, _⟩ => ⟨S256x64, .i32⟩
  | .local _ .vmem, ⟨1, _⟩ => ⟨S256x64, .i32⟩
  | .local _ .vmem, ⟨2, _⟩ => ⟨S256x64, .f32⟩
  | .local _ .vmem, ⟨3, _⟩ => ⟨S256x64, .f32⟩
  | .local _ .vmem, ⟨4, _⟩ => ⟨S256x1, .f32⟩
  | .local _ .vmem, ⟨5, _⟩ => ⟨S256x1, .f32⟩
  | .local _ .vmem, ⟨6, _⟩ => ⟨S128x1024, .f32⟩
  | .local _ .vmem, ⟨7, _⟩ => ⟨S1x1024, .f32⟩
  | .local _ .vmem, ⟨8, _⟩ => ⟨S128x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S2048x1, .f32⟩
  | .local _ .vmem, ⟨15, _⟩ => ⟨S2048x1, .f32⟩
  | .local _ .vmem, ⟨16, _⟩ => ⟨S1x2048, .f32⟩
  | .local _ .vmem, ⟨17, _⟩ => ⟨S1x2048, .f32⟩
  | .local _ .vmem, ⟨18, _⟩ => ⟨S2048x2048, .f32⟩
  | .local _ .vmem, ⟨19, _⟩ => ⟨S2048x2048, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_v2 : Ref sig .tc := ⟨.hbm, 14, rfl⟩
abbrev main_c_1 : Ref sig .tc := ⟨.hbm, 15, rfl⟩
abbrev main_v3 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v10 : Ref sig .tc := ⟨.hbm, 45, rfl⟩
abbrev main_c_4 : Ref sig .tc := ⟨.hbm, 46, rfl⟩
abbrev main_v11 : Ref sig .tc := ⟨.hbm, 47, rfl⟩
abbrev main_v12 : Ref sig .tc := ⟨.hbm, 48, rfl⟩
abbrev main_c_5 : Ref sig .tc := ⟨.hbm, 49, rfl⟩
abbrev main_v13 : Ref sig .tc := ⟨.hbm, 50, rfl⟩
abbrev main_v14 : Ref sig .tc := ⟨.hbm, 51, rfl⟩
abbrev main_c_6 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_v5 : Ref sig .tc := ⟨.hbm, 61, rfl⟩
abbrev main_call2_v6 : Ref sig .tc := ⟨.hbm, 62, rfl⟩
abbrev main_call2_c_2 : Ref sig .tc := ⟨.hbm, 63, rfl⟩
abbrev main_call2_v7 : Ref sig .tc := ⟨.hbm, 64, rfl⟩
abbrev main_call2_v8 : Ref sig .tc := ⟨.hbm, 65, rfl⟩
abbrev main_call2_c_3 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_v15 : Ref sig .tc := ⟨.hbm, 73, rfl⟩
abbrev main_v16 : Ref sig .tc := ⟨.hbm, 74, rfl⟩
abbrev main_c_7 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25_0 : Ref sig .tc := ⟨.hbm, 84, rfl⟩
abbrev main_v25_1 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  bcast_S_S8192 : S_.BroadcastsInDim S8192 (![] : Fin 0 → Fin S8192.rank)
  shapeCasts_S8192_S8192x1 : S8192.ShapeCasts S8192x1
  transposes_S1024x128_S128x1024_1_0 : S1024x128.Transposes [1, 0] S128x1024
  shapeCasts_S1024_S1x1024 : S1024.ShapeCasts S1x1024
  inb_S256x64_S256x64_0_0 : ∀ a, (![0, 0] : Fin 2 → Nat) a + S256x64.size a ≤ S256x64.size a
  h_S256x64 : 0 < S256x64.numel
  shapeCasts_S256x64_S256x64 : S256x64.ShapeCasts S256x64
  iota_S256x128x64_d1_w32 : S256x128x64.Iotas .tc 32 [1]
  shapeCasts_S256x64_S256x1x64 : S256x64.ShapeCasts S256x1x64
  broadcasts_S256x1x64_S256x128x64 : S256x1x64.Broadcasts S256x128x64
  shapeCasts_S256x1x64_S256x1x64 : S256x1x64.ShapeCasts S256x1x64
  reduces_S256x128x64_S256x128 : S256x128x64.Reduces [2] S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S8192_S1x8192 : S8192.ShapeCasts S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  gather_S65536_S8192x64x1_S8192x64_n_0_n_n_0_2_1_wf : GatherDims.WF S65536 S8192x64x1 S8192x64 [] [0] [] [0] [] 2 ![1]
  dot_S256x128_S128x1024_S256x1024_1_0_0_1_n_n_wf : DotDims.WF S256x128 S128x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S8192x64.size a
  hwx0_0 : ∀ i : grid0.Coords, EltTy.bits .i32 = 32 ∨ (Rect.block (s := S8192x64) S256x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S8192x64.size a
  hwx0_1 : ∀ i : grid0.Coords, EltTy.bits .f32 = 32 ∨ (Rect.block (s := S8192x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .f32 = 32 ∨ (Rect.block (s := S128x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1024.size a ≤ S128x1024.size a
  hwx0_5 : ∀ i : grid0.Coords, EltTy.bits .f32 = 32 ∨ (Rect.block (s := S128x1024) S128x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S8192x1.size a
  hwx1_0 : ∀ i : grid1.Coords, EltTy.bits .f32 = 32 ∨ (Rect.block (s := S8192x1) S2048x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x8192.size a
  hwx1_1 : ∀ i : grid1.Coords, EltTy.bits .f32 = 32 ∨ (Rect.block (s := S1x8192) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S8192x8192.size a
  hwx1_2 : ∀ i : grid1.Coords, EltTy.bits .f32 = 32 ∨ (Rect.block (s := S8192x8192) S2048x2048.size (cc1_transform_2 i) (hinb1_2 i)).WholeWords (EltTy.packing .f32)

variable [Facts₀]

def gather_S65536_S8192x64x1_S8192x64_n_0_n_n_0_2_1 : GatherDims S65536 S8192x64x1 S8192x64 where
  offsetDims := []
  collapsedSliceDims := [0]
  operandBatchingDims := []
  startIndicesBatchingDims := []
  startIndexMap := [0]
  indexVectorDim := 2
  sliceSizes := ![1]
  wf := gather_S65536_S8192x64x1_S8192x64_n_0_n_n_0_2_1_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf

abbrev win0_0 : Pipeline.Window sig grid0 :=
  Pipeline.Window.ofSpec (Memref.whole main_v15) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v27) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2048x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536 : Shape := ⟨1, ![65536]⟩
abbrev S8192x64 : Shape := ⟨2, ![8192, 64]⟩
abbrev S8192 : Shape := ⟨1, ![8192]⟩
abbrev S1024x128 : Shape := ⟨2, ![1024, 128]⟩
abbrev S1024 : Shape := ⟨1, ![1024]⟩
abbrev S_ : Shape := ⟨0, ![]⟩
abbrev S8192x64x1 : Shape := ⟨3, ![8192, 64, 1]⟩
abbrev S8192x1 : Shape := ⟨2, ![8192, 1]⟩
abbrev S8192x128 : Shape := ⟨2, ![8192, 128]⟩
abbrev S8192x64x2 : Shape := ⟨3, ![8192, 64, 2]⟩
abbrev S128x1024 : Shape := ⟨2, ![128, 1024]⟩
abbrev S8192x1024 : Shape := ⟨2, ![8192, 1024]⟩
abbrev S1x1024 : Shape := ⟨2, ![1, 1024]⟩
abbrev S1x8192 : Shape := ⟨2, ![1, 8192]⟩
abbrev S8192x8192 : Shape := ⟨2, ![8192, 8192]⟩

abbrev nBuf : Space → Nat
  | .hbm => 128
  | .vmem => 0
  | .smem => 0
  | _ => 0

abbrev bufTy : (tb : Table) → Fin (tcTables nBuf tb) → BufTy
  | .hbm, ⟨0, _⟩ => ⟨S65536, .i32⟩
  | .hbm, ⟨1, _⟩ => ⟨S8192x64, .i32⟩
  | .hbm, ⟨2, _⟩ => ⟨S8192, .i32⟩
  | .hbm, ⟨3, _⟩ => ⟨S8192, .i32⟩
  | .hbm, ⟨4, _⟩ => ⟨S1024x128, .f32⟩
  | .hbm, ⟨5, _⟩ => ⟨S1024, .f32⟩
  | .hbm, ⟨6, _⟩ => ⟨S1024x128, .f32⟩
  | .hbm, ⟨7, _⟩ => ⟨S1024, .f32⟩
  | .hbm, ⟨8, _⟩ => ⟨S_, .i32⟩
  | .hbm, ⟨9, _⟩ => ⟨S8192x64, .i32⟩
  | .hbm, ⟨10, _⟩ => ⟨S8192x64, .i1⟩
  | .hbm, ⟨11, _⟩ => ⟨S_, .i32⟩
  | .hbm, ⟨12, _⟩ => ⟨S_, .i32⟩
  | .hbm, ⟨13, _⟩ => ⟨S8192x64, .i32⟩
  | .hbm, ⟨14, _⟩ => ⟨S8192x64, .i32⟩
  | .hbm, ⟨15, _⟩ => ⟨S_, .i32⟩
  | .hbm, ⟨16, _⟩ => ⟨S8192x64, .i32⟩
  | .hbm, ⟨17, _⟩ => ⟨S8192x64, .i1⟩
  | .hbm, ⟨18, _⟩ => ⟨S_, .i32⟩
  | .hbm, ⟨19, _⟩ => ⟨S8192x64, .i32⟩
  | .hbm, ⟨20, _⟩ => ⟨S8192x64, .i32⟩
  | .hbm, ⟨21, _⟩ => ⟨S8192x64, .i32⟩
  | .hbm, ⟨22, _⟩ => ⟨S8192x64x1, .i32⟩
  | .hbm, ⟨23, _⟩ => ⟨S8192x64, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S8192x64, .i32⟩
  | .hbm, ⟨31, _⟩ => ⟨S8192x64, .i32⟩
  | .hbm, ⟨32, _⟩ => ⟨S_, .i32⟩
  | .hbm, ⟨33, _⟩ => ⟨S8192x64, .i32⟩
  | .hbm, ⟨34, _⟩ => ⟨S8192x64, .i1⟩
  | .hbm, ⟨35, _⟩ => ⟨S_, .i32⟩
  | .hbm, ⟨36, _⟩ => ⟨S8192x64, .i32⟩
  | .hbm, ⟨37, _⟩ => ⟨S8192x64, .i1⟩
  | .hbm, ⟨38, _⟩ => ⟨S_, .i32⟩
  | .hbm, ⟨39, _⟩ => ⟨S_, .i1⟩
  | .hbm, ⟨40, _⟩ => ⟨S8192x64, .i1⟩
  | .hbm, ⟨41, _⟩ => ⟨S8192x64, .i1⟩
  | .hbm, ⟨42, _⟩ => ⟨S8192x64, .i1⟩
  | .hbm, ⟨43, _⟩ => ⟨S8192x64, .i32⟩
  | .hbm, ⟨44, _⟩ => ⟨S8192x64, .i32⟩
  | .hbm, ⟨45, _⟩ => ⟨S8192x64, .i32⟩
  | .hbm, ⟨46, _⟩ => ⟨S_, .i32⟩
  | .hbm, ⟨47, _⟩ => ⟨S8192x64, .i32⟩
  | .hbm, ⟨48, _⟩ => ⟨S8192x64, .i32⟩
  | .hbm, ⟨49, _⟩ => ⟨S_, .i32⟩
  | .hbm, ⟨50, _⟩ => ⟨S8192x64, .i32⟩
  | .hbm, ⟨51, _⟩ => ⟨S8192x64, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S8192x64, .i32⟩
  | .hbm, ⟨59, _⟩ => ⟨S8192x64, .i32⟩
  | .hbm, ⟨60, _⟩ => ⟨S_, .i32⟩
  | .hbm, ⟨61, _⟩ => ⟨S8192x64, .i32⟩
  | .hbm, ⟨62, _⟩ => ⟨S8192x64, .i1⟩
  | .hbm, ⟨63, _⟩ => ⟨S_, .i32⟩
  | .hbm, ⟨64, _⟩ => ⟨S8192x64, .i32⟩
  | .hbm, ⟨65, _⟩ => ⟨S8192x64, .i1⟩
  | .hbm, ⟨66, _⟩ => ⟨S_, .i32⟩
  | .hbm, ⟨67, _⟩ => ⟨S_, .i1⟩
  | .hbm, ⟨68, _⟩ => ⟨S8192x64, .i1⟩
  | .hbm, ⟨69, _⟩ => ⟨S8192x64, .i1⟩
  | .hbm, ⟨70, _⟩ => ⟨S8192x64, .i1⟩
  | .hbm, ⟨71, _⟩ => ⟨S8192x64, .i32⟩
  | .hbm, ⟨72, _⟩ => ⟨S8192x64, .i32⟩
  | .hbm, ⟨73, _⟩ => ⟨S8192x64, .i32⟩
  | .hbm, ⟨74, _⟩ => ⟨S8192, .i32⟩
  | .hbm, ⟨75, _⟩ => ⟨S8192x1, .i32⟩
  | .hbm, ⟨76, _⟩ => ⟨S8192x64, .i32⟩
  | .hbm, ⟨77, _⟩ => ⟨S_, .f32⟩
  | .hbm, ⟨78, _⟩ => ⟨S8192x128, .f32⟩
  | .hbm, ⟨79, _⟩ => ⟨S8192x64, .f32⟩
  | .hbm, ⟨80, _⟩ => ⟨S_, .i32⟩
  | .hbm, ⟨81, _⟩ => ⟨S8192x64, .i32⟩
  | .hbm, ⟨82, _⟩ => ⟨S8192x64, .i1⟩
  | .hbm, ⟨83, _⟩ => ⟨S_, .i32⟩
  | .hbm, ⟨84, _⟩ => ⟨S8192x64, .i32⟩
  | .hbm, ⟨85, _⟩ => ⟨S8192x64, .i32⟩
  | .hbm, ⟨86, _⟩ => ⟨S8192x64, .i32⟩
  | .hbm, ⟨87, _⟩ => ⟨S_, .i32⟩
  | .hbm, ⟨88, _⟩ => ⟨S8192x64, .i32⟩
  | .hbm, ⟨89, _⟩ => ⟨S8192x64, .i1⟩
  | .hbm, ⟨90, _⟩ => ⟨S_, .i32⟩
  | .hbm, ⟨91, _⟩ => ⟨S8192x64, .i32⟩
  | .hbm, ⟨92, _⟩ => ⟨S8192x64, .i32⟩
  | .hbm, ⟨93, _⟩ => ⟨S8192x64, .i32⟩
  | .hbm, ⟨94, _⟩ => ⟨S8192x64x1, .i32⟩
  | .hbm, ⟨95, _⟩ => ⟨S8192x64x1, .i32⟩
  | .hbm, ⟨96, _⟩ => ⟨S8192x64x2, .i32⟩
  | .hbm, ⟨97, _⟩ => ⟨S8192x128, .f32⟩
  | .hbm, ⟨98, _⟩ => ⟨S_, .i32⟩
  | .hbm, ⟨99, _⟩ => ⟨S8192, .i32⟩
  | .hbm, ⟨100, _⟩ => ⟨S8192, .i32⟩
  | .hbm, ⟨101, _⟩ => ⟨S8192, .f32⟩
  | .hbm, ⟨102, _⟩ => ⟨S8192x1, .f32⟩
  | .hbm, ⟨103, _⟩ => ⟨S8192x128, .f32⟩
  | .hbm, ⟨104, _⟩ => ⟨S8192x128, .f32⟩
  | .hbm, ⟨105, _⟩ => ⟨S128x1024, .f32⟩
  | .hbm, ⟨106, _⟩ => ⟨S8192x1024, .f32⟩
  | .hbm, ⟨107, _⟩ => ⟨S1x1024, .f32⟩
  | .hbm, ⟨108, _⟩ => ⟨S8192x1024, .f32⟩
  | .hbm, ⟨109, _⟩ => ⟨S8192x1024, .f32⟩
  | .hbm, ⟨110, _⟩ => ⟨S128x1024, .f32⟩
  | .hbm, ⟨111, _⟩ => ⟨S8192x1024, .f32⟩
  | .hbm, ⟨112, _⟩ => ⟨S1x1024, .f32⟩
  | .hbm, ⟨113, _⟩ => ⟨S8192x1024, .f32⟩
  | .hbm, ⟨114, _⟩ => ⟨S8192x1024, .f32⟩
  | .hbm, ⟨115, _⟩ => ⟨S8192x1, .i32⟩
  | .hbm, ⟨116, _⟩ => ⟨S1x8192, .i32⟩
  | .hbm, ⟨117, _⟩ => ⟨S8192x8192, .i32⟩
  | .hbm, ⟨118, _⟩ => ⟨S8192x8192, .i32⟩
  | .hbm, ⟨119, _⟩ => ⟨S8192x8192, .i32⟩
  | .hbm, ⟨120, _⟩ => ⟨S8192x8192, .i32⟩
  | .hbm, ⟨121, _⟩ => ⟨S8192x8192, .f32⟩
  | .hbm, ⟨122, _⟩ => ⟨S_, .f32⟩
  | .hbm, ⟨123, _⟩ => ⟨S8192x8192, .f32⟩
  | .hbm, ⟨124, _⟩ => ⟨S8192x8192, .f32⟩
  | .hbm, ⟨125, _⟩ => ⟨S_, .f32⟩
  | .hbm, ⟨126, _⟩ => ⟨S8192x8192, .f32⟩
  | .hbm, ⟨127, _⟩ => ⟨S8192x8192, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_v2 : Ref sig .tc := ⟨.hbm, 14, rfl⟩
abbrev main_c_1 : Ref sig .tc := ⟨.hbm, 15, rfl⟩
abbrev main_v3 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v10 : Ref sig .tc := ⟨.hbm, 45, rfl⟩
abbrev main_c_4 : Ref sig .tc := ⟨.hbm, 46, rfl⟩
abbrev main_v11 : Ref sig .tc := ⟨.hbm, 47, rfl⟩
abbrev main_v12 : Ref sig .tc := ⟨.hbm, 48, rfl⟩
abbrev main_c_5 : Ref sig .tc := ⟨.hbm, 49, rfl⟩
abbrev main_v13 : Ref sig .tc := ⟨.hbm, 50, rfl⟩
abbrev main_v14 : Ref sig .tc := ⟨.hbm, 51, rfl⟩
abbrev main_c_6 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_v5 : Ref sig .tc := ⟨.hbm, 61, rfl⟩
abbrev main_call2_v6 : Ref sig .tc := ⟨.hbm, 62, rfl⟩
abbrev main_call2_c_2 : Ref sig .tc := ⟨.hbm, 63, rfl⟩
abbrev main_call2_v7 : Ref sig .tc := ⟨.hbm, 64, rfl⟩
abbrev main_call2_v8 : Ref sig .tc := ⟨.hbm, 65, rfl⟩
abbrev main_call2_c_3 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_cst : Ref sig .tc := ⟨.hbm, 77, rfl⟩
abbrev main_v19 : Ref sig .tc := ⟨.hbm, 78, rfl⟩
abbrev main_v20 : Ref sig .tc := ⟨.hbm, 79, rfl⟩
abbrev main_c_7 : Ref sig .tc := ⟨.hbm, 80, rfl⟩
abbrev main_v21 : Ref sig .tc := ⟨.hbm, 81, rfl⟩
abbrev main_v22 : Ref sig .tc := ⟨.hbm, 82, rfl⟩
abbrev main_c_8 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_c_9 : Ref sig .tc := ⟨.hbm, 87, rfl⟩
abbrev main_v26 : Ref sig .tc := ⟨.hbm, 88, rfl⟩
abbrev main_v27 : Ref sig .tc := ⟨.hbm, 89, rfl⟩
abbrev main_c_10 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_c_11 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_cst_12 : Ref sig .tc := ⟨.hbm, 122, rfl⟩
abbrev main_v58 : Ref sig .tc := ⟨.hbm, 123, rfl⟩
abbrev main_v59 : Ref sig .tc := ⟨.hbm, 124, rfl⟩
abbrev main_cst_13 : Ref sig .tc := ⟨.hbm, 125, rfl⟩
abbrev main_v60 : Ref sig .tc := ⟨.hbm, 126, rfl⟩
abbrev main_v61 : Ref sig .tc := ⟨.hbm, 127, rfl⟩

abbrev nD : Nat := 1
abbrev τ : Topo := Topo.v7x

variable {F : FTy → Type} [FloatOps F]

class Facts₀ : Prop where
  bcast_S_S8192x64 : S_.BroadcastsInDim S8192x64 (![] : Fin 0 → Fin S8192x64.rank)
  bcast_S8192x64_S8192x64x1_0_1 : S8192x64.BroadcastsInDim S8192x64x1 (![0, 1] : Fin 2 → Fin S8192x64x1.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S_S8192x128 : S_.BroadcastsInDim S8192x128 (![] : Fin 0 → Fin S8192x128.rank)
  concatenates_S8192x64x1_S8192x64x1_S8192x64x2_d2 : Shape.Concatenates [S8192x64x1, S8192x64x1] S8192x64x2 2
  bcast_S_S8192 : S_.BroadcastsInDim S8192 (![] : Fin 0 → Fin S8192.rank)
  bcast_S8192x1_S8192x128_0_1 : S8192x1.BroadcastsInDim S8192x128 (![0, 1] : Fin 2 → Fin S8192x128.rank)
  transposes_S1024x128_S128x1024_1_0 : S1024x128.Transposes [1, 0] S128x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  gather_S65536_S8192x64x1_S8192x64_n_0_n_n_0_2_1_wf : GatherDims.WF S65536 S8192x64x1 S8192x64 [] [0] [] [0] [] 2 ![1]
  scatter_S8192x128_S8192x64x2_S8192x64_n_01_01_2_wf : ScatterDims.WF S8192x128 S8192x64x2 S8192x64 [] [0, 1] [0, 1] 2
  dot_S8192x128_S128x1024_S8192x1024_1_0_0_1_n_n_wf : DotDims.WF S8192x128 S128x1024 S8192x1024 [1] [0] [0] [1] [] []

variable [Facts₀]

def gather_S65536_S8192x64x1_S8192x64_n_0_n_n_0_2_1 : GatherDims S65536 S8192x64x1 S8192x64 where
  offsetDims := []
  collapsedSliceDims := [0]
  operandBatchingDims := []
  startIndicesBatchingDims := []
  startIndexMap := [0]
  indexVectorDim := 2
  sliceSizes := ![1]
  wf := gather_S65536_S8192x64x1_S8192x64_n_0_n_n_0_2_1_wf
def scatter_S8192x128_S8192x64x2_S8192x64_n_01_01_2 : ScatterDims S8192x128 S8192x64x2 S8192x64 where
  updateWindowDims := []
  insertedWindowDims := [0, 1]
  scatterDimsToOperandDims := [0, 1]
  indexVectorDim := 2
  wf := scatter_S8192x128_S8192x64x2_S8192x64_n_01_01_2_wf
def dot_S8192x128_S128x1024_S8192x1024_1_0_0_1_n_n : DotDims S8192x128 S128x1024 S8192x1024 where
  lhsContracting := [1]
  rhsContracting := [0]
  lhsNonContracting := [0]
  rhsNonContracting := [1]
  lhsBatch := []
  rhsBatch := []
  wf := dot_S8192x128_S128x1024_S8192x1024_1_0_0_1_n_n_wf

class Facts : Prop extends Facts₀ where

variable [Facts]
-- ==== Proof.Spec.lean ====
/-
  The common closed forms of the two programs, over literal shapes, at the exact (extended-real) values.

  Both programs hash the gathered token of every set slot to a bin in [0, 128), count per set row the valid
  slots of each bin, divide the counts by the set's size (at least 1), project the normalised histogram by two
  weight matrices with a bias row each, and return the pairwise position distances scaled by -1.

  * `remT` is the floor remainder of a word array by a scalar word as the host spells it (a truncated remainder,
    then the divisor added back where the remainder and the divisor differ in sign), `binsT` the hash chain over
    it (clamp below at 0, wrap a negative index, gather, remainder, scale, shift, remainder), `validT` the slot
    mask as a number, `denV` the row's size (at least 1) as a number.
  * `projK` is a projection at (r, d): the sum over bins k of (the count of row r's valid slots whose bin word is
    k, divided by the row's size) times the weight at (k, d), plus the bias at d.
  * `geomK` is the distance term at (i, j): -1 times the absolute difference of the two position numbers, plus 0.
-/
import Idealize.ShloMosaic.PureOps.Ideal
import Idealize.ShloMosaic.Lib.ValueIdx

noncomputable section

namespace Cert.Spec

open Idealize.ShloMosaic Idealize.ShloMosaic.ValueIdx
open scoped BigOperators

abbrev T0 : Shape := ⟨0, ![]⟩
abbrev TTok : Shape := ⟨1, ![65536]⟩
abbrev TI : Shape := ⟨2, ![8192, 64]⟩
abbrev TI1 : Shape := ⟨3, ![8192, 64, 1]⟩
abbrev TRow : Shape := ⟨1, ![8192]⟩
abbrev TCol1 : Shape := ⟨2, ![8192, 1]⟩
abbrev TRow1 : Shape := ⟨2, ![1, 8192]⟩
abbrev TWt : Shape := ⟨2, ![128, 1024]⟩
abbrev TB1 : Shape := ⟨2, ![1, 1024]⟩
abbrev TOut : Shape := ⟨2, ![8192, 1024]⟩
abbrev TG : Shape := ⟨2, ![8192, 8192]⟩

/-- The floor remainder of each word of `x` by the scalar word `y` (`1` standing in for a zero divisor): the
    truncated remainder `r`, and `r + y` where `r` is nonzero and its sign differs from the divisor's. -/
def remT (hb : T0.BroadcastsInDim TI (![] : Fin 0 → Fin TI.rank)) (x : IVec TI 32) (y : IVec T0 32) : IVec TI 32 :=
  let y2 : IVec T0 32 := select (cmpi .eq (id y) (constantI T0 32 0#32)) (constantI T0 32 1#32) (id y)
  let v4 : IVec TI 32 := Host.remsi x (broadcastInDim TI ![] hb y2)
  let v6 : IVec TI 1 := cmpi .ne v4 (broadcastInDim TI ![] hb (constantI T0 32 0#32))
  let v8 : IVec TI 1 := cmpi .slt v4 (broadcastInDim TI ![] hb (constantI T0 32 0#32))
  let v9 : IVec T0 1 := cmpi .slt y2 (constantI T0 32 0#32)
  let v12 : IVec TI 1 := andi (cmpi .ne v8 (broadcastInDim TI ![] hb v9)) v6
  select v12 (addi v4 (broadcastInDim TI ![] hb y2)) v4

/-- The bin word of every set slot: the slot's index clamped below at 0 (a negative one wrapped by the table's
    length), the token gathered there, and the hash `((t mod 128) * 39 + 13) mod 128` of it, both remainders
    floor remainders. -/
def binsT (hb : T0.BroadcastsInDim TI (![] : Fin 0 → Fin TI.rank))
    (hb3 : TI.BroadcastsInDim TI1 (![0, 1] : Fin 2 → Fin TI1.rank))
    (hg : GatherDims.WF TTok TI1 TI [] [0] [] [0] [] 2 ![1])
    (tok : IVec TTok 32) (idx : IVec TI 32) : IVec TI 32 :=
  let v2 : IVec TI 32 := maxsi (broadcastInDim TI ![] hb (id (constantI T0 32 0#32))) idx
  let v7 : IVec TI 32 := select (cmpi .slt v2 (broadcastInDim TI ![] hb (constantI T0 32 0#32)))
    (addi v2 (broadcastInDim TI ![] hb (constantI T0 32 65536#32))) v2
  let v9 : IVec TI 32 := Host.gather (takeDims 65536 8192 64 hg) tok (broadcastInDim TI1 ![0, 1] hb3 v7)
  let v10 : IVec TI 32 := remT hb v9 (constantI T0 32 128#32)
  let v14 : IVec TI 32 := addi (muli v10 (broadcastInDim TI ![] hb (constantI T0 32 39#32)))
    (broadcastInDim TI ![] hb (constantI T0 32 13#32))
  remT hb v14 (constantI T0 32 128#32)

variable {F : FTy → Type} [FloatOps F]

/-- The slot mask as a number: 1 where the slot's index is at least 0, else 0. -/
def validT (hb : T0.BroadcastsInDim TI (![] : Fin 0 → Fin TI.rank)) (idx : IVec TI 32) : FVec F TI .f32 :=
  uitofp .f32 (cmpi .sge idx (broadcastInDim TI ![] hb (constantI T0 32 0#32)))

/-- The row's size, at least 1, as a number. -/
def denV (hb1 : T0.BroadcastsInDim TRow (![] : Fin 0 → Fin TRow.rank)) (sizes : IVec TRow 32) : FVec F TRow .f32 :=
  sitofp .f32 (maxsi sizes (broadcastInDim TRow ![] hb1 (constantI T0 32 1#32)))

/-- Row `r`'s count of bin `k`: the sum over the row's slots of the slot's mask where its bin word is `k`. -/
def counts (bins : IVec TI 32) (valid : FVec Ideal TI .f32) (r : Fin 8192) (k : Fin 128) : EReal :=
  ∑ s : Fin 64, if bins (ix2 r s) = BitVec.ofNat 32 k.val then valid (ix2 r s) else 0

/-- A projection at (r, d): the normalised histogram of row r against column d of the weights, plus the bias. -/
def projAt (bins : IVec TI 32) (valid : FVec Ideal TI .f32) (den : FVec Ideal TCol1 .f32) (wt : FVec Ideal TWt .f32)
    (bias : FVec Ideal TB1 .f32) (r : Fin 8192) (d : Fin 1024) : EReal :=
  (∑ k : Fin 128, Ideal.div (counts bins valid r k) (den (ix2 r (0 : Fin 1))) * wt (ix2 k d)) + bias (ix2 (0 : Fin 1) d)

/-- The projection as an array over [8192, 1024]. -/
def projK (bins : IVec TI 32) (valid : FVec Ideal TI .f32) (den : FVec Ideal TCol1 .f32) (wt : FVec Ideal TWt .f32)
    (bias : FVec Ideal TB1 .f32) : FVec Ideal TOut .f32 :=
  fun y => projAt bins valid den wt bias ⟨(y 0).val, idx2_lt0 y⟩ ⟨(y 1).val, idx2_lt1 y⟩

/-- The distance term at (i, j) from a column and a row of position numbers. -/
def geomAt (col : FVec Ideal TCol1 .f32) (row : FVec Ideal TRow1 .f32) (i j : Fin 8192) : EReal :=
  Ideal.ofBits .f32 0xBF800000#32 * (max (col (ix2 i (0 : Fin 1)) - row (ix2 (0 : Fin 1) j)) (-(col (ix2 i (0 : Fin 1)) - row (ix2 (0 : Fin 1) j))))
    + Ideal.ofBits .f32 0x00000000#32

/-- The distance term as an array over [8192, 8192]. -/
def geomK (col : FVec Ideal TCol1 .f32) (row : FVec Ideal TRow1 .f32) : FVec Ideal TG .f32 :=
  fun y => geomAt col row ⟨(y 0).val, idx2_lt0 y⟩ ⟨(y 1).val, idx2_lt1 y⟩

theorem projK_apply (bins : IVec TI 32) (valid : FVec Ideal TI .f32) (den : FVec Ideal TCol1 .f32) (wt : FVec Ideal TWt .f32)
    (bias : FVec Ideal TB1 .f32) (r : Fin 8192) (d : Fin 1024) :
    projK bins valid den wt bias (ix2 r d) = projAt bins valid den wt bias r d := rfl

theorem geomK_apply (col : FVec Ideal TCol1 .f32) (row : FVec Ideal TRow1 .f32) (i j : Fin 8192) :
    geomK col row (ix2 i j) = geomAt col row i j := rfl

end Cert.Spec

end
-- ==== Proof.LibPlainRows.lean ====
/-
  Plain matrix products, a bias row, and the leaky rectifier, read one entry at a time at the ideal values.

  * A product of an m×k by a k×n matrix that contracts the left operand's last axis with the right operand's
    first, read at (a, b), is the sum over c of left (a, c) · right (c, b) — for the host's product and for a
    kernel's product accumulated into the zero splat alike (`dotGeneral_rows_apply`, `matmul_zero_rows_apply`).
    The dimension record is any one that EQUALS the plain record; at a literal record that equation is `rfl`.
  * A vector of n entries laid along every row of an m×n matrix, read at (p, q), is the vector's entry q: the
    kernel spells it as a broadcast of the vector's one-row cast (`rowCast_broadcast_apply`), the host as two
    broadcasts in dimensions (`rowBroadcast_apply`).
  * The leaky rectifier `h ↦ h` where the test holds, `slope · h` elsewhere, gives the same value whether the test
    is `h > 0` or `h ≥ 0`: the two tests differ at `h = 0` only, where `slope · 0 = 0 = h`. No finiteness is used:
    at `⊤` and `⊥` both tests agree.
-/
import Idealize.ShloMosaic.Lib.StackMember

noncomputable section

namespace Idealize.ShloMosaic.PlainRows

open Idealize.ShloMosaic Idealize.ShloMosaic.ValueIdx

/-! ## Products -/

/-- The host's product over a record equal to the plain one, at (a, b): the sum over the contracted coordinate. -/
theorem dotGeneral_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into the zero splat over such a record, at (a, b): the same sum. -/
theorem matmul_zero_rows_apply {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  rw [matmul_zero_eq_dotGeneral]
  exact dotGeneral_rows_apply d hd prec A B a b

/-! ## A vector along every row -/

section Rows
variable {α : Type}

/-- The kernel's spelling: the vector cast to one row, broadcast down m rows; at (p, q) it is entry q. -/
theorem rowCast_broadcast_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 into one row, that row broadcast down m rows; at
    (p, q) it is entry q. -/
theorem rowBroadcast_apply {m n : Nat} (x : (⟨1, ![n]⟩ : Shape).Idx → α)
    (hd : (⟨1, ![n]⟩ : Shape).BroadcastsInDim ⟨2, ![1, n]⟩ ![1])
    (hbc : (⟨2, ![1, n]⟩ : Shape).BroadcastsInDim ⟨2, ![m, n]⟩ ![0, 1]) (p : Fin m) (q : Fin n) :
    broadcastInDim ⟨2, ![m, n]⟩ ![0, 1] hbc (broadcastInDim ⟨2, ![1, n]⟩ ![1] hd x) (ix2 p q) = x (ix1 q) := by
  rw [broadcastInDim_oneRow_apply hbc _ p q]
  refine broadcastInDim_apply ![1] hd x (ix2 (0 : Fin 1) q) (ix1 q) ?_
  intro a
  match a with
  | ⟨0, _⟩ =>
    show q.val = if n = 1 then 0 else q.val
    split
    · have := q.isLt; omega
    · rfl

end Rows

/-! ## The leaky rectifier -/

/-- The leaky rectifier with the STRICT test: `h` above zero, `s · h` elsewhere. -/
def leaky (s h : EReal) : EReal := if 0 < h then h else s * h

/-- With the test `0 ≤ h` the value is the same: at `h = 0` the other branch is `s · 0 = 0`. -/
theorem leaky_of_le_test (s h : EReal) : (if 0 ≤ h then h else s * h) = leaky s h := by
  unfold leaky
  by_cases h0 : 0 < h
  · rw [if_pos h0, if_pos h0.le]
  · by_cases h1 : 0 ≤ h
    · have e : h = 0 := le_antisymm (not_lt.mp h0) h1
      rw [if_pos h1, if_neg h0, e, mul_zero]
    · rw [if_neg h1, if_neg h0]

/-- A select on the ordered comparison `h > z`, for a pattern `z` that denotes zero. -/
theorem select_ogt {φ : FTy} (z : BitVec φ.bits) (hz : Ideal.ofBits φ z = 0) (h a b : Ideal φ) :
    Scalar.select (FloatOps.cmpf .ogt h (Scalar.ofBits (F := Ideal) φ z)) a b = if 0 < h then a else b := by
  show Scalar.select (Ideal.cmp .ogt h (Ideal.ofBits φ z)) a b = _
  rw [hz]
  unfold Scalar.select Ideal.cmp
  by_cases h0 : (0 : EReal) < h <;> simp [h0]

/-- A select on the ordered comparison `h ≥ z`, for a pattern `z` that denotes zero. -/
theorem select_oge {φ : FTy} (z : BitVec φ.bits) (hz : Ideal.ofBits φ z = 0) (h a b : Ideal φ) :
    Scalar.select (FloatOps.cmpf .oge h (Scalar.ofBits (F := Ideal) φ z)) a b = if 0 ≤ h then a else b := by
  show Scalar.select (Ideal.cmp .oge h (Ideal.ofBits φ z)) a b = _
  rw [hz]
  unfold Scalar.select Ideal.cmp
  by_cases h0 : (0 : EReal) ≤ h <;> simp [h0]

/-- The kernel's rectifier at one entry: a select on `h > 0` between `h` and `s · h`. -/
theorem select_ogt_leaky (s : BitVec 32) (h : Ideal .f32) :
    Scalar.select (FloatOps.cmpf .ogt h (Scalar.ofBits (F := Ideal) .f32 0x00000000#32)) h
      (Scalar.ofBits (F := Ideal) .f32 s * h) = leaky (Ideal.ofBits .f32 s) h :=
  select_ogt _ Ideal.ofBits_zero_f32 h _ _

/-- The host's rectifier at one entry: a select on `h ≥ 0` between `h` and `s · h`: the same value. -/
theorem select_oge_leaky (s : BitVec 32) (h : Ideal .f32) :
    Scalar.select (FloatOps.cmpf .oge h (Scalar.ofBits (F := Ideal) .f32 0x00000000#32)) h
      (Scalar.ofBits (F := Ideal) .f32 s * h) = leaky (Ideal.ofBits .f32 s) h :=
  (select_oge _ Ideal.ofBits_zero_f32 h _ _).trans (leaky_of_le_test _ h)

end Idealize.ShloMosaic.PlainRows

end
-- ==== Proof.KProjPay.lean ====
/-
  One entry of the projection kernel's block results, as a formula in the blocks it loads.

  For a block of 256 set rows the body forms, for every row p and bin k in [0, 128), the count of the row's 64
  slots whose bin word equals k, each slot weighted by its mask, and divides the count by the row's size: the
  normalised histogram. It then multiplies the 256 x 128 histogram by a 128 x 1024 weight matrix and adds a bias
  row. Read at (p, q) the result is

      (sum over k of (sum over s of [word (p, s) = k] * mask (p, s)) / size (p, 0) * weight (k, q)) + bias (0, q).

  At the exact values a change of float format is the identity, a product accumulated into the zero splat is the
  plain sum over the contracted axis, and a lane reduction is the sum over the lane coordinate; the comparison
  against the coordinate counter along the bin axis is the test "the word is the bin's number". The second result
  of the body is the same function of the second weight matrix and bias row.
-/
import proofs.«423792_j90847148245151_1_alg».proof.Proof.Gen.KernelIdeal.Skeleton
import proofs.«423792_j90847148245151_1_alg».proof.Proof.LibPlainRows
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx
open scoped BigOperators

/-- A choice on the equality test of two words is the choice on their equality. -/
theorem select_cmpi_eq {α : Type} (x y : BitVec 32) (a b : α) :
    Scalar.select (IntOp.cmpi .eq x y) a b = if x = y then a else b := by
  show (if BitVec.ofBool (x == y) = 1#1 then a else b) = _
  by_cases h : x = y
  · subst h
    rw [if_pos rfl, beq_self_eq_true]
    exact if_pos rfl
  · have hb : (x == y) = false := beq_eq_false_iff_ne.mpr h
    rw [hb, if_neg h]
    exact if_neg (by decide)

/-- A [256, 64] array viewed as [256, 1, 64] and repeated along the middle axis to [256, 128, 64], read at
    (p, k, s), is the array at (p, s): the middle coordinate is forgotten. -/
theorem lane_apply {α : Type} (x : S256x64.Idx → α) (hc : S256x64.ShapeCasts S256x1x64)
    (hb : S256x1x64.Broadcasts S256x128x64) (p : Fin 256) (k : Fin 128) (s : Fin 64) :
    broadcastTo S256x128x64 (shapeCast S256x1x64 x hc) hb (ix3 p k s) = x (ix2 p s) := by
  have e1 := broadcastTo_apply (shapeCast S256x1x64 x hc) hb (ix3 p k s) (ix3 p (0 : Fin 1) s) (by
    intro a
    match a with
    | ⟨0, _⟩ => rfl
    | ⟨1, _⟩ => rfl
    | ⟨2, _⟩ => rfl)
  have e2 := shapeCast_apply x hc (ix3 p (0 : Fin 1) s) (ix2 p s) (by
    rw [Shape.rowMajor_val_two, Shape.rowMajor_val_three]
    show p.val * 64 + s.val = (p.val * 1 + 0) * 64 + s.val
    omega)
  exact e1.trans e2

/-- The sum along the last axis of a [256, 128, 64] array, read at (p, k), is the sum over s of the array at
    (p, k, s). -/
theorem laneSum_apply (src : FVec Ideal S256x128x64 .f32) (h : S256x128x64.Reduces [2] S256x128) (hφ : FKind.Formats .f32)
    (hacc : (0x00000000#32 : BitVec 32) = FKind.add.neutral .f32 hφ) (p : Fin 256) (k : Fin 128) :
    multiReduction (F := Ideal) .add [2] S256x128 src 0x00000000#32 h hφ hacc (ix2 p k) = ∑ s : Fin 64, src (ix3 p k s) := by
  refine (Ideal.multiReduction_add_single src 0x00000000#32 h hφ hacc (ix2 p k)).trans ?_
  refine Finset.sum_congr rfl fun s _ => congrArg src ?_
  funext c
  apply Fin.ext
  match c with
  | ⟨0, _⟩ => rfl
  | ⟨1, _⟩ => rfl
  | ⟨2, _⟩ => rfl

/-- The normalised histogram at (p, k): the masked count of row p's slots whose word is k, over the row's size. -/
theorem hist_apply (x0 : Vec Ideal S256x64 .i32) (x1 : Vec Ideal S256x64 .f32) (x2 : Vec Ideal S256x1 .f32)
    (p : Fin 256) (k : Fin 128) :
    k0_pay1 (F := Ideal) x0 x1 x2 (ix2 p k)
      = Ideal.div (∑ s : Fin 64, if x0 (ix2 p s) = BitVec.ofNat 32 k.val then x1 (ix2 p s) else 0) (x2 (ix2 p (0 : Fin 1))) := by
  unfold k0_pay1
  show Ideal.div (multiReduction (F := Ideal) .add [2] S256x128 _ 0x00000000#32 _ _ _ (ix2 p k))
    (broadcastTo S256x128 (shapeCast S256x1 x2 shapeCasts_S256x1_S256x1) broadcasts_S256x1_S256x128 (ix2 p k)) = _
  refine congrArg₂ Ideal.div ?_ ?_
  · refine (laneSum_apply _ _ _ _ p k).trans ?_
    refine Finset.sum_congr rfl fun s _ => ?_
    show Scalar.select (IntOp.cmpi .eq
        (broadcastTo S256x128x64 (shapeCast S256x1x64 (shapeCast S256x64 x0 shapeCasts_S256x64_S256x64) shapeCasts_S256x64_S256x1x64)
          broadcasts_S256x1x64_S256x128x64 (ix3 p k s))
        (iota Kind.tc S256x128x64 32 [1] iota_S256x128x64_d1_w32 (ix3 p k s)))
      (broadcastTo S256x128x64 (shapeCast S256x1x64 (shapeCast S256x1x64 (shapeCast S256x64 x1 shapeCasts_S256x64_S256x64) shapeCasts_S256x64_S256x1x64)
          shapeCasts_S256x1x64_S256x1x64) broadcasts_S256x1x64_S256x128x64 (ix3 p k s))
      (Ideal.ofBits .f32 0x00000000#32) = _
    rw [shapeCast_self x0, shapeCast_self x1, shapeCast_self _ shapeCasts_S256x1x64_S256x1x64, lane_apply, lane_apply,
      iota_single_apply, select_cmpi_eq, Ideal.ofBits_zero_f32]
  · rw [shapeCast_self]
    exact broadcastTo_apply x2 broadcasts_S256x1_S256x128 (ix2 p k) (ix2 p (0 : Fin 1)) (by
      intro a
      match a with
      | ⟨0, _⟩ => rfl
      | ⟨1, _⟩ => rfl)

/-- The first block result at (p, q): the histogram row p against weight column q, plus the bias at q. -/
theorem proj2_apply (x0 : Vec Ideal S256x64 .i32) (x1 : Vec Ideal S256x64 .f32) (x2 : Vec Ideal S256x1 .f32)
    (x3 : Vec Ideal S128x1024 .f32) (x4 : Vec Ideal S1x1024 .f32) (p : Fin 256) (q : Fin 1024) :
    k0_pay2 (F := Ideal) x0 x1 x2 x3 x4 (ix2 p q)
      = (∑ k : Fin 128, Ideal.div (∑ s : Fin 64, if x0 (ix2 p s) = BitVec.ofNat 32 k.val then x1 (ix2 p s) else 0)
            (x2 (ix2 p (0 : Fin 1))) * x3 (ix2 k q)) + x4 (ix2 (0 : Fin 1) q) := by
  unfold k0_pay2
  show matmul dot_S256x128_S128x1024_S256x1024_1_0_0_1_n_n none (k0_pay1 (F := Ideal) x0 x1 x2)
        (truncf .bf16 (shapeCast S128x1024 x3 shapeCasts_S128x1024_S128x1024) bitsLt_bf16_f32)
        (constant (F := Ideal) S256x1024 .f32 0x00000000#32) (ix2 p q)
      + broadcastTo S256x1024 (shapeCast S1x1024 x4 shapeCasts_S1x1024_S1x1024) broadcasts_S1x1024_S256x1024 (ix2 p q) = _
  refine congrArg₂ (· + ·) ?_ ?_
  · refine (PlainRows.matmul_zero_rows_apply dot_S256x128_S128x1024_S256x1024_1_0_0_1_n_n rfl none
      (k0_pay1 (F := Ideal) x0 x1 x2) (truncf .bf16 (shapeCast S128x1024 x3 shapeCasts_S128x1024_S128x1024) bitsLt_bf16_f32) p q).trans ?_
    refine Finset.sum_congr rfl fun k _ => ?_
    rw [hist_apply x0 x1 x2 p k]
    show _ * shapeCast S128x1024 x3 shapeCasts_S128x1024_S128x1024 (ix2 k q) = _
    rw [shapeCast_self]
  · rw [shapeCast_self]
    exact broadcastTo_apply x4 broadcasts_S1x1024_S256x1024 (ix2 p q) (ix2 (0 : Fin 1) q) (by
      intro a
      match a with
      | ⟨0, _⟩ => rfl
      | ⟨1, _⟩ => rfl)

/-- The second block result is the same function of its five operands as the first. -/
theorem pay3_eq_pay2 (x0 : Vec Ideal S256x64 .i32) (x1 : Vec Ideal S256x64 .f32) (x2 : Vec Ideal S256x1 .f32)
    (x3 : Vec Ideal S128x1024 .f32) (x4 : Vec Ideal S1x1024 .f32) :
    k0_pay3 (F := Ideal) x0 x1 x2 x3 x4 = k0_pay2 (F := Ideal) x0 x1 x2 x3 x4 := rfl

end Cert.KernelIdeal.Hand

end
-- ==== Proof.KProj.lean ====
/-
  The projection kernel's two output arrays: every [256, 1024] block the grid writes is the block of one
  function of the whole bin words, slot masks, row sizes, weights and bias, and the blocks cover [8192, 1024].

  The grid has 32 points. At point t the body loads rows 256 t .. 256 t + 255 of the bin words, of the slot
  masks and of the row sizes, and the whole weight matrices and bias rows, and writes rows 256 t .. 256 t + 255
  of each result. Row p of a loaded block is therefore row r = 256 t + p of its array, so the block's entry
  (p, q) — the normalised histogram of row r against weight column q, plus the bias at q — is the closed form
  `Spec.projAt` at (r, q), which depends on row r of the three row arrays only. The point that writes row r is
  r / 256, so the 32 blocks cover all 8192 rows and each result array ends as `Spec.projK` of the arrays.
-/
import proofs.«423792_j90847148245151_1_alg».proof.Proof.Gen.KernelIdeal.Frame
import proofs.«423792_j90847148245151_1_alg».proof.Proof.Spec
import proofs.«423792_j90847148245151_1_alg».proof.Proof.KProjPay
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-- The offsets (0, 0), as the constant function. -/
theorem hz : (![0, 0] : Fin 2 → Nat) = fun _ => 0 := funext fun a => by fin_cases a <;> rfl

/-- One entry of a block result against the whole arrays: where row p of the loaded row blocks is row r of
    their arrays, and the loaded weights and bias are the whole matrices, the block's entry (p, q) is the
    projection at (r, q). -/
theorem block_entry (X0 : IVec Cert.Spec.TI 32) (X1 : FVec Ideal Cert.Spec.TI .f32) (X2 : FVec Ideal Cert.Spec.TCol1 .f32)
    (X3 : FVec Ideal Cert.Spec.TWt .f32) (X4 : FVec Ideal Cert.Spec.TB1 .f32)
    (x0 : Vec Ideal S256x64 .i32) (x1 : Vec Ideal S256x64 .f32) (x2 : Vec Ideal S256x1 .f32)
    (x3 : Vec Ideal S128x1024 .f32) (x4 : Vec Ideal S1x1024 .f32)
    (p : Fin 256) (q : Fin 1024) (r : Fin 8192)
    (h0 : ∀ s : Fin 64, x0 (ix2 p s) = X0 (ix2 r s))
    (h1 : ∀ s : Fin 64, x1 (ix2 p s) = X1 (ix2 r s))
    (h2 : x2 (ix2 p (0 : Fin 1)) = X2 (ix2 r (0 : Fin 1)))
    (h3 : ∀ k : Fin 128, x3 (ix2 k q) = X3 (ix2 k q))
    (h4 : x4 (ix2 (0 : Fin 1) q) = X4 (ix2 (0 : Fin 1) q)) :
    k0_pay2 (F := Ideal) x0 x1 x2 x3 x4 (ix2 p q) = Cert.Spec.projAt X0 X1 X2 X3 X4 r q := by
  rw [proj2_apply]
  unfold Cert.Spec.projAt Cert.Spec.counts
  simp only [h0, h1, h2, h3, h4]

/-- The block indices at every grid point: the three row arrays and the two results move with the point along
    the rows (block t at point t), the weights and bias stay at block (0, 0); no window moves along the columns. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The loaded blocks as rows of their arrays

An entry of a block sits in its array, on each axis, at block index × block size + its own coordinate. -/

section Blocks
variable (V : (c : Dev nD) → (b : Ref sig .tc) → Buf (Elt Ideal) ((c : Thread nD τ).loc b)) (c : Dev nD)

/-- Row p of the bin-word block at point t is row 256 t + p of the bin words. -/
theorem blk0_apply (t : Fin cfg0.N) (p : Fin 256) (s : Fin 64) (r : Fin 8192) (hr : r.val = t.val * 256 + p.val) :
    (iblk0 (F := Ideal) V c 0 t : Vec Ideal S256x64 .i32) (ix2 p s) = (V c main_v15 : IVec Cert.Spec.TI 32) (ix2 r s) := by
  obtain ⟨e0, e1, -⟩ := idx_facts t
  unfold iblk0
  rw [View.read_apply]
  show V c main_v15 _ = V c main_v15 _
  congr 1
  funext a
  apply Fin.ext
  match a with
  | ⟨0, _⟩ => show win0_0.index t (0 : Fin 2) * 256 + 1 * p.val = r.val; rw [e0, hr]; omega
  | ⟨1, _⟩ => show win0_0.index t (1 : Fin 2) * 64 + 1 * s.val = s.val; rw [e1]; omega

/-- Row p of the mask block at point t is row 256 t + p of the masks. -/
theorem blk1_apply (t : Fin cfg0.N) (p : Fin 256) (s : Fin 64) (r : Fin 8192) (hr : r.val = t.val * 256 + p.val) :
    (iblk0 (F := Ideal) V c 1 t : Vec Ideal S256x64 .f32) (ix2 p s) = (V c main_v16 : FVec Ideal Cert.Spec.TI .f32) (ix2 r s) := by
  obtain ⟨-, -, e0, e1, -⟩ := idx_facts t
  unfold iblk0
  rw [View.read_apply]
  show V c main_v16 _ = V c main_v16 _
  congr 1
  funext a
  apply Fin.ext
  match a with
  | ⟨0, _⟩ => show win0_1.index t (0 : Fin 2) * 256 + 1 * p.val = r.val; rw [e0, hr]; omega
  | ⟨1, _⟩ => show win0_1.index t (1 : Fin 2) * 64 + 1 * s.val = s.val; rw [e1]; omega

/-- Row p of the size block at point t is row 256 t + p of the sizes. -/
theorem blk2_apply (t : Fin cfg0.N) (p : Fin 256) (r : Fin 8192) (hr : r.val = t.val * 256 + p.val) :
    (iblk0 (F := Ideal) V c 2 t : Vec Ideal S256x1 .f32) (ix2 p (0 : Fin 1)) = (V c main_v20 : FVec Ideal Cert.Spec.TCol1 .f32) (ix2 r (0 : Fin 1)) := by
  obtain ⟨-, -, -, -, e0, e1, -⟩ := idx_facts t
  unfold iblk0
  rw [View.read_apply]
  show V c main_v20 _ = V c main_v20 _
  congr 1
  funext a
  apply Fin.ext
  match a with
  | ⟨0, _⟩ => show win0_2.index t (0 : Fin 2) * 256 + 1 * p.val = r.val; rw [e0, hr]; omega
  | ⟨1, _⟩ => show win0_2.index t (1 : Fin 2) * 1 + 1 * 0 = 0; rw [e1]

/-- The first weight block at every point is the whole first weight matrix. -/
theorem blk3_apply (t : Fin cfg0.N) (k : Fin 128) (q : Fin 1024) :
    (iblk0 (F := Ideal) V c 3 t : Vec Ideal S128x1024 .f32) (ix2 k q) = (V c main_v21 : FVec Ideal Cert.Spec.TWt .f32) (ix2 k q) := by
  obtain ⟨-, -, -, -, -, -, e0, e1, -⟩ := idx_facts t
  unfold iblk0
  rw [View.read_apply]
  show V c main_v21 _ = V c main_v21 _
  congr 1
  funext a
  apply Fin.ext
  match a with
  | ⟨0, _⟩ => show win0_3.index t (0 : Fin 2) * 128 + 1 * k.val = k.val; rw [e0]; omega
  | ⟨1, _⟩ => show win0_3.index t (1 : Fin 2) * 1024 + 1 * q.val = q.val; rw [e1]; omega

/-- The first bias block at every point is the whole first bias row. -/
theorem blk4_apply (t : Fin cfg0.N) (q : Fin 1024) :
    (iblk0 (F := Ideal) V c 4 t : Vec Ideal S1x1024 .f32) (ix2 (0 : Fin 1) q) = (V c main_v23 : FVec Ideal Cert.Spec.TB1 .f32) (ix2 (0 : Fin 1) q) := by
  obtain ⟨-, -, -, -, -, -, -, -, e0, e1, -⟩ := idx_facts t
  unfold iblk0
  rw [View.read_apply]
  show V c main_v23 _ = V c main_v23 _
  congr 1
  funext a
  apply Fin.ext
  match a with
  | ⟨0, _⟩ => show win0_4.index t (0 : Fin 2) * 1 + 1 * 0 = 0; rw [e0]
  | ⟨1, _⟩ => show win0_4.index t (1 : Fin 2) * 1024 + 1 * q.val = q.val; rw [e1]; omega

/-- The second weight block at every point is the whole second weight matrix. -/
theorem blk5_apply (t : Fin cfg0.N) (k : Fin 128) (q : Fin 1024) :
    (iblk0 (F := Ideal) V c 5 t : Vec Ideal S128x1024 .f32) (ix2 k q) = (V c main_v22 : FVec Ideal Cert.Spec.TWt .f32) (ix2 k q) := by
  obtain ⟨-, -, -, -, -, -, -, -, -, -, e0, e1, -⟩ := idx_facts t
  unfold iblk0
  rw [View.read_apply]
  show V c main_v22 _ = V c main_v22 _
  congr 1
  funext a
  apply Fin.ext
  match a with
  | ⟨0, _⟩ => show win0_5.index t (0 : Fin 2) * 128 + 1 * k.val = k.val; rw [e0]; omega
  | ⟨1, _⟩ => show win0_5.index t (1 : Fin 2) * 1024 + 1 * q.val = q.val; rw [e1]; omega

/-- The second bias block at every point is the whole second bias row. -/
theorem blk6_apply (t : Fin cfg0.N) (q : Fin 1024) :
    (iblk0 (F := Ideal) V c 6 t : Vec Ideal S1x1024 .f32) (ix2 (0 : Fin 1) q) = (V c main_v24 : FVec Ideal Cert.Spec.TB1 .f32) (ix2 (0 : Fin 1) q) := by
  obtain ⟨-, -, -, -, -, -, -, -, -, -, -, -, e0, e1, -⟩ := idx_facts t
  unfold iblk0
  rw [View.read_apply]
  show V c main_v24 _ = V c main_v24 _
  congr 1
  funext a
  apply Fin.ext
  match a with
  | ⟨0, _⟩ => show win0_6.index t (0 : Fin 2) * 1 + 1 * 0 = 0; rw [e0]
  | ⟨1, _⟩ => show win0_6.index t (1 : Fin 2) * 1024 + 1 * q.val = q.val; rw [e1]; omega

end Blocks

/-! ## What each point writes back -/

section WriteBacks
variable (V : (c : Dev nD) → (b : Ref sig .tc) → Buf (Elt Ideal) ((c : Thread nD τ).loc b)) (c : Dev nD)

/-- Point t writes into the first result rows 256 t .. 256 t + 255 of the projection by the first weights and bias. -/
theorem flushed7_eq (t : Fin cfg0.N) :
    (dat0 (F := Ideal) V c).flushed 7 t = ((cfg0.win 7).blk t).view.read (Elt Ideal)
      (Cert.Spec.projK (V c main_v15) (V c main_v16) (V c main_v20) (V c main_v21) (V c main_v23)) := by
  obtain ⟨-, -, -, -, -, -, -, -, -, -, -, -, -, -, e0, e1, -⟩ := idx_facts t
  have hN : t.val < 32 := Nat.lt_of_lt_of_eq t.isLt N_0
  show (cfg0.win 7).cut (grid0.coords t) ((dat0 V c).after 7 t) = _
  rw [after0_7]
  unfold out0_7
  rw [View.canon_unit_zero hz]
  simp only [View.ld_unit_zero (S := S256x64) hz, View.ld_unit_zero (S := S256x1) hz,
    View.ld_unit_zero (S := S128x1024) hz, View.ld_unit_zero (S := S1x1024) hz]
  funext j
  obtain ⟨p, q, rfl⟩ : ∃ (p : Fin 256) (q : Fin 1024), j = ix2 p q := ⟨j 0, j 1, eq_ix2 j⟩
  have hr : t.val * 256 + p.val < 8192 := by have := p.isLt; omega
  refine (block_entry (V c main_v15) (V c main_v16) (V c main_v20) (V c main_v21) (V c main_v23)
    (iblk0 V c 0 t) (iblk0 V c 1 t) (iblk0 V c 2 t) (iblk0 V c 3 t) (iblk0 V c 4 t) p q ⟨t.val * 256 + p.val, hr⟩
    (fun s => blk0_apply V c t p s ⟨t.val * 256 + p.val, hr⟩ rfl) (fun s => blk1_apply V c t p s ⟨t.val * 256 + p.val, hr⟩ rfl)
    (blk2_apply V c t p ⟨t.val * 256 + p.val, hr⟩ rfl) (fun k => blk3_apply V c t k q) (blk4_apply V c t q)).trans ?_
  have he : ((cfg0.win 7).blk t).view.emb (ix2 p q) = (ix2 (⟨t.val * 256 + p.val, hr⟩ : Fin 8192) q : Cert.Spec.TOut.Idx) := by
    funext a
    apply Fin.ext
    match a with
    | ⟨0, _⟩ => show win0_7.index t (0 : Fin 2) * 256 + 1 * p.val = t.val * 256 + p.val; rw [e0]; omega
    | ⟨1, _⟩ => show win0_7.index t (1 : Fin 2) * 1024 + 1 * q.val = q.val; rw [e1]; omega
  rw [View.read_apply, he]
  rfl

/-- Point t writes into the second result the same rows of the projection by the second weights and bias: the
    second block result is the first's function at the second weights and bias. -/
theorem flushed8_eq (t : Fin cfg0.N) :
    (dat0 (F := Ideal) V c).flushed 8 t = ((cfg0.win 8).blk t).view.read (Elt Ideal)
      (Cert.Spec.projK (V c main_v15) (V c main_v16) (V c main_v20) (V c main_v22) (V c main_v24)) := by
  obtain ⟨-, -, -, -, -, -, -, -, -, -, -, -, -, -, -, -, e0, e1⟩ := idx_facts t
  have hN : t.val < 32 := Nat.lt_of_lt_of_eq t.isLt N_0
  show (cfg0.win 8).cut (grid0.coords t) ((dat0 V c).after 8 t) = _
  rw [after0_8]
  unfold out0_8
  rw [View.canon_unit_zero hz]
  simp only [View.ld_unit_zero (S := S256x64) hz, View.ld_unit_zero (S := S256x1) hz,
    View.ld_unit_zero (S := S128x1024) hz, View.ld_unit_zero (S := S1x1024) hz]
  funext j
  obtain ⟨p, q, rfl⟩ : ∃ (p : Fin 256) (q : Fin 1024), j = ix2 p q := ⟨j 0, j 1, eq_ix2 j⟩
  have hr : t.val * 256 + p.val < 8192 := by have := p.isLt; omega
  refine ((congrFun (pay3_eq_pay2 (iblk0 V c 0 t) (iblk0 V c 1 t) (iblk0 V c 2 t) (iblk0 V c 5 t) (iblk0 V c 6 t)) (ix2 p q)).trans
    (block_entry (V c main_v15) (V c main_v16) (V c main_v20) (V c main_v22) (V c main_v24)
    (iblk0 V c 0 t) (iblk0 V c 1 t) (iblk0 V c 2 t) (iblk0 V c 5 t) (iblk0 V c 6 t) p q ⟨t.val * 256 + p.val, hr⟩
    (fun s => blk0_apply V c t p s ⟨t.val * 256 + p.val, hr⟩ rfl) (fun s => blk1_apply V c t p s ⟨t.val * 256 + p.val, hr⟩ rfl)
    (blk2_apply V c t p ⟨t.val * 256 + p.val, hr⟩ rfl) (fun k => blk5_apply V c t k q) (blk6_apply V c t q))).trans ?_
  have he : ((cfg0.win 8).blk t).view.emb (ix2 p q) = (ix2 (⟨t.val * 256 + p.val, hr⟩ : Fin 8192) q : Cert.Spec.TOut.Idx) := by
    funext a
    apply Fin.ext
    match a with
    | ⟨0, _⟩ => show win0_8.index t (0 : Fin 2) * 256 + 1 * p.val = t.val * 256 + p.val; rw [e0]; omega
    | ⟨1, _⟩ => show win0_8.index t (1 : Fin 2) * 1024 + 1 * q.val = q.val; rw [e1]; omega
  rw [View.read_apply, he]
  rfl

/-- An index of the first result is in point t's block iff each coordinate is in the block's range on its axis. -/
theorem mem_blk7 (t : Fin cfg0.N) (i : S8192x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v25_0).slice (win0_7.rect t)).set ↔ _
  rw [View.set_slice_whole, Rect.mem_set_unit]
  exact Iff.rfl

/-- The same for the second result. -/
theorem mem_blk8 (t : Fin cfg0.N) (i : S8192x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v25_1).slice (win0_8.rect t)).set ↔ _
  rw [View.set_slice_whole, Rect.mem_set_unit]
  exact Iff.rfl

/-- Every index of the first result is in the block of the point r / 256, r its row. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ : ∃ t : Fin cfg0.N, t.val = (i 0).val / 256 :=
    ⟨⟨(i 0).val / 256, Nat.lt_of_lt_of_eq (by omega : (i 0).val / 256 < 32) N_0.symm⟩, rfl⟩
  obtain ⟨-, -, -, -, -, -, -, -, -, -, -, -, -, -, e0, e1, -⟩ := idx_facts t
  refine ⟨t, flush0_7 t, ?_⟩
  rw [mem_blk7]
  intro a
  match a with
  | ⟨0, _⟩ =>
    show win0_7.index t (0 : Fin 2) * 256 ≤ (i 0).val ∧ (i 0).val < win0_7.index t (0 : Fin 2) * 256 + 256
    rw [e0, ht]; omega
  | ⟨1, _⟩ =>
    show win0_7.index t (1 : Fin 2) * 1024 ≤ (i 1).val ∧ (i 1).val < win0_7.index t (1 : Fin 2) * 1024 + 1024
    rw [e1]; omega

/-- Every index of the second result is in the block of the point r / 256, r its row. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t, ht⟩ : ∃ t : Fin cfg0.N, t.val = (i 0).val / 256 :=
    ⟨⟨(i 0).val / 256, Nat.lt_of_lt_of_eq (by omega : (i 0).val / 256 < 32) N_0.symm⟩, rfl⟩
  obtain ⟨-, -, -, -, -, -, -, -, -, -, -, -, -, -, -, -, e0, e1⟩ := idx_facts t
  refine ⟨t, flush0_8 t, ?_⟩
  rw [mem_blk8]
  intro a
  match a with
  | ⟨0, _⟩ =>
    show win0_8.index t (0 : Fin 2) * 256 ≤ (i 0).val ∧ (i 0).val < win0_8.index t (0 : Fin 2) * 256 + 256
    rw [e0, ht]; omega
  | ⟨1, _⟩ =>
    show win0_8.index t (1 : Fin 2) * 1024 ≤ (i 1).val ∧ (i 1).val < win0_8.index t (1 : Fin 2) * 1024 + 1024
    rw [e1]; omega

end WriteBacks

/-- After the projection region the first result array is `Spec.projK` of the arrays the region found. -/
theorem proj_final7 (V : (c : Dev nD) → (b : Ref sig .tc) → Buf (Elt Ideal) ((c : Thread nD τ).loc b)) (c : Dev nD) :
    (dat0 (F := Ideal) V c).arrAt 7 cfg0.N
      = Cert.Spec.projK (V c main_v15) (V c main_v16) (V c main_v20) (V c main_v21) (V c main_v23) :=
  (dat0 (F := Ideal) V c).arrAt_eq_of_cover 7
    (Cert.Spec.projK (V c main_v15) (V c main_v16) (V c main_v20) (V c main_v21) (V c main_v23))
    (fun t _ => flushed7_eq V c t) cover7

/-- The second result array, over the second weights and bias. -/
theorem proj_final8 (V : (c : Dev nD) → (b : Ref sig .tc) → Buf (Elt Ideal) ((c : Thread nD τ).loc b)) (c : Dev nD) :
    (dat0 (F := Ideal) V c).arrAt 8 cfg0.N
      = Cert.Spec.projK (V c main_v15) (V c main_v16) (V c main_v20) (V c main_v22) (V c main_v24) :=
  (dat0 (F := Ideal) V c).arrAt_eq_of_cover 8
    (Cert.Spec.projK (V c main_v15) (V c main_v16) (V c main_v20) (V c main_v22) (V c main_v24))
    (fun t _ => flushed8_eq V c t) cover8

end Cert.KernelIdeal.Hand

end
-- ==== Proof.KGeom.lean ====
/-
  The distance kernel's output array: every [2048, 2048] block the grid writes is the block of one function of
  the whole column and row of position numbers, and the blocks cover the [8192, 8192] result.

  The body's arithmetic at an entry (p, q) of a block is -1 * |x(p, 0) - y(0, q)| + 0 with x the column block and
  y the row block; the column block of the grid point with block indices (a, b) is rows 2048 a ... 2048 a + 2047 of
  the column, its row block is columns 2048 b ... 2048 b + 2047 of the row, and its output block sits at rows
  2048 a + p and columns 2048 b + q: so the entry written at (r, s) is the distance term of the whole column at r
  and the whole row at s. The sixteen blocks' index pairs are all of {0..3} x {0..3}, so the entry (r, s) lies in
  the block with index pair (r / 2048, s / 2048).
-/
import proofs.«423792_j90847148245151_1_alg».proof.Proof.Gen.KernelIdeal.Frame
import proofs.«423792_j90847148245151_1_alg».proof.Proof.Spec
import Idealize.ShloMosaic.Lib.Pipeline.Value
import Idealize.ShloMosaic.Lib.ValueLayout

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat Cfg Window)

/-- The offsets (0, 0) are the zero offsets. -/
theorem zero_offsets : (![0, 0] : Fin 2 → Nat) = fun _ => 0 := funext fun a => by fin_cases a <;> rfl

/-! ## The body's arithmetic at an entry of a block -/

/-- The entry (p, q) of the body's result from a column block `x0` and a row block `x1`: the column entry at p and the
    row entry at q, each repeated along the other axis, subtracted; the larger of the difference and its negative;
    times the number the word 0xBF800000 denotes, plus the number the word 0x00000000 denotes. -/
theorem dist_payload_apply (x0 : Vec Ideal S2048x1 .f32) (x1 : Vec Ideal S1x2048 .f32) (p q : Fin 2048) :
    k1_pay1 x0 x1 (ix2 p q)
      = Ideal.ofBits .f32 0xBF800000#32 * max (x0 (ix2 p (0 : Fin 1)) - x1 (ix2 (0 : Fin 1) q)) (-(x0 (ix2 p (0 : Fin 1)) - x1 (ix2 (0 : Fin 1) q)))
        + Ideal.ofBits .f32 0x00000000#32 := by
  unfold k1_pay1
  rw [shapeCast_self, shapeCast_self]
  show Ideal.ofBits .f32 0xBF800000#32 * max (broadcastTo S2048x2048 x0 broadcasts_S2048x1_S2048x2048 (ix2 p q) - broadcastTo S2048x2048 x1 broadcasts_S1x2048_S2048x2048 (ix2 p q)) (-(broadcastTo S2048x2048 x0 broadcasts_S2048x1_S2048x2048 (ix2 p q) - broadcastTo S2048x2048 x1 broadcasts_S1x2048_S2048x2048 (ix2 p q))) + Ideal.ofBits .f32 0x00000000#32 = _
  rw [broadcastTo_apply x0 broadcasts_S2048x1_S2048x2048 (ix2 p q) (ix2 p (0 : Fin 1)) (fun a => by
        match a with
        | ⟨0, _⟩ => rfl
        | ⟨1, _⟩ => rfl),
      broadcastTo_apply x1 broadcasts_S1x2048_S2048x2048 (ix2 p q) (ix2 (0 : Fin 1) q) (fun a => by
        match a with
        | ⟨0, _⟩ => rfl
        | ⟨1, _⟩ => rfl)]

/-- The closed form at an index whose two coordinates are the numbers `k0` and `k1`. -/
theorem geomK_at (col : FVec Ideal Cert.Spec.TCol1 .f32) (row : FVec Ideal Cert.Spec.TRow1 .f32) (y : Cert.Spec.TG.Idx)
    (k0 k1 : Fin 8192) (h0 : (y 0).val = k0.val) (h1 : (y 1).val = k1.val) :
    Cert.Spec.geomK col row y
      = Ideal.ofBits .f32 0xBF800000#32 * max (col (ix2 k0 (0 : Fin 1)) - row (ix2 (0 : Fin 1) k1)) (-(col (ix2 k0 (0 : Fin 1)) - row (ix2 (0 : Fin 1) k1)))
        + Ideal.ofBits .f32 0x00000000#32 := by
  obtain rfl : k0 = ⟨(y 0).val, idx2_lt0 y⟩ := Fin.ext h0.symm
  obtain rfl : k1 = ⟨(y 1).val, idx2_lt1 y⟩ := Fin.ext h1.symm
  rfl

/-! ## The block indices over the grid -/

/-- At every grid point: the column's block index is the output's row-block index (and 0 on its unit axis), the row's
    block index is the output's column-block index (and 0 on its unit axis), and the output's two block indices are at
    most 3. -/
theorem block_index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) ≤ 3
    ∧ win1_2.index t (1 : Fin 2) ≤ 3 :=
  (by decide +kernel : ∀ t : Fin grid1.N, _)

/-- Every pair of block indices in {0..3} x {0..3} is some grid point's. -/
theorem block_index_onto : ∀ (q0 : Fin 4) (q1 : Fin 4), ∃ t : Fin cfg1.N, win1_2.index t = ![q0.val, q1.val] :=
  (by decide +kernel : ∀ (q0 : Fin 4) (q1 : Fin 4), ∃ t : Fin grid1.N, win1_2.index t = ![q0.val, q1.val])

/-! ## The input blocks as parts of the whole column and row -/

/-- Entry p of the column block at point `t` is entry 2048 a + p of the column, a the output's row-block index. -/
theorem col_block_apply (V : (c : Dev nD) → (b : Ref sig .tc) → Buf (Elt Ideal) ((c : Thread nD τ).loc b)) (c : Dev nD)
    (t : Fin cfg1.N) (p : Fin 2048) (k : Fin 8192) (hk : k.val = win1_2.index t (0 : Fin 2) * 2048 + p.val) :
    (iblk1 V c 0 t : Vec Ideal S2048x1 .f32) (ix2 p (0 : Fin 1))
      = (V c main_v27 : FVec Ideal Cert.Spec.TCol1 .f32) (ix2 k (0 : Fin 1)) := by
  obtain ⟨e0, e1, -, -, -, -⟩ := block_index_facts t
  unfold iblk1
  rw [View.read_apply]
  show V c main_v27 _ = V c main_v27 _
  congr 1
  funext a
  apply Fin.ext
  match a with
  | ⟨0, _⟩ => show win1_0.index t (0 : Fin 2) * 2048 + 1 * p.val = k.val; omega
  | ⟨1, _⟩ => show win1_0.index t (1 : Fin 2) * 1 + 1 * 0 = 0; omega

/-- Entry q of the row block at point `t` is entry 2048 b + q of the row, b the output's column-block index. -/
theorem row_block_apply (V : (c : Dev nD) → (b : Ref sig .tc) → Buf (Elt Ideal) ((c : Thread nD τ).loc b)) (c : Dev nD)
    (t : Fin cfg1.N) (q : Fin 2048) (k : Fin 8192) (hk : k.val = win1_2.index t (1 : Fin 2) * 2048 + q.val) :
    (iblk1 V c 1 t : Vec Ideal S1x2048 .f32) (ix2 (0 : Fin 1) q)
      = (V c main_v29 : FVec Ideal Cert.Spec.TRow1 .f32) (ix2 (0 : Fin 1) k) := by
  obtain ⟨-, -, e2, e3, -, -⟩ := block_index_facts t
  unfold iblk1
  rw [View.read_apply]
  show V c main_v29 _ = V c main_v29 _
  congr 1
  funext a
  apply Fin.ext
  match a with
  | ⟨0, _⟩ => show win1_1.index t (0 : Fin 2) * 1 + 1 * 0 = 0; omega
  | ⟨1, _⟩ => show win1_1.index t (1 : Fin 2) * 2048 + 1 * q.val = k.val; omega

/-! ## What a grid point writes back -/

/-- The block a grid point writes is that block of `Spec.geomK` of the whole column and row: its entry (p, q) sits at
    row 2048 a + p and column 2048 b + q, and is the distance term of the column there and the row there. -/
theorem geom_flushed (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (Cert.Spec.geomK (V c main_v27) (V c main_v29)) := by
  show (cfg1.win 2).cut (grid1.coords t) ((dat1 V c).after 2 t) = _
  rw [after1_2]
  unfold out1_2
  rw [View.canon_unit_zero zero_offsets]
  simp only [View.ld_unit_zero (S := S2048x1) zero_offsets, View.ld_unit_zero (S := S1x2048) zero_offsets]
  funext j
  obtain ⟨p, q, rfl⟩ : ∃ (p : Fin 2048) (q : Fin 2048), j = ix2 p q := ⟨j 0, j 1, eq_ix2 j⟩
  obtain ⟨-, -, -, -, b0, b1⟩ := block_index_facts t
  refine (dist_payload_apply (iblk1 V c 0 t) (iblk1 V c 1 t) p q).trans ?_
  rw [col_block_apply V c t p ⟨win1_2.index t (0 : Fin 2) * 2048 + p.val, by have := p.isLt; omega⟩ rfl,
    row_block_apply V c t q ⟨win1_2.index t (1 : Fin 2) * 2048 + q.val, by have := q.isLt; omega⟩ rfl]
  show _ = Cert.Spec.geomK (V c main_v27) (V c main_v29) (((cfg1.win 2).blk t).view.emb (ix2 p q))
  refine (geomK_at (V c main_v27) (V c main_v29) (((cfg1.win 2).blk t).view.emb (ix2 p q)) _ _ ?_ ?_).symm
  · show win1_2.index t (0 : Fin 2) * 2048 + 1 * p.val = win1_2.index t (0 : Fin 2) * 2048 + p.val; omega
  · show win1_2.index t (1 : Fin 2) * 2048 + 1 * q.val = win1_2.index t (1 : Fin 2) * 2048 + q.val; omega

/-! ## The blocks cover the array -/

/-- An index of the array is in a point's output block iff each coordinate is in the block's range on its axis. -/
theorem mem_out_block (t : Fin cfg1.N) (i : S8192x8192.Idx) :
    i ∈ ((cfg1.win 2).blk t).view.set ↔ ∀ a : Fin 2, win1_2.index t a * S2048x2048.size a ≤ (i a).val
      ∧ (i a).val < win1_2.index t a * S2048x2048.size a + S2048x2048.size a := by
  show i ∈ ((View.whole main_v30).slice (win1_2.rect t)).set ↔ _
  rw [View.set_slice_whole, Rect.mem_set_unit]
  exact Iff.rfl

/-- Every index (r, s) of the array is in the output block of the point with block indices (r / 2048, s / 2048), and
    every point writes its block back. -/
theorem out_blocks_cover (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := block_index_onto ⟨(i 0).val / 2048, by omega⟩ ⟨(i 1).val / 2048, by omega⟩
  have q0 : win1_2.index t (0 : Fin 2) = (i 0).val / 2048 := congrFun ht 0
  have q1 : win1_2.index t (1 : Fin 2) = (i 1).val / 2048 := congrFun ht 1
  refine ⟨t, flush1_2 t, ?_⟩
  rw [mem_out_block]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 2048 ≤ (i 1).val ∧ (i 1).val < win1_2.index t (1 : Fin 2) * 2048 + 2048; omega

/-- After the distance region the result array is `Spec.geomK` of the column and the row the region found. -/
theorem geom_final (V : (c : Dev nD) → (b : Ref sig .tc) → Buf (Elt Ideal) ((c : Thread nD τ).loc b)) (c : Dev nD) :
    (dat1 (F := Ideal) V c).arrAt 2 cfg1.N = Cert.Spec.geomK (V c main_v27) (V c main_v29) := by
  exact (dat1 (F := Ideal) V c).arrAt_eq_of_cover 2 (Cert.Spec.geomK (V c main_v27) (V c main_v29))
    (fun t _ => geom_flushed V c t) (fun i => out_blocks_cover i)

end Cert.KernelIdeal.Hand

end
-- ==== Proof.KHost.lean ====
/-
  The idealized kernel program's host side read back: what each pallas_call finds in its operand arrays as a
  composed term of the program's arguments (the bin words, the slot masks, the row sizes as numbers, the
  transposed weights, the bias rows; the positions as numbers in a column and in a row), and from them the three
  result arrays as the closed forms.
-/
import proofs.«423792_j90847148245151_1_alg».proof.Proof.Gen.KernelIdeal.Frame
import proofs.«423792_j90847148245151_1_alg».proof.Proof.Spec
import proofs.«423792_j90847148245151_1_alg».proof.Proof.KProj
import proofs.«423792_j90847148245151_1_alg».proof.Proof.KGeom
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-! ## One stretch of host operations at a time, from any contents `V` -/

section Stretches
variable (V : Valuation τ sig (Elt F))

/-! ### Buffers a stretch does not write -/

theorem k1_main_v1 : StableHlo.after hostOps0_1 V (Proc.devRef .tc main_v1) = V (Proc.devRef .tc main_v1) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k2_main_v1 : StableHlo.after hostOps0_2 V (Proc.devRef .tc main_v1) = V (Proc.devRef .tc main_v1) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k3_main_v1 : StableHlo.after hostOps0_3 V (Proc.devRef .tc main_v1) = V (Proc.devRef .tc main_v1) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k4_main_v1 : StableHlo.after hostOps0_4 V (Proc.devRef .tc main_v1) = V (Proc.devRef .tc main_v1) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k5_main_v1 : StableHlo.after hostOps0_5 V (Proc.devRef .tc main_v1) = V (Proc.devRef .tc main_v1) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k0_main_arg0 : StableHlo.after hostOps0 V (Proc.devRef .tc main_arg0) = V (Proc.devRef .tc main_arg0) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k1_main_arg0 : StableHlo.after hostOps0_1 V (Proc.devRef .tc main_arg0) = V (Proc.devRef .tc main_arg0) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k0_main_arg1 : StableHlo.after hostOps0 V (Proc.devRef .tc main_arg1) = V (Proc.devRef .tc main_arg1) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k0_main_arg2 : StableHlo.after hostOps0 V (Proc.devRef .tc main_arg2) = V (Proc.devRef .tc main_arg2) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k1_main_arg2 : StableHlo.after hostOps0_1 V (Proc.devRef .tc main_arg2) = V (Proc.devRef .tc main_arg2) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k2_main_arg2 : StableHlo.after hostOps0_2 V (Proc.devRef .tc main_arg2) = V (Proc.devRef .tc main_arg2) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k3_main_arg2 : StableHlo.after hostOps0_3 V (Proc.devRef .tc main_arg2) = V (Proc.devRef .tc main_arg2) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k4_main_arg2 : StableHlo.after hostOps0_4 V (Proc.devRef .tc main_arg2) = V (Proc.devRef .tc main_arg2) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k5_main_arg2 : StableHlo.after hostOps0_5 V (Proc.devRef .tc main_arg2) = V (Proc.devRef .tc main_arg2) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k0_main_arg4 : StableHlo.after hostOps0 V (Proc.devRef .tc main_arg4) = V (Proc.devRef .tc main_arg4) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k1_main_arg4 : StableHlo.after hostOps0_1 V (Proc.devRef .tc main_arg4) = V (Proc.devRef .tc main_arg4) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k2_main_arg4 : StableHlo.after hostOps0_2 V (Proc.devRef .tc main_arg4) = V (Proc.devRef .tc main_arg4) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k3_main_arg4 : StableHlo.after hostOps0_3 V (Proc.devRef .tc main_arg4) = V (Proc.devRef .tc main_arg4) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k4_main_arg4 : StableHlo.after hostOps0_4 V (Proc.devRef .tc main_arg4) = V (Proc.devRef .tc main_arg4) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k5_main_arg4 : StableHlo.after hostOps0_5 V (Proc.devRef .tc main_arg4) = V (Proc.devRef .tc main_arg4) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k0_main_arg5 : StableHlo.after hostOps0 V (Proc.devRef .tc main_arg5) = V (Proc.devRef .tc main_arg5) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k1_main_arg5 : StableHlo.after hostOps0_1 V (Proc.devRef .tc main_arg5) = V (Proc.devRef .tc main_arg5) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k2_main_arg5 : StableHlo.after hostOps0_2 V (Proc.devRef .tc main_arg5) = V (Proc.devRef .tc main_arg5) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k3_main_arg5 : StableHlo.after hostOps0_3 V (Proc.devRef .tc main_arg5) = V (Proc.devRef .tc main_arg5) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k4_main_arg5 : StableHlo.after hostOps0_4 V (Proc.devRef .tc main_arg5) = V (Proc.devRef .tc main_arg5) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k5_main_arg5 : StableHlo.after hostOps0_5 V (Proc.devRef .tc main_arg5) = V (Proc.devRef .tc main_arg5) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k0_main_arg6 : StableHlo.after hostOps0 V (Proc.devRef .tc main_arg6) = V (Proc.devRef .tc main_arg6) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k1_main_arg6 : StableHlo.after hostOps0_1 V (Proc.devRef .tc main_arg6) = V (Proc.devRef .tc main_arg6) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k2_main_arg6 : StableHlo.after hostOps0_2 V (Proc.devRef .tc main_arg6) = V (Proc.devRef .tc main_arg6) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k3_main_arg6 : StableHlo.after hostOps0_3 V (Proc.devRef .tc main_arg6) = V (Proc.devRef .tc main_arg6) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k4_main_arg6 : StableHlo.after hostOps0_4 V (Proc.devRef .tc main_arg6) = V (Proc.devRef .tc main_arg6) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k5_main_arg6 : StableHlo.after hostOps0_5 V (Proc.devRef .tc main_arg6) = V (Proc.devRef .tc main_arg6) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k0_main_arg7 : StableHlo.after hostOps0 V (Proc.devRef .tc main_arg7) = V (Proc.devRef .tc main_arg7) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k1_main_arg7 : StableHlo.after hostOps0_1 V (Proc.devRef .tc main_arg7) = V (Proc.devRef .tc main_arg7) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k2_main_arg7 : StableHlo.after hostOps0_2 V (Proc.devRef .tc main_arg7) = V (Proc.devRef .tc main_arg7) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k3_main_arg7 : StableHlo.after hostOps0_3 V (Proc.devRef .tc main_arg7) = V (Proc.devRef .tc main_arg7) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k4_main_arg7 : StableHlo.after hostOps0_4 V (Proc.devRef .tc main_arg7) = V (Proc.devRef .tc main_arg7) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k5_main_arg7 : StableHlo.after hostOps0_5 V (Proc.devRef .tc main_arg7) = V (Proc.devRef .tc main_arg7) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem k6_main_v15 : StableHlo.after hostOps0_6 V (Proc.devRef .tc main_v15) = V (Proc.devRef .tc main_v15) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem kh_main_v25_0 : StableHlo.after hostOps1 V (Proc.devRef .tc main_v25_0) = V (Proc.devRef .tc main_v25_0) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem kh_main_v25_1 : StableHlo.after hostOps1 V (Proc.devRef .tc main_v25_1) = V (Proc.devRef .tc main_v25_1) := by
  refine StableHlo.after_of_forall_not_mem _ _ (List.forall_iff_forall_mem.mp ?_)
  simp only [hostOps0, hostOps0_1, hostOps0_2, hostOps0_3, hostOps0_4, hostOps0_5, hostOps0_6, hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-! ### Buffers a stretch writes -/

theorem s0_v1 : StableHlo.after hostOps0 V (Proc.devRef .tc main_v1) = cmpi .sge (V (Proc.devRef .tc main_arg1)) (broadcastInDim S8192x64 ![] Gen.bcast_S_S8192x64 (constantI S_ 32 0#32)) := by
  after_results <;> rfl
theorem s0_c0 : StableHlo.after hostOps0 V (Proc.devRef .tc main_c_0) = constantI S_ 32 0#32 := by
  after_results <;> rfl
theorem s1_v2 : StableHlo.after hostOps0_1 V (Proc.devRef .tc main_v2)
    = maxsi (broadcastInDim S8192x64 ![] Gen.bcast_S_S8192x64 (id (V (Proc.devRef .tc main_c_0)))) (V (Proc.devRef .tc main_arg1)) := by
  after_results <;> rfl
theorem s2_v9 : StableHlo.after hostOps0_2 V (Proc.devRef .tc main_v9)
    = Host.gather gather_S65536_S8192x64x1_S8192x64_n_0_n_n_0_2_1 (V (Proc.devRef .tc main_arg0))
        (broadcastInDim S8192x64x1 ![0, 1] Gen.bcast_S8192x64_S8192x64x1_0_1
          (select (cmpi .slt (V (Proc.devRef .tc main_v2)) (broadcastInDim S8192x64 ![] Gen.bcast_S_S8192x64 (constantI S_ 32 0#32))) (addi (V (Proc.devRef .tc main_v2)) (broadcastInDim S8192x64 ![] Gen.bcast_S_S8192x64 (constantI S_ 32 65536#32))) (V (Proc.devRef .tc main_v2)))) := by
  after_results <;> rfl
theorem s2_c3 : StableHlo.after hostOps0_2 V (Proc.devRef .tc main_c_3) = constantI S_ 32 128#32 := by
  after_results <;> rfl
set_option maxHeartbeats 4000000 in
theorem s3_v10 : StableHlo.after hostOps0_3 V (Proc.devRef .tc main_v10)
    = Cert.Spec.remT Gen.bcast_S_S8192x64 (V (Proc.devRef .tc main_v9)) (V (Proc.devRef .tc main_c_3)) := by
  after_results_simp <;> rfl
theorem s4_v14 : StableHlo.after hostOps0_4 V (Proc.devRef .tc main_v14) = addi (muli (V (Proc.devRef .tc main_v10)) (broadcastInDim S8192x64 ![] Gen.bcast_S_S8192x64 (constantI S_ 32 39#32))) (broadcastInDim S8192x64 ![] Gen.bcast_S_S8192x64 (constantI S_ 32 13#32)) := by
  after_results <;> rfl
theorem s4_c6 : StableHlo.after hostOps0_4 V (Proc.devRef .tc main_c_6) = constantI S_ 32 128#32 := by
  after_results <;> rfl
set_option maxHeartbeats 4000000 in
theorem s5_v15 : StableHlo.after hostOps0_5 V (Proc.devRef .tc main_v15)
    = Cert.Spec.remT Gen.bcast_S_S8192x64 (V (Proc.devRef .tc main_v14)) (V (Proc.devRef .tc main_c_6)) := by
  after_results_simp <;> rfl
theorem s6_v16 : StableHlo.after hostOps0_6 V (Proc.devRef .tc main_v16) = uitofp .f32 (V (Proc.devRef .tc main_v1)) := by
  after_results <;> rfl
theorem s6_v20 : StableHlo.after hostOps0_6 V (Proc.devRef .tc main_v20)
    = shapeCast S8192x1 (Cert.Spec.denV Gen.bcast_S_S8192 (V (Proc.devRef .tc main_arg2))) Gen.shapeCasts_S8192_S8192x1 := by
  after_results <;> rfl
theorem s6_v21 : StableHlo.after hostOps0_6 V (Proc.devRef .tc main_v21) = transpose S128x1024 [1, 0] (V (Proc.devRef .tc main_arg4)) Gen.transposes_S1024x128_S128x1024_1_0 := by
  after_results <;> rfl
theorem s6_v22 : StableHlo.after hostOps0_6 V (Proc.devRef .tc main_v22) = transpose S128x1024 [1, 0] (V (Proc.devRef .tc main_arg6)) Gen.transposes_S1024x128_S128x1024_1_0 := by
  after_results <;> rfl
theorem s6_v23 : StableHlo.after hostOps0_6 V (Proc.devRef .tc main_v23) = shapeCast S1x1024 (V (Proc.devRef .tc main_arg5)) Gen.shapeCasts_S1024_S1x1024 := by
  after_results <;> rfl
theorem s6_v24 : StableHlo.after hostOps0_6 V (Proc.devRef .tc main_v24) = shapeCast S1x1024 (V (Proc.devRef .tc main_arg7)) Gen.shapeCasts_S1024_S1x1024 := by
  after_results <;> rfl
theorem h1_v27 : StableHlo.after hostOps1 V (Proc.devRef .tc main_v27) = shapeCast S8192x1 (sitofp .f32 (V (Proc.devRef .tc main_arg3))) Gen.shapeCasts_S8192_S8192x1 := by
  after_results <;> rfl
theorem h1_v29 : StableHlo.after hostOps1 V (Proc.devRef .tc main_v29) = shapeCast S1x8192 (sitofp .f32 (V (Proc.devRef .tc main_arg3))) Gen.shapeCasts_S8192_S1x8192 := by
  after_results <;> rfl

end Stretches

/-! ## The operand arrays of the two regions, from the launch memory -/

variable (m : (ℓ : Loc nD τ sig) → Buf (Elt F) ℓ) (ρ : Dev nD → PrngReg)

/-- The bin words the projection region finds. -/
theorem V7_v15 (c : Dev nD) : V7 (F := F) m ρ c main_v15
    = Cert.Spec.binsT Gen.bcast_S_S8192x64 Gen.bcast_S8192x64_S8192x64x1_0_1 Gen.gather_S65536_S8192x64x1_S8192x64_n_0_n_n_0_2_1_wf
        (m ((c : Thread nD τ).loc main_arg0)) (m ((c : Thread nD τ).loc main_arg1)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v15) = _
  rw [k6_main_v15, s5_v15, s4_v14, s4_c6, s3_v10, s2_v9, s2_c3, s1_v2, k1_main_arg0, s0_c0, k0_main_arg1, k0_main_arg0]
  rfl

/-- The slot masks the projection region finds. -/
theorem V7_v16 (c : Dev nD) : V7 (F := F) m ρ c main_v16
    = Cert.Spec.validT Gen.bcast_S_S8192x64 (m ((c : Thread nD τ).loc main_arg1)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v16) = _
  rw [s6_v16, k5_main_v1, k4_main_v1, k3_main_v1, k2_main_v1, k1_main_v1, s0_v1]
  rfl

/-- The row sizes as a column of numbers. -/
theorem V7_v20 (c : Dev nD) : V7 (F := F) m ρ c main_v20
    = shapeCast S8192x1 (Cert.Spec.denV Gen.bcast_S_S8192 (m ((c : Thread nD τ).loc main_arg2))) Gen.shapeCasts_S8192_S8192x1 := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v20) = _
  rw [s6_v20, k5_main_arg2, k4_main_arg2, k3_main_arg2, k2_main_arg2, k1_main_arg2, k0_main_arg2]

/-- The first weights, transposed. -/
theorem V7_v21 (c : Dev nD) : V7 (F := F) m ρ c main_v21
    = transpose S128x1024 [1, 0] (m ((c : Thread nD τ).loc main_arg4)) Gen.transposes_S1024x128_S128x1024_1_0 := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v21) = _
  rw [s6_v21, k5_main_arg4, k4_main_arg4, k3_main_arg4, k2_main_arg4, k1_main_arg4, k0_main_arg4]

/-- The second weights, transposed. -/
theorem V7_v22 (c : Dev nD) : V7 (F := F) m ρ c main_v22
    = transpose S128x1024 [1, 0] (m ((c : Thread nD τ).loc main_arg6)) Gen.transposes_S1024x128_S128x1024_1_0 := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v22) = _
  rw [s6_v22, k5_main_arg6, k4_main_arg6, k3_main_arg6, k2_main_arg6, k1_main_arg6, k0_main_arg6]

/-- The first bias as one row. -/
theorem V7_v23 (c : Dev nD) : V7 (F := F) m ρ c main_v23
    = shapeCast S1x1024 (m ((c : Thread nD τ).loc main_arg5)) Gen.shapeCasts_S1024_S1x1024 := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v23) = _
  rw [s6_v23, k5_main_arg5, k4_main_arg5, k3_main_arg5, k2_main_arg5, k1_main_arg5, k0_main_arg5]

/-- The second bias as one row. -/
theorem V7_v24 (c : Dev nD) : V7 (F := F) m ρ c main_v24
    = shapeCast S1x1024 (m ((c : Thread nD τ).loc main_arg7)) Gen.shapeCasts_S1024_S1x1024 := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v24) = _
  rw [s6_v24, k5_main_arg7, k4_main_arg7, k3_main_arg7, k2_main_arg7, k1_main_arg7, k0_main_arg7]

/-- The positions as a column of numbers, as the distance region finds them. -/
theorem V9_v27 (c : Dev nD) : V9 (F := F) m ρ c main_v27
    = shapeCast S8192x1 (sitofp .f32 (m ((c : Thread nD τ).loc main_arg3))) Gen.shapeCasts_S8192_S8192x1 := by
  show StableHlo.after hostOps1 (W8 m ρ c) (Proc.devRef .tc main_v27) = _
  rw [h1_v27]
  have e : W8 m ρ c (Proc.devRef .tc main_arg3) = m ((c : Thread nD τ).loc main_arg3) :=
    ((W10_of_ne m ρ c main_arg3 (by decide)).symm.trans (W10_main_arg3 m ρ c)).symm ▸ rfl
  rw [e]

/-- The positions as a row of numbers, as the distance region finds them. -/
theorem V9_v29 (c : Dev nD) : V9 (F := F) m ρ c main_v29
    = shapeCast S1x8192 (sitofp .f32 (m ((c : Thread nD τ).loc main_arg3))) Gen.shapeCasts_S8192_S1x8192 := by
  show StableHlo.after hostOps1 (W8 m ρ c) (Proc.devRef .tc main_v29) = _
  rw [h1_v29]
  have e : W8 m ρ c (Proc.devRef .tc main_arg3) = m ((c : Thread nD τ).loc main_arg3) :=
    ((W10_of_ne m ρ c main_arg3 (by decide)).symm.trans (W10_main_arg3 m ρ c)).symm ▸ rfl
  rw [e]

end Cert.KernelIdeal.Hand

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The three results at the exact values -/

/-- The first projection the program returns, as the closed form of its arguments. -/
theorem out_phi (c : Dev nD) : W10 (F := Ideal) m ρ c (Proc.devRef .tc main_v25_0)
    = Cert.Spec.projK
        (Cert.Spec.binsT Gen.bcast_S_S8192x64 Gen.bcast_S8192x64_S8192x64x1_0_1 Gen.gather_S65536_S8192x64x1_S8192x64_n_0_n_n_0_2_1_wf (m ((c : Thread nD τ).loc main_arg0)) (m ((c : Thread nD τ).loc main_arg1)))
        (Cert.Spec.validT Gen.bcast_S_S8192x64 (m ((c : Thread nD τ).loc main_arg1)))
        (shapeCast S8192x1 (Cert.Spec.denV Gen.bcast_S_S8192 (m ((c : Thread nD τ).loc main_arg2))) Gen.shapeCasts_S8192_S8192x1)
        (transpose S128x1024 [1, 0] (m ((c : Thread nD τ).loc main_arg4)) Gen.transposes_S1024x128_S128x1024_1_0)
        (shapeCast S1x1024 (m ((c : Thread nD τ).loc main_arg5)) Gen.shapeCasts_S1024_S1x1024) := by
  have e1 : W10 (F := Ideal) m ρ c (Proc.devRef .tc main_v25_0) = W9 m ρ c (Proc.devRef .tc main_v25_0) := W10_of_ne m ρ c main_v25_0 (by decide)
  have e2 : W9 (F := Ideal) m ρ c (Proc.devRef .tc main_v25_0) = W8 m ρ c (Proc.devRef .tc main_v25_0) := kh_main_v25_0 (W8 m ρ c)
  have e3 : W8 (F := Ideal) m ρ c (Proc.devRef .tc main_v25_0) = (dat0 (V7 m ρ) c).arrAt 7 cfg0.N := W8_arr m ρ c 7
  rw [e1, e2, e3, proj_final7 (V7 m ρ) c, V7_v15, V7_v16, V7_v20, V7_v21, V7_v23]

/-- The second projection. -/
theorem out_desc (c : Dev nD) : W10 (F := Ideal) m ρ c (Proc.devRef .tc main_v25_1)
    = Cert.Spec.projK
        (Cert.Spec.binsT Gen.bcast_S_S8192x64 Gen.bcast_S8192x64_S8192x64x1_0_1 Gen.gather_S65536_S8192x64x1_S8192x64_n_0_n_n_0_2_1_wf (m ((c : Thread nD τ).loc main_arg0)) (m ((c : Thread nD τ).loc main_arg1)))
        (Cert.Spec.validT Gen.bcast_S_S8192x64 (m ((c : Thread nD τ).loc main_arg1)))
        (shapeCast S8192x1 (Cert.Spec.denV Gen.bcast_S_S8192 (m ((c : Thread nD τ).loc main_arg2))) Gen.shapeCasts_S8192_S8192x1)
        (transpose S128x1024 [1, 0] (m ((c : Thread nD τ).loc main_arg6)) Gen.transposes_S1024x128_S128x1024_1_0)
        (shapeCast S1x1024 (m ((c : Thread nD τ).loc main_arg7)) Gen.shapeCasts_S1024_S1x1024) := by
  have e1 : W10 (F := Ideal) m ρ c (Proc.devRef .tc main_v25_1) = W9 m ρ c (Proc.devRef .tc main_v25_1) := W10_of_ne m ρ c main_v25_1 (by decide)
  have e2 : W9 (F := Ideal) m ρ c (Proc.devRef .tc main_v25_1) = W8 m ρ c (Proc.devRef .tc main_v25_1) := kh_main_v25_1 (W8 m ρ c)
  have e3 : W8 (F := Ideal) m ρ c (Proc.devRef .tc main_v25_1) = (dat0 (V7 m ρ) c).arrAt 8 cfg0.N := W8_arr m ρ c 8
  rw [e1, e2, e3, proj_final8 (V7 m ρ) c, V7_v15, V7_v16, V7_v20, V7_v22, V7_v24]

/-- The distance term. -/
theorem out_geom (c : Dev nD) : W10 (F := Ideal) m ρ c (Proc.devRef .tc main_v30)
    = Cert.Spec.geomK (shapeCast S8192x1 (sitofp .f32 (m ((c : Thread nD τ).loc main_arg3))) Gen.shapeCasts_S8192_S8192x1)
        (shapeCast S1x8192 (sitofp .f32 (m ((c : Thread nD τ).loc main_arg3))) Gen.shapeCasts_S8192_S1x8192) := by
  have e3 : W10 (F := Ideal) m ρ c (Proc.devRef .tc main_v30) = (dat1 (V9 m ρ) c).arrAt 2 cfg1.N := W10_arr m ρ c 2
  rw [e3, geom_final (V9 m ρ) c, V9_v27, V9_v29]

end Cert.KernelIdeal.Hand

end
-- ==== Proof.RefOps.lean ====
/-
  The reference program as a straight line: its one hundred and twenty host operations in program order, each
  call's body in place over the call's own buffers, cut into seven consecutive stretches; the program is the
  sequence of that list, every operation touches TensorCore buffers only, and so every weakly fair execution
  ends with each buffer at the fold of the operations over the launch contents. The fold of two lists in a row
  is the composition of their folds.
-/
import proofs.«423792_j90847148245151_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stretches -/

/-- The first seventeen: the zero and the slot mask (`%c`, `%0`, `%1`, `%c_0`), the clamp below at zero (the three operations of the call of `clip`), the wrap of a negative index by the table's length (`%c_1` … `%7`), the index column (`%8`), the gather of the tokens (`%9`) and the divisor `%c_3`. -/
abbrev ops1 : List (HloOp τ sig (Elt F)) :=
  [ StableHlo.nullary main_c (constantI S_ 32 0#32),
    StableHlo.unary main_c main_v0 (broadcastInDim S8192x64 ![] bcast_S_S8192x64 : (⟨S_, .i32⟩ : BufTy).Contents (Elt F) → (⟨S8192x64, .i32⟩ : BufTy).Contents (Elt F)),
    StableHlo.binary main_arg1 main_v0 main_v1 (cmpi .sge : (⟨S8192x64, .i32⟩ : BufTy).Contents (Elt F) → (⟨S8192x64, .i32⟩ : BufTy).Contents (Elt F) → (⟨S8192x64, .i1⟩ : BufTy).Contents (Elt F)),
    StableHlo.nullary main_c_0 (constantI S_ 32 0#32),
    StableHlo.unary main_c_0 main_call0_v0 (id : (⟨S_, .i32⟩ : BufTy).Contents (Elt F) → (⟨S_, .i32⟩ : BufTy).Contents (Elt F)),
    StableHlo.unary main_call0_v0 main_call0_v1 (broadcastInDim S8192x64 ![] bcast_S_S8192x64 : (⟨S_, .i32⟩ : BufTy).Contents (Elt F) → (⟨S8192x64, .i32⟩ : BufTy).Contents (Elt F)),
    StableHlo.binary main_call0_v1 main_arg1 main_v2 (maxsi : (⟨S8192x64, .i32⟩ : BufTy).Contents (Elt F) → (⟨S8192x64, .i32⟩ : BufTy).Contents (Elt F) → (⟨S8192x64, .i32⟩ : BufTy).Contents (Elt F)),
    StableHlo.nullary main_c_1 (constantI S_ 32 0#32),
    StableHlo.unary main_c_1 main_v3 (broadcastInDim S8192x64 ![] bcast_S_S8192x64 : (⟨S_, .i32⟩ : BufTy).Contents (Elt F) → (⟨S8192x64, .i32⟩ : BufTy).Contents (Elt F)),
    StableHlo.binary main_v2 main_v3 main_v4 (cmpi .slt : (⟨S8192x64, .i32⟩ : BufTy).Contents (Elt F) → (⟨S8192x64, .i32⟩ : BufTy).Contents (Elt F) → (⟨S8192x64, .i1⟩ : BufTy).Contents (Elt F)),
    StableHlo.nullary main_c_2 (constantI S_ 32 65536#32),
    StableHlo.unary main_c_2 main_v5 (broadcastInDim S8192x64 ![] bcast_S_S8192x64 : (⟨S_, .i32⟩ : BufTy).Contents (Elt F) → (⟨S8192x64, .i32⟩ : BufTy).Contents (Elt F)),
    StableHlo.binary main_v2 main_v5 main_v6 (addi : (⟨S8192x64, .i32⟩ : BufTy).Contents (Elt F) → (⟨S8192x64, .i32⟩ : BufTy).Contents (Elt F) → (⟨S8192x64, .i32⟩ : BufTy).Contents (Elt F)),
    StableHlo.ternary main_v4 main_v6 main_v2 main_v7 (select : (⟨S8192x64, .i1⟩ : BufTy).Contents (Elt F) → (⟨S8192x64, .i32⟩ : BufTy).Contents (Elt F) → (⟨S8192x64, .i32⟩ : BufTy).Contents (Elt F) → (⟨S8192x64, .i32⟩ : BufTy).Contents (Elt F)),
    StableHlo.unary main_v7 main_v8 (broadcastInDim S8192x64x1 ![0, 1] bcast_S8192x64_S8192x64x1_0_1 : (⟨S8192x64, .i32⟩ : BufTy).Contents (Elt F) → (⟨S8192x64x1, .i32⟩ : BufTy).Contents (Elt F)),
    StableHlo.binary main_arg0 main_v8 main_v9 ((fun x i => Host.gather gather_S65536_S8192x64x1_S8192x64_n_0_n_n_0_2_1 x i) : (⟨S65536, .i32⟩ : BufTy).Contents (Elt F) → (⟨S8192x64x1, .i32⟩ : BufTy).Contents (Elt F) → (⟨S8192x64, .i32⟩ : BufTy).Contents (Elt F)),
    StableHlo.nullary main_c_3 (constantI S_ 32 128#32) ]

/-- The twenty-one operations of the first floor remainder (the call of `remainder` on `%9` and `%c_3`, its `_where` in place): the divisor with 1 for 0, the truncated remainder, the two sign tests, and the divisor added back where they differ on a nonzero remainder; the result is `%10`. -/
abbrev ops2 : List (HloOp τ sig (Elt F)) :=
  [ StableHlo.unary main_c_3 main_call1_v0 (id : (⟨S_, .i32⟩ : BufTy).Contents (Elt F) → (⟨S_, .i32⟩ : BufTy).Contents (Elt F)),
    StableHlo.nullary main_call1_c (constantI S_ 32 0#32),
    StableHlo.binary main_call1_v0 main_call1_c main_call1_v1 (cmpi .eq : (⟨S_, .i32⟩ : BufTy).Contents (Elt F) → (⟨S_, .i32⟩ : BufTy).Contents (Elt F) → (⟨S_, .i1⟩ : BufTy).Contents (Elt F)),
    StableHlo.nullary main_call1_c_0 (constantI S_ 32 1#32),
    StableHlo.ternary main_call1_v1 main_call1_c_0 main_call1_v0 main_call1_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call1_v2 main_call1_v3 (broadcastInDim S8192x64 ![] bcast_S_S8192x64 : (⟨S_, .i32⟩ : BufTy).Contents (Elt F) → (⟨S8192x64, .i32⟩ : BufTy).Contents (Elt F)),
    StableHlo.binary main_v9 main_call1_v3 main_call1_v4 (Host.remsi : (⟨S8192x64, .i32⟩ : BufTy).Contents (Elt F) → (⟨S8192x64, .i32⟩ : BufTy).Contents (Elt F) → (⟨S8192x64, .i32⟩ : BufTy).Contents (Elt F)),
    StableHlo.nullary main_call1_c_1 (constantI S_ 32 0#32),
    StableHlo.unary main_call1_c_1 main_call1_v5 (broadcastInDim S8192x64 ![] bcast_S_S8192x64 : (⟨S_, .i32⟩ : BufTy).Contents (Elt F) → (⟨S8192x64, .i32⟩ : BufTy).Contents (Elt F)),
    StableHlo.binary main_call1_v4 main_call1_v5 main_call1_v6 (cmpi .ne : (⟨S8192x64, .i32⟩ : BufTy).Contents (Elt F) → (⟨S8192x64, .i32⟩ : BufTy).Contents (Elt F) → (⟨S8192x64, .i1⟩ : BufTy).Contents (Elt F)),
    StableHlo.nullary main_call1_c_2 (constantI S_ 32 0#32),
    StableHlo.unary main_call1_c_2 main_call1_v7 (broadcastInDim S8192x64 ![] bcast_S_S8192x64 : (⟨S_, .i32⟩ : BufTy).Contents (Elt F) → (⟨S8192x64, .i32⟩ : BufTy).Contents (Elt F)),
    StableHlo.binary main_call1_v4 main_call1_v7 main_call1_v8 (cmpi .slt : (⟨S8192x64, .i32⟩ : BufTy).Contents (Elt F) → (⟨S8192x64, .i32⟩ : BufTy).Contents (Elt F) → (⟨S8192x64, .i1⟩ : BufTy).Contents (Elt F)),
    StableHlo.nullary main_call1_c_3 (constantI S_ 32 0#32),
    StableHlo.binary main_call1_v2 main_call1_c_3 main_call1_v9 (cmpi .slt : (⟨S_, .i32⟩ : BufTy).Contents (Elt F) → (⟨S_, .i32⟩ : BufTy).Contents (Elt F) → (⟨S_, .i1⟩ : BufTy).Contents (Elt F)),
    StableHlo.unary main_call1_v9 main_call1_v10 (broadcastInDim S8192x64 ![] bcast_S_S8192x64 : (⟨S_, .i1⟩ : BufTy).Contents (Elt F) → (⟨S8192x64, .i1⟩ : BufTy).Contents (Elt F)),
    StableHlo.binary main_call1_v8 main_call1_v10 main_call1_v11 (cmpi .ne : (⟨S8192x64, .i1⟩ : BufTy).Contents (Elt F) → (⟨S8192x64, .i1⟩ : BufTy).Contents (Elt F) → (⟨S8192x64, .i1⟩ : BufTy).Contents (Elt F)),
    StableHlo.binary main_call1_v11 main_call1_v6 main_call1_v12 (andi : (⟨S8192x64, .i1⟩ : BufTy).Contents (Elt F) → (⟨S8192x64, .i1⟩ : BufTy).Contents (Elt F) → (⟨S8192x64, .i1⟩ : BufTy).Contents (Elt F)),
    StableHlo.unary main_call1_v2 main_call1_v13 (broadcastInDim S8192x64 ![] bcast_S_S8192x64 : (⟨S_, .i32⟩ : BufTy).Contents (Elt F) → (⟨S8192x64, .i32⟩ : BufTy).Contents (Elt F)),
    StableHlo.binary main_call1_v4 main_call1_v13 main_call1_v14 (addi : (⟨S8192x64, .i32⟩ : BufTy).Contents (Elt F) → (⟨S8192x64, .i32⟩ : BufTy).Contents (Elt F) → (⟨S8192x64, .i32⟩ : BufTy).Contents (Elt F)),
    StableHlo.ternary main_call1_v12 main_call1_v14 main_call1_v4 main_v10 (select : (⟨S8192x64, .i1⟩ : BufTy).Contents (Elt F) → (⟨S8192x64, .i32⟩ : BufTy).Contents (Elt F) → (⟨S8192x64, .i32⟩ : BufTy).Contents (Elt F) → (⟨S8192x64, .i32⟩ : BufTy).Contents (Elt F)) ]

/-- The next seven: the scale by 39 and the shift by 13 (`%c_4` … `%14`) and the divisor `%c_6`. -/
abbrev ops3 : List (HloOp τ sig (Elt F)) :=
  [ StableHlo.nullary main_c_4 (constantI S_ 32 39#32),
    StableHlo.unary main_c_4 main_v11 (broadcastInDim S8192x64 ![] bcast_S_S8192x64 : (⟨S_, .i32⟩ : BufTy).Contents (Elt F) → (⟨S8192x64, .i32⟩ : BufTy).Contents (Elt F)),
    StableHlo.binary main_v10 main_v11 main_v12 (muli : (⟨S8192x64, .i32⟩ : BufTy).Contents (Elt F) → (⟨S8192x64, .i32⟩ : BufTy).Contents (Elt F) → (⟨S8192x64, .i32⟩ : BufTy).Contents (Elt F)),
    StableHlo.nullary main_c_5 (constantI S_ 32 13#32),
    StableHlo.unary main_c_5 main_v13 (broadcastInDim S8192x64 ![] bcast_S_S8192x64 : (⟨S_, .i32⟩ : BufTy).Contents (Elt F) → (⟨S8192x64, .i32⟩ : BufTy).Contents (Elt F)),
    StableHlo.binary main_v12 main_v13 main_v14 (addi : (⟨S8192x64, .i32⟩ : BufTy).Contents (Elt F) → (⟨S8192x64, .i32⟩ : BufTy).Contents (Elt F) → (⟨S8192x64, .i32⟩ : BufTy).Contents (Elt F)),
    StableHlo.nullary main_c_6 (constantI S_ 32 128#32) ]

/-- The twenty-one operations of the second floor remainder (the call of `remainder` on `%14` and `%c_6`); the result, the bin words, is `%15`. -/
abbrev ops4 : List (HloOp τ sig (Elt F)) :=
  [ StableHlo.unary main_c_6 main_call2_v0 (id : (⟨S_, .i32⟩ : BufTy).Contents (Elt F) → (⟨S_, .i32⟩ : BufTy).Contents (Elt F)),
    StableHlo.nullary main_call2_c (constantI S_ 32 0#32),
    StableHlo.binary main_call2_v0 main_call2_c main_call2_v1 (cmpi .eq : (⟨S_, .i32⟩ : BufTy).Contents (Elt F) → (⟨S_, .i32⟩ : BufTy).Contents (Elt F) → (⟨S_, .i1⟩ : BufTy).Contents (Elt F)),
    StableHlo.nullary main_call2_c_0 (constantI S_ 32 1#32),
    StableHlo.ternary main_call2_v1 main_call2_c_0 main_call2_v0 main_call2_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call2_v2 main_call2_v3 (broadcastInDim S8192x64 ![] bcast_S_S8192x64 : (⟨S_, .i32⟩ : BufTy).Contents (Elt F) → (⟨S8192x64, .i32⟩ : BufTy).Contents (Elt F)),
    StableHlo.binary main_v14 main_call2_v3 main_call2_v4 (Host.remsi : (⟨S8192x64, .i32⟩ : BufTy).Contents (Elt F) → (⟨S8192x64, .i32⟩ : BufTy).Contents (Elt F) → (⟨S8192x64, .i32⟩ : BufTy).Contents (Elt F)),
    StableHlo.nullary main_call2_c_1 (constantI S_ 32 0#32),
    StableHlo.unary main_call2_c_1 main_call2_v5 (broadcastInDim S8192x64 ![] bcast_S_S8192x64 : (⟨S_, .i32⟩ : BufTy).Contents (Elt F) → (⟨S8192x64, .i32⟩ : BufTy).Contents (Elt F)),
    StableHlo.binary main_call2_v4 main_call2_v5 main_call2_v6 (cmpi .ne : (⟨S8192x64, .i32⟩ : BufTy).Contents (Elt F) → (⟨S8192x64, .i32⟩ : BufTy).Contents (Elt F) → (⟨S8192x64, .i1⟩ : BufTy).Contents (Elt F)),
    StableHlo.nullary main_call2_c_2 (constantI S_ 32 0#32),
    StableHlo.unary main_call2_c_2 main_call2_v7 (broadcastInDim S8192x64 ![] bcast_S_S8192x64 : (⟨S_, .i32⟩ : BufTy).Contents (Elt F) → (⟨S8192x64, .i32⟩ : BufTy).Contents (Elt F)),
    StableHlo.binary main_call2_v4 main_call2_v7 main_call2_v8 (cmpi .slt : (⟨S8192x64, .i32⟩ : BufTy).Contents (Elt F) → (⟨S8192x64, .i32⟩ : BufTy).Contents (Elt F) → (⟨S8192x64, .i1⟩ : BufTy).Contents (Elt F)),
    StableHlo.nullary main_call2_c_3 (constantI S_ 32 0#32),
    StableHlo.binary main_call2_v2 main_call2_c_3 main_call2_v9 (cmpi .slt : (⟨S_, .i32⟩ : BufTy).Contents (Elt F) → (⟨S_, .i32⟩ : BufTy).Contents (Elt F) → (⟨S_, .i1⟩ : BufTy).Contents (Elt F)),
    StableHlo.unary main_call2_v9 main_call2_v10 (broadcastInDim S8192x64 ![] bcast_S_S8192x64 : (⟨S_, .i1⟩ : BufTy).Contents (Elt F) → (⟨S8192x64, .i1⟩ : BufTy).Contents (Elt F)),
    StableHlo.binary main_call2_v8 main_call2_v10 main_call2_v11 (cmpi .ne : (⟨S8192x64, .i1⟩ : BufTy).Contents (Elt F) → (⟨S8192x64, .i1⟩ : BufTy).Contents (Elt F) → (⟨S8192x64, .i1⟩ : BufTy).Contents (Elt F)),
    StableHlo.binary main_call2_v11 main_call2_v6 main_call2_v12 (andi : (⟨S8192x64, .i1⟩ : BufTy).Contents (Elt F) → (⟨S8192x64, .i1⟩ : BufTy).Contents (Elt F) → (⟨S8192x64, .i1⟩ : BufTy).Contents (Elt F)),
    StableHlo.unary main_call2_v2 main_call2_v13 (broadcastInDim S8192x64 ![] bcast_S_S8192x64 : (⟨S_, .i32⟩ : BufTy).Contents (Elt F) → (⟨S8192x64, .i32⟩ : BufTy).Contents (Elt F)),
    StableHlo.binary main_call2_v4 main_call2_v13 main_call2_v14 (addi : (⟨S8192x64, .i32⟩ : BufTy).Contents (Elt F) → (⟨S8192x64, .i32⟩ : BufTy).Contents (Elt F) → (⟨S8192x64, .i32⟩ : BufTy).Contents (Elt F)),
    StableHlo.ternary main_call2_v12 main_call2_v14 main_call2_v4 main_v15 (select : (⟨S8192x64, .i1⟩ : BufTy).Contents (Elt F) → (⟨S8192x64, .i32⟩ : BufTy).Contents (Elt F) → (⟨S8192x64, .i32⟩ : BufTy).Contents (Elt F) → (⟨S8192x64, .i32⟩ : BufTy).Contents (Elt F)) ]

/-- The next twenty-four: the row numbers (`%16` … `%18`), the zero histogram (`%cst`, `%19`), the slot mask as a number (`%20`), the two index columns with a negative index wrapped (`%c_7` … `%32`), their concatenation (`%33`) and the scatter (`%34`). -/
abbrev ops5 : List (HloOp τ sig (Elt F)) :=
  [ StableHlo.nullary main_v16 (iotaInDim S8192 32 0),
    StableHlo.unary main_v16 main_v17 (broadcastInDim S8192x1 ![0] bcast_S8192_S8192x1_0 : (⟨S8192, .i32⟩ : BufTy).Contents (Elt F) → (⟨S8192x1, .i32⟩ : BufTy).Contents (Elt F)),
    StableHlo.unary main_v17 main_v18 (broadcastInDim S8192x64 ![0, 1] bcast_S8192x1_S8192x64_0_1 : (⟨S8192x1, .i32⟩ : BufTy).Contents (Elt F) → (⟨S8192x64, .i32⟩ : BufTy).Contents (Elt F)),
    StableHlo.nullary main_cst (constant S_ .f32 0x00000000#32),
    StableHlo.unary main_cst main_v19 (broadcastInDim S8192x128 ![] bcast_S_S8192x128 : (⟨S_, .f32⟩ : BufTy).Contents (Elt F) → (⟨S8192x128, .f32⟩ : BufTy).Contents (Elt F)),
    StableHlo.unary main_v1 main_v20 (uitofp .f32 : (⟨S8192x64, .i1⟩ : BufTy).Contents (Elt F) → (⟨S8192x64, .f32⟩ : BufTy).Contents (Elt F)),
    StableHlo.nullary main_c_7 (constantI S_ 32 0#32),
    StableHlo.unary main_c_7 main_v21 (broadcastInDim S8192x64 ![] bcast_S_S8192x64 : (⟨S_, .i32⟩ : BufTy).Contents (Elt F) → (⟨S8192x64, .i32⟩ : BufTy).Contents (Elt F)),
    StableHlo.binary main_v18 main_v21 main_v22 (cmpi .slt : (⟨S8192x64, .i32⟩ : BufTy).Contents (Elt F) → (⟨S8192x64, .i32⟩ : BufTy).Contents (Elt F) → (⟨S8192x64, .i1⟩ : BufTy).Contents (Elt F)),
    StableHlo.nullary main_c_8 (constantI S_ 32 8192#32),
    StableHlo.unary main_c_8 main_v23 (broadcastInDim S8192x64 ![] bcast_S_S8192x64 : (⟨S_, .i32⟩ : BufTy).Contents (Elt F) → (⟨S8192x64, .i32⟩ : BufTy).Contents (Elt F)),
    StableHlo.binary main_v18 main_v23 main_v24 (addi : (⟨S8192x64, .i32⟩ : BufTy).Contents (Elt F) → (⟨S8192x64, .i32⟩ : BufTy).Contents (Elt F) → (⟨S8192x64, .i32⟩ : BufTy).Contents (Elt F)),
    StableHlo.ternary main_v22 main_v24 main_v18 main_v25 (select : (⟨S8192x64, .i1⟩ : BufTy).Contents (Elt F) → (⟨S8192x64, .i32⟩ : BufTy).Contents (Elt F) → (⟨S8192x64, .i32⟩ : BufTy).Contents (Elt F) → (⟨S8192x64, .i32⟩ : BufTy).Contents (Elt F)),
    StableHlo.nullary main_c_9 (constantI S_ 32 0#32),
    StableHlo.unary main_c_9 main_v26 (broadcastInDim S8192x64 ![] bcast_S_S8192x64 : (⟨S_, .i32⟩ : BufTy).Contents (Elt F) → (⟨S8192x64, .i32⟩ : BufTy).Contents (Elt F)),
    StableHlo.binary main_v15 main_v26 main_v27 (cmpi .slt : (⟨S8192x64, .i32⟩ : BufTy).Contents (Elt F) → (⟨S8192x64, .i32⟩ : BufTy).Contents (Elt F) → (⟨S8192x64, .i1⟩ : BufTy).Contents (Elt F)),
    StableHlo.nullary main_c_10 (constantI S_ 32 128#32),
    StableHlo.unary main_c_10 main_v28 (broadcastInDim S8192x64 ![] bcast_S_S8192x64 : (⟨S_, .i32⟩ : BufTy).Contents (Elt F) → (⟨S8192x64, .i32⟩ : BufTy).Contents (Elt F)),
    StableHlo.binary main_v15 main_v28 main_v29 (addi : (⟨S8192x64, .i32⟩ : BufTy).Contents (Elt F) → (⟨S8192x64, .i32⟩ : BufTy).Contents (Elt F) → (⟨S8192x64, .i32⟩ : BufTy).Contents (Elt F)),
    StableHlo.ternary main_v27 main_v29 main_v15 main_v30 (select : (⟨S8192x64, .i1⟩ : BufTy).Contents (Elt F) → (⟨S8192x64, .i32⟩ : BufTy).Contents (Elt F) → (⟨S8192x64, .i32⟩ : BufTy).Contents (Elt F) → (⟨S8192x64, .i32⟩ : BufTy).Contents (Elt F)),
    StableHlo.unary main_v25 main_v31 (broadcastInDim S8192x64x1 ![0, 1] bcast_S8192x64_S8192x64x1_0_1 : (⟨S8192x64, .i32⟩ : BufTy).Contents (Elt F) → (⟨S8192x64x1, .i32⟩ : BufTy).Contents (Elt F)),
    StableHlo.unary main_v30 main_v32 (broadcastInDim S8192x64x1 ![0, 1] bcast_S8192x64_S8192x64x1_0_1 : (⟨S8192x64, .i32⟩ : BufTy).Contents (Elt F) → (⟨S8192x64x1, .i32⟩ : BufTy).Contents (Elt F)),
    StableHlo.binary main_v31 main_v32 main_v33 ((fun a b => concatenate S8192x64x2 2 [⟨S8192x64x1, a⟩, ⟨S8192x64x1, b⟩] concatenates_S8192x64x1_S8192x64x1_S8192x64x2_d2) : (⟨S8192x64x1, .i32⟩ : BufTy).Contents (Elt F) → (⟨S8192x64x1, .i32⟩ : BufTy).Contents (Elt F) → (⟨S8192x64x2, .i32⟩ : BufTy).Contents (Elt F)),
    StableHlo.ternary main_v19 main_v33 main_v20 main_v34 ((fun x i u => Host.scatterAdd scatter_S8192x128_S8192x64x2_S8192x64_n_01_01_2 x i u) : (⟨S8192x128, .f32⟩ : BufTy).Contents (Elt F) → (⟨S8192x64x2, .i32⟩ : BufTy).Contents (Elt F) → (⟨S8192x64, .f32⟩ : BufTy).Contents (Elt F) → (⟨S8192x128, .f32⟩ : BufTy).Contents (Elt F)) ]

/-- The next twelve: the row sizes, at least 1, as numbers down the rows (`%c_11` … `%39`), the division (`%40`), and the first projection: the transposed weights, the product, the bias row, the sum (`%41` … `%45`). -/
abbrev ops6 : List (HloOp τ sig (Elt F)) :=
  [ StableHlo.nullary main_c_11 (constantI S_ 32 1#32),
    StableHlo.unary main_c_11 main_v35 (broadcastInDim S8192 ![] bcast_S_S8192 : (⟨S_, .i32⟩ : BufTy).Contents (Elt F) → (⟨S8192, .i32⟩ : BufTy).Contents (Elt F)),
    StableHlo.binary main_arg2 main_v35 main_v36 (maxsi : (⟨S8192, .i32⟩ : BufTy).Contents (Elt F) → (⟨S8192, .i32⟩ : BufTy).Contents (Elt F) → (⟨S8192, .i32⟩ : BufTy).Contents (Elt F)),
    StableHlo.unary main_v36 main_v37 (sitofp .f32 : (⟨S8192, .i32⟩ : BufTy).Contents (Elt F) → (⟨S8192, .f32⟩ : BufTy).Contents (Elt F)),
    StableHlo.unary main_v37 main_v38 (broadcastInDim S8192x1 ![0] bcast_S8192_S8192x1_0 : (⟨S8192, .f32⟩ : BufTy).Contents (Elt F) → (⟨S8192x1, .f32⟩ : BufTy).Contents (Elt F)),
    StableHlo.unary main_v38 main_v39 (broadcastInDim S8192x128 ![0, 1] bcast_S8192x1_S8192x128_0_1 : (⟨S8192x1, .f32⟩ : BufTy).Contents (Elt F) → (⟨S8192x128, .f32⟩ : BufTy).Contents (Elt F)),
    StableHlo.binary main_v34 main_v39 main_v40 (Host.divf : (⟨S8192x128, .f32⟩ : BufTy).Contents (Elt F) → (⟨S8192x128, .f32⟩ : BufTy).Contents (Elt F) → (⟨S8192x128, .f32⟩ : BufTy).Contents (Elt F)),
    StableHlo.unary main_arg4 main_v41 ((transpose S128x1024 [1, 0] · transposes_S1024x128_S128x1024_1_0) : (⟨S1024x128, .f32⟩ : BufTy).Contents (Elt F) → (⟨S128x1024, .f32⟩ : BufTy).Contents (Elt F)),
    StableHlo.binary main_v40 main_v41 main_v42 ((fun l r => Host.dotGeneral dot_S8192x128_S128x1024_S8192x1024_1_0_0_1_n_n none l r) : (⟨S8192x128, .f32⟩ : BufTy).Contents (Elt F) → (⟨S128x1024, .f32⟩ : BufTy).Contents (Elt F) → (⟨S8192x1024, .f32⟩ : BufTy).Contents (Elt F)),
    StableHlo.unary main_arg5 main_v43 (broadcastInDim S1x1024 ![1] bcast_S1024_S1x1024_1 : (⟨S1024, .f32⟩ : BufTy).Contents (Elt F) → (⟨S1x1024, .f32⟩ : BufTy).Contents (Elt F)),
    StableHlo.unary main_v43 main_v44 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v42 main_v44 main_v45 (addf : (⟨S8192x1024, .f32⟩ : BufTy).Contents (Elt F) → (⟨S8192x1024, .f32⟩ : BufTy).Contents (Elt F) → (⟨S8192x1024, .f32⟩ : BufTy).Contents (Elt F)) ]

/-- The last eighteen: the second projection (`%46` … `%50`) and the distance term: the positions down the rows and along the columns, their difference, its absolute value as a number, times -1, plus 0 (`%51` … `%61`). -/
abbrev ops7 : List (HloOp τ sig (Elt F)) :=
  [ StableHlo.unary main_arg6 main_v46 ((transpose S128x1024 [1, 0] · transposes_S1024x128_S128x1024_1_0) : (⟨S1024x128, .f32⟩ : BufTy).Contents (Elt F) → (⟨S128x1024, .f32⟩ : BufTy).Contents (Elt F)),
    StableHlo.binary main_v40 main_v46 main_v47 ((fun l r => Host.dotGeneral dot_S8192x128_S128x1024_S8192x1024_1_0_0_1_n_n none l r) : (⟨S8192x128, .f32⟩ : BufTy).Contents (Elt F) → (⟨S128x1024, .f32⟩ : BufTy).Contents (Elt F) → (⟨S8192x1024, .f32⟩ : BufTy).Contents (Elt F)),
    StableHlo.unary main_arg7 main_v48 (broadcastInDim S1x1024 ![1] bcast_S1024_S1x1024_1 : (⟨S1024, .f32⟩ : BufTy).Contents (Elt F) → (⟨S1x1024, .f32⟩ : BufTy).Contents (Elt F)),
    StableHlo.unary main_v48 main_v49 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v47 main_v49 main_v50 (addf : (⟨S8192x1024, .f32⟩ : BufTy).Contents (Elt F) → (⟨S8192x1024, .f32⟩ : BufTy).Contents (Elt F) → (⟨S8192x1024, .f32⟩ : BufTy).Contents (Elt F)),
    StableHlo.unary main_arg3 main_v51 (broadcastInDim S8192x1 ![0] bcast_S8192_S8192x1_0 : (⟨S8192, .i32⟩ : BufTy).Contents (Elt F) → (⟨S8192x1, .i32⟩ : BufTy).Contents (Elt F)),
    StableHlo.unary main_arg3 main_v52 (broadcastInDim S1x8192 ![1] bcast_S8192_S1x8192_1 : (⟨S8192, .i32⟩ : BufTy).Contents (Elt F) → (⟨S1x8192, .i32⟩ : BufTy).Contents (Elt F)),
    StableHlo.unary main_v51 main_v53 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v52 main_v54 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v53 main_v54 main_v55 (subi : (⟨S8192x8192, .i32⟩ : BufTy).Contents (Elt F) → (⟨S8192x8192, .i32⟩ : BufTy).Contents (Elt F) → (⟨S8192x8192, .i32⟩ : BufTy).Contents (Elt F)),
    StableHlo.unary main_v55 main_v56 (absi : (⟨S8192x8192, .i32⟩ : BufTy).Contents (Elt F) → (⟨S8192x8192, .i32⟩ : BufTy).Contents (Elt F)),
    StableHlo.unary main_v56 main_v57 (sitofp .f32 : (⟨S8192x8192, .i32⟩ : BufTy).Contents (Elt F) → (⟨S8192x8192, .f32⟩ : BufTy).Contents (Elt F)),
    StableHlo.nullary main_cst_12 (constant S_ .f32 0xBF800000#32),
    StableHlo.unary main_cst_12 main_v58 (broadcastInDim S8192x8192 ![] bcast_S_S8192x8192 : (⟨S_, .f32⟩ : BufTy).Contents (Elt F) → (⟨S8192x8192, .f32⟩ : BufTy).Contents (Elt F)),
    StableHlo.binary main_v58 main_v57 main_v59 (mulf : (⟨S8192x8192, .f32⟩ : BufTy).Contents (Elt F) → (⟨S8192x8192, .f32⟩ : BufTy).Contents (Elt F) → (⟨S8192x8192, .f32⟩ : BufTy).Contents (Elt F)),
    StableHlo.nullary main_cst_13 (constant S_ .f32 0x00000000#32),
    StableHlo.unary main_cst_13 main_v60 (broadcastInDim S8192x8192 ![] bcast_S_S8192x8192 : (⟨S_, .f32⟩ : BufTy).Contents (Elt F) → (⟨S8192x8192, .f32⟩ : BufTy).Contents (Elt F)),
    StableHlo.binary main_v59 main_v60 main_v61 (addf : (⟨S8192x8192, .f32⟩ : BufTy).Contents (Elt F) → (⟨S8192x8192, .f32⟩ : BufTy).Contents (Elt F) → (⟨S8192x8192, .f32⟩ : BufTy).Contents (Elt F)) ]

/-- The whole line: the seven stretches in a row. -/
abbrev ops : List (HloOp τ sig (Elt F)) :=
  [ StableHlo.nullary main_c (constantI S_ 32 0#32),
    StableHlo.unary main_c main_v0 (broadcastInDim S8192x64 ![] bcast_S_S8192x64 : (⟨S_, .i32⟩ : BufTy).Contents (Elt F) → (⟨S8192x64, .i32⟩ : BufTy).Contents (Elt F)),
    StableHlo.binary main_arg1 main_v0 main_v1 (cmpi .sge : (⟨S8192x64, .i32⟩ : BufTy).Contents (Elt F) → (⟨S8192x64, .i32⟩ : BufTy).Contents (Elt F) → (⟨S8192x64, .i1⟩ : BufTy).Contents (Elt F)),
    StableHlo.nullary main_c_0 (constantI S_ 32 0#32),
    StableHlo.unary main_c_0 main_call0_v0 (id : (⟨S_, .i32⟩ : BufTy).Contents (Elt F) → (⟨S_, .i32⟩ : BufTy).Contents (Elt F)),
    StableHlo.unary main_call0_v0 main_call0_v1 (broadcastInDim S8192x64 ![] bcast_S_S8192x64 : (⟨S_, .i32⟩ : BufTy).Contents (Elt F) → (⟨S8192x64, .i32⟩ : BufTy).Contents (Elt F)),
    StableHlo.binary main_call0_v1 main_arg1 main_v2 (maxsi : (⟨S8192x64, .i32⟩ : BufTy).Contents (Elt F) → (⟨S8192x64, .i32⟩ : BufTy).Contents (Elt F) → (⟨S8192x64, .i32⟩ : BufTy).Contents (Elt F)),
    StableHlo.nullary main_c_1 (constantI S_ 32 0#32),
    StableHlo.unary main_c_1 main_v3 (broadcastInDim S8192x64 ![] bcast_S_S8192x64 : (⟨S_, .i32⟩ : BufTy).Contents (Elt F) → (⟨S8192x64, .i32⟩ : BufTy).Contents (Elt F)),
    StableHlo.binary main_v2 main_v3 main_v4 (cmpi .slt : (⟨S8192x64, .i32⟩ : BufTy).Contents (Elt F) → (⟨S8192x64, .i32⟩ : BufTy).Contents (Elt F) → (⟨S8192x64, .i1⟩ : BufTy).Contents (Elt F)),
    StableHlo.nullary main_c_2 (constantI S_ 32 65536#32),
    StableHlo.unary main_c_2 main_v5 (broadcastInDim S8192x64 ![] bcast_S_S8192x64 : (⟨S_, .i32⟩ : BufTy).Contents (Elt F) → (⟨S8192x64, .i32⟩ : BufTy).Contents (Elt F)),
    StableHlo.binary main_v2 main_v5 main_v6 (addi : (⟨S8192x64, .i32⟩ : BufTy).Contents (Elt F) → (⟨S8192x64, .i32⟩ : BufTy).Contents (Elt F) → (⟨S8192x64, .i32⟩ : BufTy).Contents (Elt F)),
    StableHlo.ternary main_v4 main_v6 main_v2 main_v7 (select : (⟨S8192x64, .i1⟩ : BufTy).Contents (Elt F) → (⟨S8192x64, .i32⟩ : BufTy).Contents (Elt F) → (⟨S8192x64, .i32⟩ : BufTy).Contents (Elt F) → (⟨S8192x64, .i32⟩ : BufTy).Contents (Elt F)),
    StableHlo.unary main_v7 main_v8 (broadcastInDim S8192x64x1 ![0, 1] bcast_S8192x64_S8192x64x1_0_1 : (⟨S8192x64, .i32⟩ : BufTy).Contents (Elt F) → (⟨S8192x64x1, .i32⟩ : BufTy).Contents (Elt F)),
    StableHlo.binary main_arg0 main_v8 main_v9 ((fun x i => Host.gather gather_S65536_S8192x64x1_S8192x64_n_0_n_n_0_2_1 x i) : (⟨S65536, .i32⟩ : BufTy).Contents (Elt F) → (⟨S8192x64x1, .i32⟩ : BufTy).Contents (Elt F) → (⟨S8192x64, .i32⟩ : BufTy).Contents (Elt F)),
    StableHlo.nullary main_c_3 (constantI S_ 32 128#32),
    StableHlo.unary main_c_3 main_call1_v0 (id : (⟨S_, .i32⟩ : BufTy).Contents (Elt F) → (⟨S_, .i32⟩ : BufTy).Contents (Elt F)),
    StableHlo.nullary main_call1_c (constantI S_ 32 0#32),
    StableHlo.binary main_call1_v0 main_call1_c main_call1_v1 (cmpi .eq : (⟨S_, .i32⟩ : BufTy).Contents (Elt F) → (⟨S_, .i32⟩ : BufTy).Contents (Elt F) → (⟨S_, .i1⟩ : BufTy).Contents (Elt F)),
    StableHlo.nullary main_call1_c_0 (constantI S_ 32 1#32),
    StableHlo.ternary main_call1_v1 main_call1_c_0 main_call1_v0 main_call1_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call1_v2 main_call1_v3 (broadcastInDim S8192x64 ![] bcast_S_S8192x64 : (⟨S_, .i32⟩ : BufTy).Contents (Elt F) → (⟨S8192x64, .i32⟩ : BufTy).Contents (Elt F)),
    StableHlo.binary main_v9 main_call1_v3 main_call1_v4 (Host.remsi : (⟨S8192x64, .i32⟩ : BufTy).Contents (Elt F) → (⟨S8192x64, .i32⟩ : BufTy).Contents (Elt F) → (⟨S8192x64, .i32⟩ : BufTy).Contents (Elt F)),
    StableHlo.nullary main_call1_c_1 (constantI S_ 32 0#32),
    StableHlo.unary main_call1_c_1 main_call1_v5 (broadcastInDim S8192x64 ![] bcast_S_S8192x64 : (⟨S_, .i32⟩ : BufTy).Contents (Elt F) → (⟨S8192x64, .i32⟩ : BufTy).Contents (Elt F)),
    StableHlo.binary main_call1_v4 main_call1_v5 main_call1_v6 (cmpi .ne : (⟨S8192x64, .i32⟩ : BufTy).Contents (Elt F) → (⟨S8192x64, .i32⟩ : BufTy).Contents (Elt F) → (⟨S8192x64, .i1⟩ : BufTy).Contents (Elt F)),
    StableHlo.nullary main_call1_c_2 (constantI S_ 32 0#32),
    StableHlo.unary main_call1_c_2 main_call1_v7 (broadcastInDim S8192x64 ![] bcast_S_S8192x64 : (⟨S_, .i32⟩ : BufTy).Contents (Elt F) → (⟨S8192x64, .i32⟩ : BufTy).Contents (Elt F)),
    StableHlo.binary main_call1_v4 main_call1_v7 main_call1_v8 (cmpi .slt : (⟨S8192x64, .i32⟩ : BufTy).Contents (Elt F) → (⟨S8192x64, .i32⟩ : BufTy).Contents (Elt F) → (⟨S8192x64, .i1⟩ : BufTy).Contents (Elt F)),
    StableHlo.nullary main_call1_c_3 (constantI S_ 32 0#32),
    StableHlo.binary main_call1_v2 main_call1_c_3 main_call1_v9 (cmpi .slt : (⟨S_, .i32⟩ : BufTy).Contents (Elt F) → (⟨S_, .i32⟩ : BufTy).Contents (Elt F) → (⟨S_, .i1⟩ : BufTy).Contents (Elt F)),
    StableHlo.unary main_call1_v9 main_call1_v10 (broadcastInDim S8192x64 ![] bcast_S_S8192x64 : (⟨S_, .i1⟩ : BufTy).Contents (Elt F) → (⟨S8192x64, .i1⟩ : BufTy).Contents (Elt F)),
    StableHlo.binary main_call1_v8 main_call1_v10 main_call1_v11 (cmpi .ne : (⟨S8192x64, .i1⟩ : BufTy).Contents (Elt F) → (⟨S8192x64, .i1⟩ : BufTy).Contents (Elt F) → (⟨S8192x64, .i1⟩ : BufTy).Contents (Elt F)),
    StableHlo.binary main_call1_v11 main_call1_v6 main_call1_v12 (andi : (⟨S8192x64, .i1⟩ : BufTy).Contents (Elt F) → (⟨S8192x64, .i1⟩ : BufTy).Contents (Elt F) → (⟨S8192x64, .i1⟩ : BufTy).Contents (Elt F)),
    StableHlo.unary main_call1_v2 main_call1_v13 (broadcastInDim S8192x64 ![] bcast_S_S8192x64 : (⟨S_, .i32⟩ : BufTy).Contents (Elt F) → (⟨S8192x64, .i32⟩ : BufTy).Contents (Elt F)),
    StableHlo.binary main_call1_v4 main_call1_v13 main_call1_v14 (addi : (⟨S8192x64, .i32⟩ : BufTy).Contents (Elt F) → (⟨S8192x64, .i32⟩ : BufTy).Contents (Elt F) → (⟨S8192x64, .i32⟩ : BufTy).Contents (Elt F)),
    StableHlo.ternary main_call1_v12 main_call1_v14 main_call1_v4 main_v10 (select : (⟨S8192x64, .i1⟩ : BufTy).Contents (Elt F) → (⟨S8192x64, .i32⟩ : BufTy).Contents (Elt F) → (⟨S8192x64, .i32⟩ : BufTy).Contents (Elt F) → (⟨S8192x64, .i32⟩ : BufTy).Contents (Elt F)),
    StableHlo.nullary main_c_4 (constantI S_ 32 39#32),
    StableHlo.unary main_c_4 main_v11 (broadcastInDim S8192x64 ![] bcast_S_S8192x64 : (⟨S_, .i32⟩ : BufTy).Contents (Elt F) → (⟨S8192x64, .i32⟩ : BufTy).Contents (Elt F)),
    StableHlo.binary main_v10 main_v11 main_v12 (muli : (⟨S8192x64, .i32⟩ : BufTy).Contents (Elt F) → (⟨S8192x64, .i32⟩ : BufTy).Contents (Elt F) → (⟨S8192x64, .i32⟩ : BufTy).Contents (Elt F)),
    StableHlo.nullary main_c_5 (constantI S_ 32 13#32),
    StableHlo.unary main_c_5 main_v13 (broadcastInDim S8192x64 ![] bcast_S_S8192x64 : (⟨S_, .i32⟩ : BufTy).Contents (Elt F) → (⟨S8192x64, .i32⟩ : BufTy).Contents (Elt F)),
    StableHlo.binary main_v12 main_v13 main_v14 (addi : (⟨S8192x64, .i32⟩ : BufTy).Contents (Elt F) → (⟨S8192x64, .i32⟩ : BufTy).Contents (Elt F) → (⟨S8192x64, .i32⟩ : BufTy).Contents (Elt F)),
    StableHlo.nullary main_c_6 (constantI S_ 32 128#32),
    StableHlo.unary main_c_6 main_call2_v0 (id : (⟨S_, .i32⟩ : BufTy).Contents (Elt F) → (⟨S_, .i32⟩ : BufTy).Contents (Elt F)),
    StableHlo.nullary main_call2_c (constantI S_ 32 0#32),
    StableHlo.binary main_call2_v0 main_call2_c main_call2_v1 (cmpi .eq : (⟨S_, .i32⟩ : BufTy).Contents (Elt F) → (⟨S_, .i32⟩ : BufTy).Contents (Elt F) → (⟨S_, .i1⟩ : BufTy).Contents (Elt F)),
    StableHlo.nullary main_call2_c_0 (constantI S_ 32 1#32),
    StableHlo.ternary main_call2_v1 main_call2_c_0 main_call2_v0 main_call2_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call2_v2 main_call2_v3 (broadcastInDim S8192x64 ![] bcast_S_S8192x64 : (⟨S_, .i32⟩ : BufTy).Contents (Elt F) → (⟨S8192x64, .i32⟩ : BufTy).Contents (Elt F)),
    StableHlo.binary main_v14 main_call2_v3 main_call2_v4 (Host.remsi : (⟨S8192x64, .i32⟩ : BufTy).Contents (Elt F) → (⟨S8192x64, .i32⟩ : BufTy).Contents (Elt F) → (⟨S8192x64, .i32⟩ : BufTy).Contents (Elt F)),
    StableHlo.nullary main_call2_c_1 (constantI S_ 32 0#32),
    StableHlo.unary main_call2_c_1 main_call2_v5 (broadcastInDim S8192x64 ![] bcast_S_S8192x64 : (⟨S_, .i32⟩ : BufTy).Contents (Elt F) → (⟨S8192x64, .i32⟩ : BufTy).Contents (Elt F)),
    StableHlo.binary main_call2_v4 main_call2_v5 main_call2_v6 (cmpi .ne : (⟨S8192x64, .i32⟩ : BufTy).Contents (Elt F) → (⟨S8192x64, .i32⟩ : BufTy).Contents (Elt F) → (⟨S8192x64, .i1⟩ : BufTy).Contents (Elt F)),
    StableHlo.nullary main_call2_c_2 (constantI S_ 32 0#32),
    StableHlo.unary main_call2_c_2 main_call2_v7 (broadcastInDim S8192x64 ![] bcast_S_S8192x64 : (⟨S_, .i32⟩ : BufTy).Contents (Elt F) → (⟨S8192x64, .i32⟩ : BufTy).Contents (Elt F)),
    StableHlo.binary main_call2_v4 main_call2_v7 main_call2_v8 (cmpi .slt : (⟨S8192x64, .i32⟩ : BufTy).Contents (Elt F) → (⟨S8192x64, .i32⟩ : BufTy).Contents (Elt F) → (⟨S8192x64, .i1⟩ : BufTy).Contents (Elt F)),
    StableHlo.nullary main_call2_c_3 (constantI S_ 32 0#32),
    StableHlo.binary main_call2_v2 main_call2_c_3 main_call2_v9 (cmpi .slt : (⟨S_, .i32⟩ : BufTy).Contents (Elt F) → (⟨S_, .i32⟩ : BufTy).Contents (Elt F) → (⟨S_, .i1⟩ : BufTy).Contents (Elt F)),
    StableHlo.unary main_call2_v9 main_call2_v10 (broadcastInDim S8192x64 ![] bcast_S_S8192x64 : (⟨S_, .i1⟩ : BufTy).Contents (Elt F) → (⟨S8192x64, .i1⟩ : BufTy).Contents (Elt F)),
    StableHlo.binary main_call2_v8 main_call2_v10 main_call2_v11 (cmpi .ne : (⟨S8192x64, .i1⟩ : BufTy).Contents (Elt F) → (⟨S8192x64, .i1⟩ : BufTy).Contents (Elt F) → (⟨S8192x64, .i1⟩ : BufTy).Contents (Elt F)),
    StableHlo.binary main_call2_v11 main_call2_v6 main_call2_v12 (andi : (⟨S8192x64, .i1⟩ : BufTy).Contents (Elt F) → (⟨S8192x64, .i1⟩ : BufTy).Contents (Elt F) → (⟨S8192x64, .i1⟩ : BufTy).Contents (Elt F)),
    StableHlo.unary main_call2_v2 main_call2_v13 (broadcastInDim S8192x64 ![] bcast_S_S8192x64 : (⟨S_, .i32⟩ : BufTy).Contents (Elt F) → (⟨S8192x64, .i32⟩ : BufTy).Contents (Elt F)),
    StableHlo.binary main_call2_v4 main_call2_v13 main_call2_v14 (addi : (⟨S8192x64, .i32⟩ : BufTy).Contents (Elt F) → (⟨S8192x64, .i32⟩ : BufTy).Contents (Elt F) → (⟨S8192x64, .i32⟩ : BufTy).Contents (Elt F)),
    StableHlo.ternary main_call2_v12 main_call2_v14 main_call2_v4 main_v15 (select : (⟨S8192x64, .i1⟩ : BufTy).Contents (Elt F) → (⟨S8192x64, .i32⟩ : BufTy).Contents (Elt F) → (⟨S8192x64, .i32⟩ : BufTy).Contents (Elt F) → (⟨S8192x64, .i32⟩ : BufTy).Contents (Elt F)),
    StableHlo.nullary main_v16 (iotaInDim S8192 32 0),
    StableHlo.unary main_v16 main_v17 (broadcastInDim S8192x1 ![0] bcast_S8192_S8192x1_0 : (⟨S8192, .i32⟩ : BufTy).Contents (Elt F) → (⟨S8192x1, .i32⟩ : BufTy).Contents (Elt F)),
    StableHlo.unary main_v17 main_v18 (broadcastInDim S8192x64 ![0, 1] bcast_S8192x1_S8192x64_0_1 : (⟨S8192x1, .i32⟩ : BufTy).Contents (Elt F) → (⟨S8192x64, .i32⟩ : BufTy).Contents (Elt F)),
    StableHlo.nullary main_cst (constant S_ .f32 0x00000000#32),
    StableHlo.unary main_cst main_v19 (broadcastInDim S8192x128 ![] bcast_S_S8192x128 : (⟨S_, .f32⟩ : BufTy).Contents (Elt F) → (⟨S8192x128, .f32⟩ : BufTy).Contents (Elt F)),
    StableHlo.unary main_v1 main_v20 (uitofp .f32 : (⟨S8192x64, .i1⟩ : BufTy).Contents (Elt F) → (⟨S8192x64, .f32⟩ : BufTy).Contents (Elt F)),
    StableHlo.nullary main_c_7 (constantI S_ 32 0#32),
    StableHlo.unary main_c_7 main_v21 (broadcastInDim S8192x64 ![] bcast_S_S8192x64 : (⟨S_, .i32⟩ : BufTy).Contents (Elt F) → (⟨S8192x64, .i32⟩ : BufTy).Contents (Elt F)),
    StableHlo.binary main_v18 main_v21 main_v22 (cmpi .slt : (⟨S8192x64, .i32⟩ : BufTy).Contents (Elt F) → (⟨S8192x64, .i32⟩ : BufTy).Contents (Elt F) → (⟨S8192x64, .i1⟩ : BufTy).Contents (Elt F)),
    StableHlo.nullary main_c_8 (constantI S_ 32 8192#32),
    StableHlo.unary main_c_8 main_v23 (broadcastInDim S8192x64 ![] bcast_S_S8192x64 : (⟨S_, .i32⟩ : BufTy).Contents (Elt F) → (⟨S8192x64, .i32⟩ : BufTy).Contents (Elt F)),
    StableHlo.binary main_v18 main_v23 main_v24 (addi : (⟨S8192x64, .i32⟩ : BufTy).Contents (Elt F) → (⟨S8192x64, .i32⟩ : BufTy).Contents (Elt F) → (⟨S8192x64, .i32⟩ : BufTy).Contents (Elt F)),
    StableHlo.ternary main_v22 main_v24 main_v18 main_v25 (select : (⟨S8192x64, .i1⟩ : BufTy).Contents (Elt F) → (⟨S8192x64, .i32⟩ : BufTy).Contents (Elt F) → (⟨S8192x64, .i32⟩ : BufTy).Contents (Elt F) → (⟨S8192x64, .i32⟩ : BufTy).Contents (Elt F)),
    StableHlo.nullary main_c_9 (constantI S_ 32 0#32),
    StableHlo.unary main_c_9 main_v26 (broadcastInDim S8192x64 ![] bcast_S_S8192x64 : (⟨S_, .i32⟩ : BufTy).Contents (Elt F) → (⟨S8192x64, .i32⟩ : BufTy).Contents (Elt F)),
    StableHlo.binary main_v15 main_v26 main_v27 (cmpi .slt : (⟨S8192x64, .i32⟩ : BufTy).Contents (Elt F) → (⟨S8192x64, .i32⟩ : BufTy).Contents (Elt F) → (⟨S8192x64, .i1⟩ : BufTy).Contents (Elt F)),
    StableHlo.nullary main_c_10 (constantI S_ 32 128#32),
    StableHlo.unary main_c_10 main_v28 (broadcastInDim S8192x64 ![] bcast_S_S8192x64 : (⟨S_, .i32⟩ : BufTy).Contents (Elt F) → (⟨S8192x64, .i32⟩ : BufTy).Contents (Elt F)),
    StableHlo.binary main_v15 main_v28 main_v29 (addi : (⟨S8192x64, .i32⟩ : BufTy).Contents (Elt F) → (⟨S8192x64, .i32⟩ : BufTy).Contents (Elt F) → (⟨S8192x64, .i32⟩ : BufTy).Contents (Elt F)),
    StableHlo.ternary main_v27 main_v29 main_v15 main_v30 (select : (⟨S8192x64, .i1⟩ : BufTy).Contents (Elt F) → (⟨S8192x64, .i32⟩ : BufTy).Contents (Elt F) → (⟨S8192x64, .i32⟩ : BufTy).Contents (Elt F) → (⟨S8192x64, .i32⟩ : BufTy).Contents (Elt F)),
    StableHlo.unary main_v25 main_v31 (broadcastInDim S8192x64x1 ![0, 1] bcast_S8192x64_S8192x64x1_0_1 : (⟨S8192x64, .i32⟩ : BufTy).Contents (Elt F) → (⟨S8192x64x1, .i32⟩ : BufTy).Contents (Elt F)),
    StableHlo.unary main_v30 main_v32 (broadcastInDim S8192x64x1 ![0, 1] bcast_S8192x64_S8192x64x1_0_1 : (⟨S8192x64, .i32⟩ : BufTy).Contents (Elt F) → (⟨S8192x64x1, .i32⟩ : BufTy).Contents (Elt F)),
    StableHlo.binary main_v31 main_v32 main_v33 ((fun a b => concatenate S8192x64x2 2 [⟨S8192x64x1, a⟩, ⟨S8192x64x1, b⟩] concatenates_S8192x64x1_S8192x64x1_S8192x64x2_d2) : (⟨S8192x64x1, .i32⟩ : BufTy).Contents (Elt F) → (⟨S8192x64x1, .i32⟩ : BufTy).Contents (Elt F) → (⟨S8192x64x2, .i32⟩ : BufTy).Contents (Elt F)),
    StableHlo.ternary main_v19 main_v33 main_v20 main_v34 ((fun x i u => Host.scatterAdd scatter_S8192x128_S8192x64x2_S8192x64_n_01_01_2 x i u) : (⟨S8192x128, .f32⟩ : BufTy).Contents (Elt F) → (⟨S8192x64x2, .i32⟩ : BufTy).Contents (Elt F) → (⟨S8192x64, .f32⟩ : BufTy).Contents (Elt F) → (⟨S8192x128, .f32⟩ : BufTy).Contents (Elt F)),
    StableHlo.nullary main_c_11 (constantI S_ 32 1#32),
    StableHlo.unary main_c_11 main_v35 (broadcastInDim S8192 ![] bcast_S_S8192 : (⟨S_, .i32⟩ : BufTy).Contents (Elt F) → (⟨S8192, .i32⟩ : BufTy).Contents (Elt F)),
    StableHlo.binary main_arg2 main_v35 main_v36 (maxsi : (⟨S8192, .i32⟩ : BufTy).Contents (Elt F) → (⟨S8192, .i32⟩ : BufTy).Contents (Elt F) → (⟨S8192, .i32⟩ : BufTy).Contents (Elt F)),
    StableHlo.unary main_v36 main_v37 (sitofp .f32 : (⟨S8192, .i32⟩ : BufTy).Contents (Elt F) → (⟨S8192, .f32⟩ : BufTy).Contents (Elt F)),
    StableHlo.unary main_v37 main_v38 (broadcastInDim S8192x1 ![0] bcast_S8192_S8192x1_0 : (⟨S8192, .f32⟩ : BufTy).Contents (Elt F) → (⟨S8192x1, .f32⟩ : BufTy).Contents (Elt F)),
    StableHlo.unary main_v38 main_v39 (broadcastInDim S8192x128 ![0, 1] bcast_S8192x1_S8192x128_0_1 : (⟨S8192x1, .f32⟩ : BufTy).Contents (Elt F) → (⟨S8192x128, .f32⟩ : BufTy).Contents (Elt F)),
    StableHlo.binary main_v34 main_v39 main_v40 (Host.divf : (⟨S8192x128, .f32⟩ : BufTy).Contents (Elt F) → (⟨S8192x128, .f32⟩ : BufTy).Contents (Elt F) → (⟨S8192x128, .f32⟩ : BufTy).Contents (Elt F)),
    StableHlo.unary main_arg4 main_v41 ((transpose S128x1024 [1, 0] · transposes_S1024x128_S128x1024_1_0) : (⟨S1024x128, .f32⟩ : BufTy).Contents (Elt F) → (⟨S128x1024, .f32⟩ : BufTy).Contents (Elt F)),
    StableHlo.binary main_v40 main_v41 main_v42 ((fun l r => Host.dotGeneral dot_S8192x128_S128x1024_S8192x1024_1_0_0_1_n_n none l r) : (⟨S8192x128, .f32⟩ : BufTy).Contents (Elt F) → (⟨S128x1024, .f32⟩ : BufTy).Contents (Elt F) → (⟨S8192x1024, .f32⟩ : BufTy).Contents (Elt F)),
    StableHlo.unary main_arg5 main_v43 (broadcastInDim S1x1024 ![1] bcast_S1024_S1x1024_1 : (⟨S1024, .f32⟩ : BufTy).Contents (Elt F) → (⟨S1x1024, .f32⟩ : BufTy).Contents (Elt F)),
    StableHlo.unary main_v43 main_v44 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v42 main_v44 main_v45 (addf : (⟨S8192x1024, .f32⟩ : BufTy).Contents (Elt F) → (⟨S8192x1024, .f32⟩ : BufTy).Contents (Elt F) → (⟨S8192x1024, .f32⟩ : BufTy).Contents (Elt F)),
    StableHlo.unary main_arg6 main_v46 ((transpose S128x1024 [1, 0] · transposes_S1024x128_S128x1024_1_0) : (⟨S1024x128, .f32⟩ : BufTy).Contents (Elt F) → (⟨S128x1024, .f32⟩ : BufTy).Contents (Elt F)),
    StableHlo.binary main_v40 main_v46 main_v47 ((fun l r => Host.dotGeneral dot_S8192x128_S128x1024_S8192x1024_1_0_0_1_n_n none l r) : (⟨S8192x128, .f32⟩ : BufTy).Contents (Elt F) → (⟨S128x1024, .f32⟩ : BufTy).Contents (Elt F) → (⟨S8192x1024, .f32⟩ : BufTy).Contents (Elt F)),
    StableHlo.unary main_arg7 main_v48 (broadcastInDim S1x1024 ![1] bcast_S1024_S1x1024_1 : (⟨S1024, .f32⟩ : BufTy).Contents (Elt F) → (⟨S1x1024, .f32⟩ : BufTy).Contents (Elt F)),
    StableHlo.unary main_v48 main_v49 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v47 main_v49 main_v50 (addf : (⟨S8192x1024, .f32⟩ : BufTy).Contents (Elt F) → (⟨S8192x1024, .f32⟩ : BufTy).Contents (Elt F) → (⟨S8192x1024, .f32⟩ : BufTy).Contents (Elt F)),
    StableHlo.unary main_arg3 main_v51 (broadcastInDim S8192x1 ![0] bcast_S8192_S8192x1_0 : (⟨S8192, .i32⟩ : BufTy).Contents (Elt F) → (⟨S8192x1, .i32⟩ : BufTy).Contents (Elt F)),
    StableHlo.unary main_arg3 main_v52 (broadcastInDim S1x8192 ![1] bcast_S8192_S1x8192_1 : (⟨S8192, .i32⟩ : BufTy).Contents (Elt F) → (⟨S1x8192, .i32⟩ : BufTy).Contents (Elt F)),
    StableHlo.unary main_v51 main_v53 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v52 main_v54 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v53 main_v54 main_v55 (subi : (⟨S8192x8192, .i32⟩ : BufTy).Contents (Elt F) → (⟨S8192x8192, .i32⟩ : BufTy).Contents (Elt F) → (⟨S8192x8192, .i32⟩ : BufTy).Contents (Elt F)),
    StableHlo.unary main_v55 main_v56 (absi : (⟨S8192x8192, .i32⟩ : BufTy).Contents (Elt F) → (⟨S8192x8192, .i32⟩ : BufTy).Contents (Elt F)),
    StableHlo.unary main_v56 main_v57 (sitofp .f32 : (⟨S8192x8192, .i32⟩ : BufTy).Contents (Elt F) → (⟨S8192x8192, .f32⟩ : BufTy).Contents (Elt F)),
    StableHlo.nullary main_cst_12 (constant S_ .f32 0xBF800000#32),
    StableHlo.unary main_cst_12 main_v58 (broadcastInDim S8192x8192 ![] bcast_S_S8192x8192 : (⟨S_, .f32⟩ : BufTy).Contents (Elt F) → (⟨S8192x8192, .f32⟩ : BufTy).Contents (Elt F)),
    StableHlo.binary main_v58 main_v57 main_v59 (mulf : (⟨S8192x8192, .f32⟩ : BufTy).Contents (Elt F) → (⟨S8192x8192, .f32⟩ : BufTy).Contents (Elt F) → (⟨S8192x8192, .f32⟩ : BufTy).Contents (Elt F)),
    StableHlo.nullary main_cst_13 (constant S_ .f32 0x00000000#32),
    StableHlo.unary main_cst_13 main_v60 (broadcastInDim S8192x8192 ![] bcast_S_S8192x8192 : (⟨S_, .f32⟩ : BufTy).Contents (Elt F) → (⟨S8192x8192, .f32⟩ : BufTy).Contents (Elt F)),
    StableHlo.binary main_v59 main_v60 main_v61 (addf : (⟨S8192x8192, .f32⟩ : BufTy).Contents (Elt F) → (⟨S8192x8192, .f32⟩ : BufTy).Contents (Elt F) → (⟨S8192x8192, .f32⟩ : BufTy).Contents (Elt F)) ]

/-- The line is its seven stretches, one after the other. -/
theorem ops_split : (ops : List (HloOp τ sig (Elt F))) = ops1 ++ (ops2 ++ (ops3 ++ (ops4 ++ (ops5 ++ (ops6 ++ ops7))))) := by
  rfl

/-- The fold over two lists in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over the whole line is the seven folds composed. -/
theorem after_ops (V : Valuation τ sig (Elt F)) :
    after ops V = after ops7 (after ops6 (after ops5 (after ops4 (after ops3 (after ops2 (after ops1 V)))))) := by
  rw [ops_split, after_app, after_app, after_app, after_app, after_app, after_app]

/-! ## The program is the line -/

-- one hundred and twenty binds to walk on each side, a call's body unfolded in place: the bind of the free monad
-- computes, and a typed reference's transport is the identity at a literal reference
set_option maxRecDepth 8192 in
set_option maxHeartbeats 8000000 in
/-- The program is the sequence of its operations: the two windows in a row, each call its body over the call's buffers. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., unary_bufs_sub .., nullary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- From any memory with zero counters every weakly fair execution of the program terminates, and every final
    state has each TensorCore buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefTerm.lean ====
/-
  The reference's three results as composed terms of its argument arrays: the histogram scattered from the
  slot masks at (row, bin) index pairs, divided by the row sizes and multiplied into the two transposed weight
  matrices with a bias row added; and the pairwise word differences of the positions, in absolute value, as
  numbers, times -1 plus 0.
-/
import proofs.«423792_j90847148245151_1_alg».proof.ReferenceIdeal
import proofs.«423792_j90847148245151_1_alg».proof.Proof.Spec

noncomputable section

namespace Cert.ReferenceIdeal.Hand

open Cert.ReferenceIdeal Idealize.ShloMosaic
open Facts₀ Facts

variable {F : FTy → Type} [FloatOps F] [Facts]

/-- The bin words as the reference computes them. -/
def rBins (tok : IVec S65536 32) (idx : IVec S8192x64 32) : IVec S8192x64 32 :=
  Cert.Spec.binsT bcast_S_S8192x64 bcast_S8192x64_S8192x64x1_0_1 gather_S65536_S8192x64x1_S8192x64_n_0_n_n_0_2_1_wf tok idx

/-- A word array over the slots with a negative word wrapped by `n` (an index normalised for the scatter). -/
def wrapNeg (x : IVec S8192x64 32) (n : BitVec 32) : IVec S8192x64 32 :=
  select (cmpi .slt x (broadcastInDim S8192x64 ![] bcast_S_S8192x64 (constantI S_ 32 0#32)))
    (addi x (broadcastInDim S8192x64 ![] bcast_S_S8192x64 (constantI S_ 32 n))) x

/-- The row number of every slot. -/
def rRows : IVec S8192x64 32 :=
  broadcastInDim S8192x64 ![0, 1] bcast_S8192x1_S8192x64_0_1 (broadcastInDim S8192x1 ![0] bcast_S8192_S8192x1_0 (iotaInDim S8192 32 0))

/-- The (row, bin) index pairs of the scatter. -/
def rPairs (tok : IVec S65536 32) (idx : IVec S8192x64 32) : IVec S8192x64x2 32 :=
  concatenate S8192x64x2 2
    [⟨S8192x64x1, broadcastInDim S8192x64x1 ![0, 1] bcast_S8192x64_S8192x64x1_0_1 (wrapNeg rRows 8192#32)⟩,
     ⟨S8192x64x1, broadcastInDim S8192x64x1 ![0, 1] bcast_S8192x64_S8192x64x1_0_1 (wrapNeg (rBins tok idx) 128#32)⟩]
    concatenates_S8192x64x1_S8192x64x1_S8192x64x2_d2

/-- The histogram: the slot masks scattered into zeros at the index pairs. -/
def rCounts (tok : IVec S65536 32) (idx : IVec S8192x64 32) : FVec F S8192x128 .f32 :=
  Host.scatterAdd scatter_S8192x128_S8192x64x2_S8192x64_n_01_01_2
    (broadcastInDim S8192x128 ![] bcast_S_S8192x128 (constant S_ .f32 0x00000000#32))
    (rPairs tok idx) (Cert.Spec.validT bcast_S_S8192x64 idx)

/-- The histogram divided by the row sizes. -/
def rNorm (tok : IVec S65536 32) (idx : IVec S8192x64 32) (sizes : IVec S8192 32) : FVec F S8192x128 .f32 :=
  Host.divf (rCounts tok idx)
    (broadcastInDim S8192x128 ![0, 1] bcast_S8192x1_S8192x128_0_1
      (broadcastInDim S8192x1 ![0] bcast_S8192_S8192x1_0 (Cert.Spec.denV bcast_S_S8192 sizes)))

/-- A projection: the normalised histogram times the transposed weights, plus the bias row. -/
def rProj (tok : IVec S65536 32) (idx : IVec S8192x64 32) (sizes : IVec S8192 32) (w : FVec F S1024x128 .f32)
    (b : FVec F S1024 .f32) : FVec F S8192x1024 .f32 :=
  addf (Host.dotGeneral dot_S8192x128_S128x1024_S8192x1024_1_0_0_1_n_n none (rNorm tok idx sizes)
      (transpose S128x1024 [1, 0] w transposes_S1024x128_S128x1024_1_0))
    (broadcastInDim S8192x1024 ![0, 1] bcast_S1x1024_S8192x1024_0_1 (broadcastInDim S1x1024 ![1] bcast_S1024_S1x1024_1 b))

/-- The distance term: -1 times the absolute word difference of two positions as a number, plus 0. -/
def rGeom (p : IVec S8192 32) : FVec F S8192x8192 .f32 :=
  addf
    (mulf (broadcastInDim S8192x8192 ![] bcast_S_S8192x8192 (constant S_ .f32 0xBF800000#32))
      (sitofp .f32 (absi (subi
        (broadcastInDim S8192x8192 ![0, 1] bcast_S8192x1_S8192x8192_0_1 (broadcastInDim S8192x1 ![0] bcast_S8192_S8192x1_0 p))
        (broadcastInDim S8192x8192 ![0, 1] bcast_S1x8192_S8192x8192_0_1 (broadcastInDim S1x8192 ![1] bcast_S8192_S1x8192_1 p))))))
    (broadcastInDim S8192x8192 ![] bcast_S_S8192x8192 (constant S_ .f32 0x00000000#32))

end Cert.ReferenceIdeal.Hand

end
-- ==== Proof.RefReadA.lean ====
/-
  The reference's line read stretch by stretch, for any contents before a stretch: which buffers a stretch leaves as
  they were (the eight arguments everywhere, the slot mask after it is computed, the first projection in the last
  stretch), and what the first four stretches compute: the slot mask, the gathered tokens, the two floor remainders
  and the scale and shift between them. Composed, the bin words of the first four stretches are the composed term
  `rBins` of the token table and the slot indices.
-/
import proofs.«423792_j90847148245151_1_alg».proof.Proof.RefOps
import proofs.«423792_j90847148245151_1_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the stretch `s` writes one buffer, and it is among the listed ones. -/
macro "writes_listed " s:ident : tactic =>
  `(tactic| (simp only [$s:ident, List.Forall, nullary_writes, unary_writes, binary_writes, ternary_writes,
               Finset.singleton_subset_iff, List.mem_toFinset]
             repeat' apply And.intro
             all_goals exact List.mem_map_of_mem (by decide)))

/-! ## What each stretch writes -/

/-- The buffers the first stretch writes, in order. -/
abbrev wr1 : List (Ref sig .tc) := [main_c, main_v0, main_v1, main_c_0, main_call0_v0, main_call0_v1, main_v2, main_c_1, main_v3, main_v4, main_c_2, main_v5, main_v6, main_v7, main_v8, main_v9, main_c_3]
theorem writes1 : (ops1 : List (HloOp τ sig (Elt F))).Forall fun op => op.writes ⊆ ((wr1).map (Proc.devRef (τ := τ) .tc)).toFinset := by
  writes_listed ops1

/-- The buffers the second stretch writes, in order. -/
abbrev wr2 : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v10]
theorem writes2 : (ops2 : List (HloOp τ sig (Elt F))).Forall fun op => op.writes ⊆ ((wr2).map (Proc.devRef (τ := τ) .tc)).toFinset := by
  writes_listed ops2

/-- The buffers the third stretch writes, in order. -/
abbrev wr3 : List (Ref sig .tc) := [main_c_4, main_v11, main_v12, main_c_5, main_v13, main_v14, main_c_6]
theorem writes3 : (ops3 : List (HloOp τ sig (Elt F))).Forall fun op => op.writes ⊆ ((wr3).map (Proc.devRef (τ := τ) .tc)).toFinset := by
  writes_listed ops3

/-- The buffers the fourth stretch writes, in order. -/
abbrev wr4 : List (Ref sig .tc) := [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v15]
theorem writes4 : (ops4 : List (HloOp τ sig (Elt F))).Forall fun op => op.writes ⊆ ((wr4).map (Proc.devRef (τ := τ) .tc)).toFinset := by
  writes_listed ops4

/-- The buffers the fifth stretch writes, in order. -/
abbrev wr5 : List (Ref sig .tc) := [main_v16, main_v17, main_v18, main_cst, main_v19, main_v20, main_c_7, main_v21, main_v22, main_c_8, main_v23, main_v24, main_v25, main_c_9, main_v26, main_v27, main_c_10, main_v28, main_v29, main_v30, main_v31, main_v32, main_v33, main_v34]
theorem writes5 : (ops5 : List (HloOp τ sig (Elt F))).Forall fun op => op.writes ⊆ ((wr5).map (Proc.devRef (τ := τ) .tc)).toFinset := by
  writes_listed ops5

/-- The buffers the sixth stretch writes, in order. -/
abbrev wr6 : List (Ref sig .tc) := [main_c_11, main_v35, main_v36, main_v37, main_v38, main_v39, main_v40, main_v41, main_v42, main_v43, main_v44, main_v45]
theorem writes6 : (ops6 : List (HloOp τ sig (Elt F))).Forall fun op => op.writes ⊆ ((wr6).map (Proc.devRef (τ := τ) .tc)).toFinset := by
  writes_listed ops6

/-- The buffers the last stretch writes, in order. -/
abbrev wr7 : List (Ref sig .tc) := [main_v46, main_v47, main_v48, main_v49, main_v50, main_v51, main_v52, main_v53, main_v54, main_v55, main_v56, main_v57, main_cst_12, main_v58, main_v59, main_cst_13, main_v60, main_v61]
theorem writes7 : (ops7 : List (HloOp τ sig (Elt F))).Forall fun op => op.writes ⊆ ((wr7).map (Proc.devRef (τ := τ) .tc)).toFinset := by
  writes_listed ops7

/-! ## What each stretch leaves as it was: a buffer not among those it writes -/

theorem keep1_arg0 (W : Valuation τ sig (Elt F)) : after ops1 W (main_arg0 : DevRef τ sig) = W (main_arg0 : DevRef τ sig) :=
  after_of_writes_sub ops1 W writes1 (by decide)
theorem keep1_arg1 (W : Valuation τ sig (Elt F)) : after ops1 W (main_arg1 : DevRef τ sig) = W (main_arg1 : DevRef τ sig) :=
  after_of_writes_sub ops1 W writes1 (by decide)
theorem keep1_arg2 (W : Valuation τ sig (Elt F)) : after ops1 W (main_arg2 : DevRef τ sig) = W (main_arg2 : DevRef τ sig) :=
  after_of_writes_sub ops1 W writes1 (by decide)
theorem keep1_arg3 (W : Valuation τ sig (Elt F)) : after ops1 W (main_arg3 : DevRef τ sig) = W (main_arg3 : DevRef τ sig) :=
  after_of_writes_sub ops1 W writes1 (by decide)
theorem keep1_arg4 (W : Valuation τ sig (Elt F)) : after ops1 W (main_arg4 : DevRef τ sig) = W (main_arg4 : DevRef τ sig) :=
  after_of_writes_sub ops1 W writes1 (by decide)
theorem keep1_arg5 (W : Valuation τ sig (Elt F)) : after ops1 W (main_arg5 : DevRef τ sig) = W (main_arg5 : DevRef τ sig) :=
  after_of_writes_sub ops1 W writes1 (by decide)
theorem keep1_arg6 (W : Valuation τ sig (Elt F)) : after ops1 W (main_arg6 : DevRef τ sig) = W (main_arg6 : DevRef τ sig) :=
  after_of_writes_sub ops1 W writes1 (by decide)
theorem keep1_arg7 (W : Valuation τ sig (Elt F)) : after ops1 W (main_arg7 : DevRef τ sig) = W (main_arg7 : DevRef τ sig) :=
  after_of_writes_sub ops1 W writes1 (by decide)
theorem keep2_arg0 (W : Valuation τ sig (Elt F)) : after ops2 W (main_arg0 : DevRef τ sig) = W (main_arg0 : DevRef τ sig) :=
  after_of_writes_sub ops2 W writes2 (by decide)
theorem keep2_arg1 (W : Valuation τ sig (Elt F)) : after ops2 W (main_arg1 : DevRef τ sig) = W (main_arg1 : DevRef τ sig) :=
  after_of_writes_sub ops2 W writes2 (by decide)
theorem keep2_arg2 (W : Valuation τ sig (Elt F)) : after ops2 W (main_arg2 : DevRef τ sig) = W (main_arg2 : DevRef τ sig) :=
  after_of_writes_sub ops2 W writes2 (by decide)
theorem keep2_arg3 (W : Valuation τ sig (Elt F)) : after ops2 W (main_arg3 : DevRef τ sig) = W (main_arg3 : DevRef τ sig) :=
  after_of_writes_sub ops2 W writes2 (by decide)
theorem keep2_arg4 (W : Valuation τ sig (Elt F)) : after ops2 W (main_arg4 : DevRef τ sig) = W (main_arg4 : DevRef τ sig) :=
  after_of_writes_sub ops2 W writes2 (by decide)
theorem keep2_arg5 (W : Valuation τ sig (Elt F)) : after ops2 W (main_arg5 : DevRef τ sig) = W (main_arg5 : DevRef τ sig) :=
  after_of_writes_sub ops2 W writes2 (by decide)
theorem keep2_arg6 (W : Valuation τ sig (Elt F)) : after ops2 W (main_arg6 : DevRef τ sig) = W (main_arg6 : DevRef τ sig) :=
  after_of_writes_sub ops2 W writes2 (by decide)
theorem keep2_arg7 (W : Valuation τ sig (Elt F)) : after ops2 W (main_arg7 : DevRef τ sig) = W (main_arg7 : DevRef τ sig) :=
  after_of_writes_sub ops2 W writes2 (by decide)
theorem keep3_arg0 (W : Valuation τ sig (Elt F)) : after ops3 W (main_arg0 : DevRef τ sig) = W (main_arg0 : DevRef τ sig) :=
  after_of_writes_sub ops3 W writes3 (by decide)
theorem keep3_arg1 (W : Valuation τ sig (Elt F)) : after ops3 W (main_arg1 : DevRef τ sig) = W (main_arg1 : DevRef τ sig) :=
  after_of_writes_sub ops3 W writes3 (by decide)
theorem keep3_arg2 (W : Valuation τ sig (Elt F)) : after ops3 W (main_arg2 : DevRef τ sig) = W (main_arg2 : DevRef τ sig) :=
  after_of_writes_sub ops3 W writes3 (by decide)
theorem keep3_arg3 (W : Valuation τ sig (Elt F)) : after ops3 W (main_arg3 : DevRef τ sig) = W (main_arg3 : DevRef τ sig) :=
  after_of_writes_sub ops3 W writes3 (by decide)
theorem keep3_arg4 (W : Valuation τ sig (Elt F)) : after ops3 W (main_arg4 : DevRef τ sig) = W (main_arg4 : DevRef τ sig) :=
  after_of_writes_sub ops3 W writes3 (by decide)
theorem keep3_arg5 (W : Valuation τ sig (Elt F)) : after ops3 W (main_arg5 : DevRef τ sig) = W (main_arg5 : DevRef τ sig) :=
  after_of_writes_sub ops3 W writes3 (by decide)
theorem keep3_arg6 (W : Valuation τ sig (Elt F)) : after ops3 W (main_arg6 : DevRef τ sig) = W (main_arg6 : DevRef τ sig) :=
  after_of_writes_sub ops3 W writes3 (by decide)
theorem keep3_arg7 (W : Valuation τ sig (Elt F)) : after ops3 W (main_arg7 : DevRef τ sig) = W (main_arg7 : DevRef τ sig) :=
  after_of_writes_sub ops3 W writes3 (by decide)
theorem keep4_arg0 (W : Valuation τ sig (Elt F)) : after ops4 W (main_arg0 : DevRef τ sig) = W (main_arg0 : DevRef τ sig) :=
  after_of_writes_sub ops4 W writes4 (by decide)
theorem keep4_arg1 (W : Valuation τ sig (Elt F)) : after ops4 W (main_arg1 : DevRef τ sig) = W (main_arg1 : DevRef τ sig) :=
  after_of_writes_sub ops4 W writes4 (by decide)
theorem keep4_arg2 (W : Valuation τ sig (Elt F)) : after ops4 W (main_arg2 : DevRef τ sig) = W (main_arg2 : DevRef τ sig) :=
  after_of_writes_sub ops4 W writes4 (by decide)
theorem keep4_arg3 (W : Valuation τ sig (Elt F)) : after ops4 W (main_arg3 : DevRef τ sig) = W (main_arg3 : DevRef τ sig) :=
  after_of_writes_sub ops4 W writes4 (by decide)
theorem keep4_arg4 (W : Valuation τ sig (Elt F)) : after ops4 W (main_arg4 : DevRef τ sig) = W (main_arg4 : DevRef τ sig) :=
  after_of_writes_sub ops4 W writes4 (by decide)
theorem keep4_arg5 (W : Valuation τ sig (Elt F)) : after ops4 W (main_arg5 : DevRef τ sig) = W (main_arg5 : DevRef τ sig) :=
  after_of_writes_sub ops4 W writes4 (by decide)
theorem keep4_arg6 (W : Valuation τ sig (Elt F)) : after ops4 W (main_arg6 : DevRef τ sig) = W (main_arg6 : DevRef τ sig) :=
  after_of_writes_sub ops4 W writes4 (by decide)
theorem keep4_arg7 (W : Valuation τ sig (Elt F)) : after ops4 W (main_arg7 : DevRef τ sig) = W (main_arg7 : DevRef τ sig) :=
  after_of_writes_sub ops4 W writes4 (by decide)
theorem keep5_arg0 (W : Valuation τ sig (Elt F)) : after ops5 W (main_arg0 : DevRef τ sig) = W (main_arg0 : DevRef τ sig) :=
  after_of_writes_sub ops5 W writes5 (by decide)
theorem keep5_arg1 (W : Valuation τ sig (Elt F)) : after ops5 W (main_arg1 : DevRef τ sig) = W (main_arg1 : DevRef τ sig) :=
  after_of_writes_sub ops5 W writes5 (by decide)
theorem keep5_arg2 (W : Valuation τ sig (Elt F)) : after ops5 W (main_arg2 : DevRef τ sig) = W (main_arg2 : DevRef τ sig) :=
  after_of_writes_sub ops5 W writes5 (by decide)
theorem keep5_arg3 (W : Valuation τ sig (Elt F)) : after ops5 W (main_arg3 : DevRef τ sig) = W (main_arg3 : DevRef τ sig) :=
  after_of_writes_sub ops5 W writes5 (by decide)
theorem keep5_arg4 (W : Valuation τ sig (Elt F)) : after ops5 W (main_arg4 : DevRef τ sig) = W (main_arg4 : DevRef τ sig) :=
  after_of_writes_sub ops5 W writes5 (by decide)
theorem keep5_arg5 (W : Valuation τ sig (Elt F)) : after ops5 W (main_arg5 : DevRef τ sig) = W (main_arg5 : DevRef τ sig) :=
  after_of_writes_sub ops5 W writes5 (by decide)
theorem keep5_arg6 (W : Valuation τ sig (Elt F)) : after ops5 W (main_arg6 : DevRef τ sig) = W (main_arg6 : DevRef τ sig) :=
  after_of_writes_sub ops5 W writes5 (by decide)
theorem keep5_arg7 (W : Valuation τ sig (Elt F)) : after ops5 W (main_arg7 : DevRef τ sig) = W (main_arg7 : DevRef τ sig) :=
  after_of_writes_sub ops5 W writes5 (by decide)
theorem keep6_arg0 (W : Valuation τ sig (Elt F)) : after ops6 W (main_arg0 : DevRef τ sig) = W (main_arg0 : DevRef τ sig) :=
  after_of_writes_sub ops6 W writes6 (by decide)
theorem keep6_arg1 (W : Valuation τ sig (Elt F)) : after ops6 W (main_arg1 : DevRef τ sig) = W (main_arg1 : DevRef τ sig) :=
  after_of_writes_sub ops6 W writes6 (by decide)
theorem keep6_arg2 (W : Valuation τ sig (Elt F)) : after ops6 W (main_arg2 : DevRef τ sig) = W (main_arg2 : DevRef τ sig) :=
  after_of_writes_sub ops6 W writes6 (by decide)
theorem keep6_arg3 (W : Valuation τ sig (Elt F)) : after ops6 W (main_arg3 : DevRef τ sig) = W (main_arg3 : DevRef τ sig) :=
  after_of_writes_sub ops6 W writes6 (by decide)
theorem keep6_arg4 (W : Valuation τ sig (Elt F)) : after ops6 W (main_arg4 : DevRef τ sig) = W (main_arg4 : DevRef τ sig) :=
  after_of_writes_sub ops6 W writes6 (by decide)
theorem keep6_arg5 (W : Valuation τ sig (Elt F)) : after ops6 W (main_arg5 : DevRef τ sig) = W (main_arg5 : DevRef τ sig) :=
  after_of_writes_sub ops6 W writes6 (by decide)
theorem keep6_arg6 (W : Valuation τ sig (Elt F)) : after ops6 W (main_arg6 : DevRef τ sig) = W (main_arg6 : DevRef τ sig) :=
  after_of_writes_sub ops6 W writes6 (by decide)
theorem keep6_arg7 (W : Valuation τ sig (Elt F)) : after ops6 W (main_arg7 : DevRef τ sig) = W (main_arg7 : DevRef τ sig) :=
  after_of_writes_sub ops6 W writes6 (by decide)
theorem keep7_arg0 (W : Valuation τ sig (Elt F)) : after ops7 W (main_arg0 : DevRef τ sig) = W (main_arg0 : DevRef τ sig) :=
  after_of_writes_sub ops7 W writes7 (by decide)
theorem keep7_arg1 (W : Valuation τ sig (Elt F)) : after ops7 W (main_arg1 : DevRef τ sig) = W (main_arg1 : DevRef τ sig) :=
  after_of_writes_sub ops7 W writes7 (by decide)
theorem keep7_arg2 (W : Valuation τ sig (Elt F)) : after ops7 W (main_arg2 : DevRef τ sig) = W (main_arg2 : DevRef τ sig) :=
  after_of_writes_sub ops7 W writes7 (by decide)
theorem keep7_arg3 (W : Valuation τ sig (Elt F)) : after ops7 W (main_arg3 : DevRef τ sig) = W (main_arg3 : DevRef τ sig) :=
  after_of_writes_sub ops7 W writes7 (by decide)
theorem keep7_arg4 (W : Valuation τ sig (Elt F)) : after ops7 W (main_arg4 : DevRef τ sig) = W (main_arg4 : DevRef τ sig) :=
  after_of_writes_sub ops7 W writes7 (by decide)
theorem keep7_arg5 (W : Valuation τ sig (Elt F)) : after ops7 W (main_arg5 : DevRef τ sig) = W (main_arg5 : DevRef τ sig) :=
  after_of_writes_sub ops7 W writes7 (by decide)
theorem keep7_arg6 (W : Valuation τ sig (Elt F)) : after ops7 W (main_arg6 : DevRef τ sig) = W (main_arg6 : DevRef τ sig) :=
  after_of_writes_sub ops7 W writes7 (by decide)
theorem keep7_arg7 (W : Valuation τ sig (Elt F)) : after ops7 W (main_arg7 : DevRef τ sig) = W (main_arg7 : DevRef τ sig) :=
  after_of_writes_sub ops7 W writes7 (by decide)
theorem keep2_v1 (W : Valuation τ sig (Elt F)) : after ops2 W (main_v1 : DevRef τ sig) = W (main_v1 : DevRef τ sig) :=
  after_of_writes_sub ops2 W writes2 (by decide)
theorem keep3_v1 (W : Valuation τ sig (Elt F)) : after ops3 W (main_v1 : DevRef τ sig) = W (main_v1 : DevRef τ sig) :=
  after_of_writes_sub ops3 W writes3 (by decide)
theorem keep4_v1 (W : Valuation τ sig (Elt F)) : after ops4 W (main_v1 : DevRef τ sig) = W (main_v1 : DevRef τ sig) :=
  after_of_writes_sub ops4 W writes4 (by decide)
theorem keep7_v45 (W : Valuation τ sig (Elt F)) : after ops7 W (main_v45 : DevRef τ sig) = W (main_v45 : DevRef τ sig) :=
  after_of_writes_sub ops7 W writes7 (by decide)

/-! ## What the first four stretches compute -/

/-- The slot index clamped below at 0, a negative one wrapped by the table's length. -/
def rIdx (idx : IVec S8192x64 32) : IVec S8192x64 32 :=
  select (cmpi .slt (maxsi (broadcastInDim S8192x64 ![] bcast_S_S8192x64 (id (constantI S_ 32 0#32))) idx) (broadcastInDim S8192x64 ![] bcast_S_S8192x64 (constantI S_ 32 0#32)))
    (addi (maxsi (broadcastInDim S8192x64 ![] bcast_S_S8192x64 (id (constantI S_ 32 0#32))) idx) (broadcastInDim S8192x64 ![] bcast_S_S8192x64 (constantI S_ 32 65536#32)))
    (maxsi (broadcastInDim S8192x64 ![] bcast_S_S8192x64 (id (constantI S_ 32 0#32))) idx)

/-- The slot mask: the index at least 0. -/
theorem ra_v1 (V : Valuation τ sig (Elt F)) :
    after ops1 V (main_v1 : DevRef τ sig) = cmpi .sge (V (main_arg1 : DevRef τ sig)) (broadcastInDim S8192x64 ![] bcast_S_S8192x64 (constantI S_ 32 0#32)) := by
  after_results_simp <;> rfl

/-- The gathered tokens. -/
theorem ra_v9 (V : Valuation τ sig (Elt F)) :
    after ops1 V (main_v9 : DevRef τ sig)
      = Host.gather gather_S65536_S8192x64x1_S8192x64_n_0_n_n_0_2_1 (V (main_arg0 : DevRef τ sig))
          (broadcastInDim S8192x64x1 ![0, 1] bcast_S8192x64_S8192x64x1_0_1 (rIdx (V (main_arg1 : DevRef τ sig)))) := by
  after_results_simp <;> rfl

/-- The first divisor. -/
theorem ra_c_3 (V : Valuation τ sig (Elt F)) : after ops1 V (main_c_3 : DevRef τ sig) = constantI S_ 32 128#32 := by
  after_results_simp <;> rfl

set_option maxHeartbeats 4000000 in
/-- The first floor remainder. -/
theorem ra_v10 (W : Valuation τ sig (Elt F)) :
    after ops2 W (main_v10 : DevRef τ sig) = Cert.Spec.remT bcast_S_S8192x64 (W (main_v9 : DevRef τ sig)) (W (main_c_3 : DevRef τ sig)) := by
  after_results_simp <;> rfl

/-- The scale and the shift. -/
theorem ra_v14 (W : Valuation τ sig (Elt F)) :
    after ops3 W (main_v14 : DevRef τ sig) = addi (muli (W (main_v10 : DevRef τ sig)) (broadcastInDim S8192x64 ![] bcast_S_S8192x64 (constantI S_ 32 39#32))) (broadcastInDim S8192x64 ![] bcast_S_S8192x64 (constantI S_ 32 13#32)) := by
  after_results_simp <;> rfl

/-- The second divisor. -/
theorem ra_c_6 (W : Valuation τ sig (Elt F)) : after ops3 W (main_c_6 : DevRef τ sig) = constantI S_ 32 128#32 := by
  after_results_simp <;> rfl

set_option maxHeartbeats 4000000 in
/-- The second floor remainder. -/
theorem ra_v15 (W : Valuation τ sig (Elt F)) :
    after ops4 W (main_v15 : DevRef τ sig) = Cert.Spec.remT bcast_S_S8192x64 (W (main_v14 : DevRef τ sig)) (W (main_c_6 : DevRef τ sig)) := by
  after_results_simp <;> rfl

/-! ## The first four stretches composed -/

attribute [local irreducible] Host.gather Host.remsi in
/-- The bin words after the first four stretches are the composed term of the token table and the slot indices. -/
theorem ra_bins (V : Valuation τ sig (Elt F)) :
    after ops4 (after ops3 (after ops2 (after ops1 V))) (main_v15 : DevRef τ sig)
      = rBins (V (main_arg0 : DevRef τ sig)) (V (main_arg1 : DevRef τ sig)) := by
  rw [ra_v15, ra_v14, ra_c_6, ra_v10, ra_v9, ra_c_3]
  rfl

/-- The slot mask after the first four stretches. -/
theorem ra_mask (V : Valuation τ sig (Elt F)) :
    after ops4 (after ops3 (after ops2 (after ops1 V))) (main_v1 : DevRef τ sig)
      = cmpi .sge (V (main_arg1 : DevRef τ sig)) (broadcastInDim S8192x64 ![] bcast_S_S8192x64 (constantI S_ 32 0#32)) := by
  rw [keep4_v1, keep3_v1, keep2_v1, ra_v1]

theorem ra_arg0 (V : Valuation τ sig (Elt F)) :
    after ops4 (after ops3 (after ops2 (after ops1 V))) (main_arg0 : DevRef τ sig) = V (main_arg0 : DevRef τ sig) := by
  rw [keep4_arg0, keep3_arg0, keep2_arg0, keep1_arg0]
theorem ra_arg1 (V : Valuation τ sig (Elt F)) :
    after ops4 (after ops3 (after ops2 (after ops1 V))) (main_arg1 : DevRef τ sig) = V (main_arg1 : DevRef τ sig) := by
  rw [keep4_arg1, keep3_arg1, keep2_arg1, keep1_arg1]
theorem ra_arg2 (V : Valuation τ sig (Elt F)) :
    after ops4 (after ops3 (after ops2 (after ops1 V))) (main_arg2 : DevRef τ sig) = V (main_arg2 : DevRef τ sig) := by
  rw [keep4_arg2, keep3_arg2, keep2_arg2, keep1_arg2]
theorem ra_arg3 (V : Valuation τ sig (Elt F)) :
    after ops4 (after ops3 (after ops2 (after ops1 V))) (main_arg3 : DevRef τ sig) = V (main_arg3 : DevRef τ sig) := by
  rw [keep4_arg3, keep3_arg3, keep2_arg3, keep1_arg3]
theorem ra_arg4 (V : Valuation τ sig (Elt F)) :
    after ops4 (after ops3 (after ops2 (after ops1 V))) (main_arg4 : DevRef τ sig) = V (main_arg4 : DevRef τ sig) := by
  rw [keep4_arg4, keep3_arg4, keep2_arg4, keep1_arg4]
theorem ra_arg5 (V : Valuation τ sig (Elt F)) :
    after ops4 (after ops3 (after ops2 (after ops1 V))) (main_arg5 : DevRef τ sig) = V (main_arg5 : DevRef τ sig) := by
  rw [keep4_arg5, keep3_arg5, keep2_arg5, keep1_arg5]
theorem ra_arg6 (V : Valuation τ sig (Elt F)) :
    after ops4 (after ops3 (after ops2 (after ops1 V))) (main_arg6 : DevRef τ sig) = V (main_arg6 : DevRef τ sig) := by
  rw [keep4_arg6, keep3_arg6, keep2_arg6, keep1_arg6]
theorem ra_arg7 (V : Valuation τ sig (Elt F)) :
    after ops4 (after ops3 (after ops2 (after ops1 V))) (main_arg7 : DevRef τ sig) = V (main_arg7 : DevRef τ sig) := by
  rw [keep4_arg7, keep3_arg7, keep2_arg7, keep1_arg7]

end Cert.ReferenceIdeal.Hand

end
-- ==== Proof.RefReadB.lean ====
/-
  The reference's later stretches read back from any contents: the histogram scattered at the (row, bin) index
  pairs from the bin words and the slot mask bits; its division by the row sizes; the two projections; the
  distance term.
-/
import proofs.«423792_j90847148245151_1_alg».proof.Proof.RefOps
import proofs.«423792_j90847148245151_1_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (W : Valuation τ sig (Elt F))

set_option maxHeartbeats 4000000 in
/-- The histogram after the fifth stretch, from the bin words and the mask bits it finds. -/
theorem rb_main_v34 : after ops5 W (main_v34 : DevRef τ sig)
    = Host.scatterAdd scatter_S8192x128_S8192x64x2_S8192x64_n_01_01_2
        (broadcastInDim S8192x128 ![] Gen.bcast_S_S8192x128 (constant S_ .f32 0x00000000#32))
        (concatenate S8192x64x2 2
          [⟨S8192x64x1, broadcastInDim S8192x64x1 ![0, 1] Gen.bcast_S8192x64_S8192x64x1_0_1 (wrapNeg rRows 8192#32)⟩,
           ⟨S8192x64x1, broadcastInDim S8192x64x1 ![0, 1] Gen.bcast_S8192x64_S8192x64x1_0_1 (wrapNeg (W (main_v15 : DevRef τ sig)) 128#32)⟩]
          Gen.concatenates_S8192x64x1_S8192x64x1_S8192x64x2_d2)
        (uitofp .f32 (W (main_v1 : DevRef τ sig))) := by
  after_results_simp <;> rfl

/-- The normalised histogram after the sixth stretch. -/
theorem rb_main_v40 : after ops6 W (main_v40 : DevRef τ sig)
    = Host.divf (W (main_v34 : DevRef τ sig))
        (broadcastInDim S8192x128 ![0, 1] Gen.bcast_S8192x1_S8192x128_0_1
          (broadcastInDim S8192x1 ![0] Gen.bcast_S8192_S8192x1_0 (Cert.Spec.denV Gen.bcast_S_S8192 (W (main_arg2 : DevRef τ sig))))) := by
  after_results <;> rfl

/-- The first projection after the sixth stretch. -/
theorem rb_main_v45 : after ops6 W (main_v45 : DevRef τ sig)
    = addf (Host.dotGeneral dot_S8192x128_S128x1024_S8192x1024_1_0_0_1_n_n none
        (Host.divf (W (main_v34 : DevRef τ sig))
          (broadcastInDim S8192x128 ![0, 1] Gen.bcast_S8192x1_S8192x128_0_1
            (broadcastInDim S8192x1 ![0] Gen.bcast_S8192_S8192x1_0 (Cert.Spec.denV Gen.bcast_S_S8192 (W (main_arg2 : DevRef τ sig))))))
        (transpose S128x1024 [1, 0] (W (main_arg4 : DevRef τ sig)) Gen.transposes_S1024x128_S128x1024_1_0))
      (broadcastInDim S8192x1024 ![0, 1] Gen.bcast_S1x1024_S8192x1024_0_1 (broadcastInDim S1x1024 ![1] Gen.bcast_S1024_S1x1024_1 (W (main_arg5 : DevRef τ sig)))) := by
  after_results <;> rfl

/-- The second projection after the last stretch, from the normalised histogram it finds. -/
theorem rb_main_v50 : after ops7 W (main_v50 : DevRef τ sig)
    = addf (Host.dotGeneral dot_S8192x128_S128x1024_S8192x1024_1_0_0_1_n_n none (W (main_v40 : DevRef τ sig))
        (transpose S128x1024 [1, 0] (W (main_arg6 : DevRef τ sig)) Gen.transposes_S1024x128_S128x1024_1_0))
      (broadcastInDim S8192x1024 ![0, 1] Gen.bcast_S1x1024_S8192x1024_0_1 (broadcastInDim S1x1024 ![1] Gen.bcast_S1024_S1x1024_1 (W (main_arg7 : DevRef τ sig)))) := by
  after_results <;> rfl

/-- The distance term after the last stretch. -/
theorem rb_main_v61 : after ops7 W (main_v61 : DevRef τ sig) = rGeom (W (main_arg3 : DevRef τ sig)) := by
  after_results <;> rfl

end Cert.ReferenceIdeal.Hand

end
-- ==== Proof.RefRun.lean ====
/-
  The reference program's run: its host operations in order, the calls' bodies in place, and every weakly fair
  execution ending with the three result buffers at the composed terms of the argument arrays and the
  arguments unchanged.
-/
import proofs.«423792_j90847148245151_1_alg».proof.Proof.RefReadA
import proofs.«423792_j90847148245151_1_alg».proof.Proof.RefReadB

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The results and the arguments read through the whole line -/

attribute [local irreducible] Host.scatterAdd Host.divf Host.gather Host.remsi concatenate transpose in
/-- The first projection after the whole line is its composed term of the arguments. -/
theorem out_v45 (V : Valuation τ sig (Elt F)) :
    after ops V (main_v45 : DevRef τ sig) = rProj (V (main_arg0 : DevRef τ sig)) (V (main_arg1 : DevRef τ sig)) (V (main_arg2 : DevRef τ sig)) (V (main_arg4 : DevRef τ sig)) (V (main_arg5 : DevRef τ sig)) := by
  rw [after_ops, keep7_v45, rb_main_v45, rb_main_v34, keep5_arg2, keep5_arg4, keep5_arg5, ra_bins, ra_mask, ra_arg2,
    ra_arg4, ra_arg5]
  rfl

attribute [local irreducible] Host.scatterAdd Host.divf Host.gather Host.remsi concatenate transpose in
/-- The second projection after the whole line is its composed term of the arguments. -/
theorem out_v50 (V : Valuation τ sig (Elt F)) :
    after ops V (main_v50 : DevRef τ sig) = rProj (V (main_arg0 : DevRef τ sig)) (V (main_arg1 : DevRef τ sig)) (V (main_arg2 : DevRef τ sig)) (V (main_arg6 : DevRef τ sig)) (V (main_arg7 : DevRef τ sig)) := by
  rw [after_ops, rb_main_v50, rb_main_v40, rb_main_v34, keep6_arg6, keep6_arg7, keep5_arg6, keep5_arg7, keep5_arg2,
    ra_bins, ra_mask, ra_arg2, ra_arg6, ra_arg7]
  rfl

/-- The distance term after the whole line is its composed term of the positions. -/
theorem out_v61 (V : Valuation τ sig (Elt F)) : after ops V (main_v61 : DevRef τ sig) = rGeom (V (main_arg3 : DevRef τ sig)) := by
  rw [after_ops, rb_main_v61, keep6_arg3, keep5_arg3, ra_arg3]

theorem out_arg0 (V : Valuation τ sig (Elt F)) : after ops V (main_arg0 : DevRef τ sig) = V (main_arg0 : DevRef τ sig) := by
  rw [after_ops, keep7_arg0, keep6_arg0, keep5_arg0, ra_arg0]
theorem out_arg1 (V : Valuation τ sig (Elt F)) : after ops V (main_arg1 : DevRef τ sig) = V (main_arg1 : DevRef τ sig) := by
  rw [after_ops, keep7_arg1, keep6_arg1, keep5_arg1, ra_arg1]
theorem out_arg2 (V : Valuation τ sig (Elt F)) : after ops V (main_arg2 : DevRef τ sig) = V (main_arg2 : DevRef τ sig) := by
  rw [after_ops, keep7_arg2, keep6_arg2, keep5_arg2, ra_arg2]
theorem out_arg3 (V : Valuation τ sig (Elt F)) : after ops V (main_arg3 : DevRef τ sig) = V (main_arg3 : DevRef τ sig) := by
  rw [after_ops, keep7_arg3, keep6_arg3, keep5_arg3, ra_arg3]
theorem out_arg4 (V : Valuation τ sig (Elt F)) : after ops V (main_arg4 : DevRef τ sig) = V (main_arg4 : DevRef τ sig) := by
  rw [after_ops, keep7_arg4, keep6_arg4, keep5_arg4, ra_arg4]
theorem out_arg5 (V : Valuation τ sig (Elt F)) : after ops V (main_arg5 : DevRef τ sig) = V (main_arg5 : DevRef τ sig) := by
  rw [after_ops, keep7_arg5, keep6_arg5, keep5_arg5, ra_arg5]
theorem out_arg6 (V : Valuation τ sig (Elt F)) : after ops V (main_arg6 : DevRef τ sig) = V (main_arg6 : DevRef τ sig) := by
  rw [after_ops, keep7_arg6, keep6_arg6, keep5_arg6, ra_arg6]
theorem out_arg7 (V : Valuation τ sig (Elt F)) : after ops V (main_arg7 : DevRef τ sig) = V (main_arg7 : DevRef τ sig) := by
  rw [after_ops, keep7_arg7, keep6_arg7, keep5_arg7, ra_arg7]

/-- From any memory with zero counters every weakly fair execution of the reference terminates with the two
    projections and the distance term at their composed terms of the arguments, the arguments unchanged. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = rProj (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v50) = rProj (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7))
      ∧ r.2.mem ((c.tc : Thread nD τ).loc main_v61) = rGeom (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v45).trans (out_v45 (launchContents m c)),
      (h c main_v50).trans (out_v50 (launchContents m c)),
      (h c main_v61).trans (out_v61 (launchContents m c)),
      (h c main_arg0).trans (out_arg0 (launchContents m c)),
      (h c main_arg1).trans (out_arg1 (launchContents m c)),
      (h c main_arg2).trans (out_arg2 (launchContents m c)),
      (h c main_arg3).trans (out_arg3 (launchContents m c)),
      (h c main_arg4).trans (out_arg4 (launchContents m c)),
      (h c main_arg5).trans (out_arg5 (launchContents m c)),
      (h c main_arg6).trans (out_arg6 (launchContents m c)),
      (h c main_arg7).trans (out_arg7 (launchContents m c))⟩)
    (run_main m ρ)

end Cert.ReferenceIdeal.Hand

end
-- ==== Proof.SpecFacts.lean ====
/-
  Word facts behind the closed forms: the floor remainder by 128 is never negative, so neither is a bin word;
  a non-negative word is unchanged by the wrap of negative indices; a word read signed equals a small number
  exactly when it is that number's word; and for two non-negative words the wrapped difference, in absolute
  value, read as a number, is the absolute difference of the two numbers.
-/
import proofs.«423792_j90847148245151_1_alg».proof.Proof.Spec
import Idealize.ShloMosaic.Lib.Affine

noncomputable section

namespace Cert.Spec

open Idealize.ShloMosaic Idealize.ShloMosaic.ValueIdx

/-- The truncated remainder of a word by 128, read signed, lies strictly between -128 and 128. -/
theorem srem128_bounds (x : BitVec 32) :
    -128 < (x.srem 128#32).toInt ∧ (x.srem 128#32).toInt < 128 := by
  have h128 : (128#32 : BitVec 32).toInt = 128 := by decide
  rw [BitVec.toInt_srem, h128]
  exact ⟨Int.lt_tmod_of_pos _ (by decide), Int.tmod_lt_of_pos _ (by decide)⟩

/-- A bit that is not the bit 0 is the bit 1. -/
theorem bit_ne_zero (c : BitVec 1) : IntOp.cmpi .ne c 0#1 = 1#1 ↔ c = 1#1 := by
  revert c; decide

/-- The floor remainder by 128 on one word: the truncated remainder `r`, with 128 added back where `r` is
    negative (and so nonzero), is never negative. -/
theorem floorRem128_nonneg (x : BitVec 32) :
    0 ≤ (Scalar.select
          (IntOp.andi
            (IntOp.cmpi .ne (IntOp.cmpi .slt (IntOp.remsi .host x 128#32) 0#32)
              (IntOp.cmpi .slt (128#32 : BitVec 32) 0#32))
            (IntOp.cmpi .ne (IntOp.remsi .host x 128#32) 0#32))
          (IntOp.addi (IntOp.remsi .host x 128#32) 128#32) (IntOp.remsi .host x 128#32)).toInt := by
  rw [IntOp.remsi_of_pos .host (by decide)]
  obtain ⟨h1, h2⟩ := srem128_bounds x
  generalize x.srem 128#32 = r at h1 h2 ⊢
  have h0 : IntOp.cmpi .slt (128#32 : BitVec 32) 0#32 = 0#1 := by decide
  have hz : (0#32 : BitVec 32).toInt = 0 := by decide
  have h128 : (128#32 : BitVec 32).toInt = 128 := by decide
  rw [h0]
  show 0 ≤ (if _ = 1#1 then _ else _ : BitVec 32).toInt
  split
  · rename_i hc
    rw [IntOp.andi_eq_one, bit_ne_zero, IntOp.cmpi_slt, hz] at hc
    rw [IntOp.addi, BitVec.toInt_add, h128, Int.bmod_eq_of_le (by omega) (by omega)]
    omega
  · rename_i hc
    rw [IntOp.andi_eq_one, bit_ne_zero, IntOp.cmpi_slt, hz, IntOp.cmpi_ne] at hc
    by_contra hneg
    apply hc
    refine ⟨by omega, ?_⟩
    rintro rfl
    exact hneg (by decide)

/-- A rank-0 array broadcast to the slot grid reads, everywhere, its one entry. -/
theorem bcast0_apply {α : Type} (hb : T0.BroadcastsInDim TI (![] : Fin 0 → Fin TI.rank)) (z : T0.Idx → α)
    (i : TI.Idx) (k : T0.Idx) : broadcastInDim TI ![] hb z i = z k := by
  unfold broadcastInDim
  exact congrArg z (funext fun a => a.elim0)

/-- The floor remainder by the scalar word 128 is never negative. -/
theorem remT_nonneg (hb : T0.BroadcastsInDim TI (![] : Fin 0 → Fin TI.rank)) (x : IVec TI 32) (i : TI.Idx) :
    0 ≤ (remT hb x (constantI T0 32 128#32) i).toInt := by
  have k : T0.Idx := fun a => a.elim0
  have hy2 : Scalar.select (IntOp.cmpi .eq (id (constantI T0 32 128#32) k) (constantI T0 32 (0#32) k))
      (constantI T0 32 (1#32) k) (id (constantI T0 32 128#32) k) = 128#32 := rfl
  simp only [remT, select, cmpi, andi, addi, Host.remsi, bcast0_apply hb _ i k]
  rw [hy2]
  exact floorRem128_nonneg (x i)

/-- A bin word is never negative. -/
theorem binsT_nonneg (hb : T0.BroadcastsInDim TI (![] : Fin 0 → Fin TI.rank))
    (hb3 : TI.BroadcastsInDim TI1 (![0, 1] : Fin 2 → Fin TI1.rank))
    (hg : GatherDims.WF TTok TI1 TI [] [0] [] [0] [] 2 ![1])
    (tok : IVec TTok 32) (idx : IVec TI 32) (i : TI.Idx) : 0 ≤ (binsT hb hb3 hg tok idx i).toInt := by
  unfold binsT
  exact remT_nonneg hb _ i

/-- A word read signed is the number `k < 128` exactly when it is `k`'s word. -/
theorem toInt_eq_iff (x : BitVec 32) (k : Fin 128) : x.toInt = (k.val : ℤ) ↔ x = BitVec.ofNat 32 k.val := by
  have hk : (BitVec.ofNat 32 k.val).toInt = (k.val : ℤ) := by
    rw [BitVec.toInt_ofNat', Int.bmod_eq_of_le (by omega) (by omega)]
  rw [← hk, BitVec.toInt_inj]

/-- A row number's word read signed is the row number. -/
theorem row_word_toInt (a : Fin 8192) : (BitVec.ofNat 32 a.val).toInt = (a.val : ℤ) := by
  rw [BitVec.toInt_ofNat', Int.bmod_eq_of_le (by omega) (by omega)]

/-- The wrap of negative indices leaves a non-negative word alone. -/
theorem wrap_of_nonneg (x n : BitVec 32) (hx : 0 ≤ x.toInt) :
    Scalar.select (IntOp.cmpi .slt x 0#32) (IntOp.addi x n) x = x := by
  have hz : (0#32 : BitVec 32).toInt = 0 := by decide
  show (if _ = 1#1 then _ else _ : BitVec 32) = x
  rw [if_neg]
  rw [IntOp.cmpi_slt, hz]
  omega

/-- The equality test of two words is the bit 1 exactly when they are equal. -/
theorem cmpi_eq_one_iff (x y : BitVec 32) : IntOp.cmpi .eq x y = 1#1 ↔ x = y := IntOp.cmpi_eq

/-- For non-negative words the absolute value of the wrapped difference, as a number, is the absolute
    difference of the two numbers (written `max d (-d)`). -/
theorem dist_words (p q : BitVec 32) (hp : 0 ≤ p.toInt) (hq : 0 ≤ q.toInt) :
    (((IntOp.absi (IntOp.subi p q)).toInt : ℝ) : EReal)
      = max (((p.toInt : ℝ) : EReal) - ((q.toInt : ℝ) : EReal)) (-(((p.toInt : ℝ) : EReal) - ((q.toInt : ℝ) : EReal))) := by
  have hp2 : p.toInt < 2 ^ (32 - 1) := BitVec.toInt_lt
  have hq2 : q.toInt < 2 ^ (32 - 1) := BitVec.toInt_lt
  have hsub : (p - q).toInt = p.toInt - q.toInt := by
    rw [BitVec.toInt_sub, Int.bmod_eq_of_le (by omega) (by omega)]
  rw [← EReal.coe_sub, ← EReal.coe_neg]
  unfold IntOp.absi IntOp.subi
  rw [BitVec.msb_eq_toInt, hsub]
  by_cases h : p.toInt - q.toInt < 0
  · rw [if_pos (decide_eq_true h), BitVec.toInt_neg, hsub, Int.bmod_eq_of_le (by omega) (by omega)]
    have hR : ((p.toInt : ℝ) - (q.toInt : ℝ)) < 0 := by exact_mod_cast h
    rw [max_eq_right (EReal.coe_le_coe_iff.2 (by linarith))]
    push_cast
    rfl
  · rw [if_neg (by simpa using h), hsub]
    have hR : 0 ≤ ((p.toInt : ℝ) - (q.toInt : ℝ)) := by exact_mod_cast (not_lt.1 h)
    rw [max_eq_left (EReal.coe_le_coe_iff.2 (by linarith))]
    push_cast
    rfl

end Cert.Spec

end
-- ==== Proof.LibScatterPair.lean ====
/-
  AN ACCUMULATING SCATTER WITH TWO INDEX WORDS PER UPDATE, READ AT AN INDEX. At the ideal instance a host scatter
  with an add body is, at each operand index, the operand's element plus the sum of the updates whose result index
  is that index; the start index is read signed and not clamped, and an update that lands outside the operand adds
  nothing. Here the operand is `[M, N]`, the scatter indices are `[A, B, 2]` with the index vector on the last
  axis, and the updates are `[A, B]`: there is no window axis, both operand axes are inserted, and component `0`
  of the index vector is the start on operand axis 0, component `1` the start on operand axis 1. So update `(a, b)`
  lands on `(idx (a, b, 0), idx (a, b, 1))`, both words read signed, when that is inside the operand, and the
  scatter at `(r, n)` is the operand's element plus the double sum over `(a, b)` of the update element where both
  words equal the coordinates `r` and `n`, and `0` elsewhere. The steps: where an update reads each component of its
  start index; the start and the window coordinate on each operand axis; when an update lands on a given index;
  then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterPair

section Pairs
variable {M N A B w : Nat}
  (h : ScatterDims.WF (⟨2, ![M, N]⟩ : Shape) (⟨3, ![A, B, 2]⟩ : Shape) (⟨2, ![A, B]⟩ : Shape) [] [0, 1] [0, 1] 2)

/-- The dimension numbers: no update window axis, both operand axes inserted, start-index component `0` for
    operand axis 0 and component `1` for operand axis 1, the index vector on the scatter indices' axis 2. -/
abbrev pairDims : ScatterDims (⟨2, ![M, N]⟩ : Shape) (⟨3, ![A, B, 2]⟩ : Shape) (⟨2, ![A, B]⟩ : Shape) :=
  ⟨[], [0, 1], [0, 1], 2, h⟩

/-- Update `j` reads component `c` of its start index at `(j 0, j 1, c)` of the scatter indices. -/
theorem pair_siIdx (j : (⟨2, ![A, B]⟩ : Shape).Idx) (c : Fin (pairDims h).scatterDimsToOperandDims.length) :
    (pairDims h).siIdx j c = ix3 (j 0) (j 1) (⟨c.val, c.isLt⟩ : Fin 2) := by
  funext b; refine Fin.ext ?_
  match b with
  | ⟨0, _⟩ => rfl
  | ⟨1, _⟩ => rfl
  | ⟨2, _⟩ => rfl

/-- On operand axis 0 the window starts at word `0` of update `j`'s index vector, read signed. -/
theorem pair_start0 (j : (⟨2, ![A, B]⟩ : Shape).Idx) (idx : IVec (⟨3, ![A, B, 2]⟩ : Shape) w) (h0) :
    (pairDims h).start j idx ⟨0, h0⟩ = (idx (ix3 (j 0) (j 1) (0 : Fin 2))).toInt := by
  have hm : (⟨0, h0⟩ : Fin (⟨2, ![M, N]⟩ : Shape).rank) ∈ (pairDims h).scatterDimsToOperandDims := by
    show (0 : Fin 2) ∈ ([0, 1] : List (Fin 2)); decide
  unfold ScatterDims.start
  rw [dif_pos hm, pair_siIdx h j]
  rfl

/-- On operand axis 1 the window starts at word `1` of update `j`'s index vector, read signed. -/
theorem pair_start1 (j : (⟨2, ![A, B]⟩ : Shape).Idx) (idx : IVec (⟨3, ![A, B, 2]⟩ : Shape) w) (h1) :
    (pairDims h).start j idx ⟨1, h1⟩ = (idx (ix3 (j 0) (j 1) (1 : Fin 2))).toInt := by
  have hm : (⟨1, h1⟩ : Fin (⟨2, ![M, N]⟩ : Shape).rank) ∈ (pairDims h).scatterDimsToOperandDims := by
    show (1 : Fin 2) ∈ ([0, 1] : List (Fin 2)); decide
  unfold ScatterDims.start
  rw [dif_pos hm, pair_siIdx h j]
  rfl

/-- Operand axis 0 is inserted: window coordinate 0. -/
theorem pair_window0 (j : (⟨2, ![A, B]⟩ : Shape).Idx) (h0) : (pairDims h).window j ⟨0, h0⟩ = 0 := by
  have hm : (⟨0, h0⟩ : Fin (⟨2, ![M, N]⟩ : Shape).rank) ∉ (pairDims h).sKept := by
    show (0 : Fin 2) ∉ (List.finRange 2).filter (· ∉ ([0, 1] : List (Fin 2))); decide
  unfold ScatterDims.window
  rw [dif_neg hm]

/-- Operand axis 1 is inserted: window coordinate 0. -/
theorem pair_window1 (j : (⟨2, ![A, B]⟩ : Shape).Idx) (h1) : (pairDims h).window j ⟨1, h1⟩ = 0 := by
  have hm : (⟨1, h1⟩ : Fin (⟨2, ![M, N]⟩ : Shape).rank) ∉ (pairDims h).sKept := by
    show (1 : Fin 2) ∉ (List.finRange 2).filter (· ∉ ([0, 1] : List (Fin 2))); decide
  unfold ScatterDims.window
  rw [dif_neg hm]

/-- Update `j` lands on `(r, n)` exactly when word `0` of its index vector, read signed, is `r` and word `1`,
    read signed, is `n`. -/
theorem pair_resultIdx_iff (j : (⟨2, ![A, B]⟩ : Shape).Idx) (idx : IVec (⟨3, ![A, B, 2]⟩ : Shape) w)
    (r : Fin M) (n : Fin N) :
    (pairDims h).resultIdx? j idx = some (ix2 r n) ↔
      (idx (ix3 (j 0) (j 1) (0 : Fin 2))).toInt = (r.val : ℤ) ∧
        (idx (ix3 (j 0) (j 1) (1 : Fin 2))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      have b1 := (hb ⟨1, Nat.one_lt_two⟩).1
      simp only [pair_start0, pair_start1, pair_window0, pair_window1] at e0 e1 b0 b1
      refine ⟨?_, ?_⟩
      · change _ = r.val at e0; omega
      · change _ = n.val at e1; omega
    · rintro ⟨hr, hn⟩
      funext a; refine Fin.ext ?_
      match a with
      | ⟨0, h0⟩ =>
        show ((pairDims h).start j idx ⟨0, h0⟩ + ((pairDims h).window j ⟨0, h0⟩ : ℕ)).toNat = r.val
        rw [pair_start0, pair_window0, hr]; omega
      | ⟨1, h1⟩ =>
        show ((pairDims h).start j idx ⟨1, h1⟩ + ((pairDims h).window j ⟨1, h1⟩ : ℕ)).toNat = n.val
        rw [pair_start1, pair_window1, hn]; omega
  · rename_i hb
    constructor
    · intro he; cases he
    · rintro ⟨hr, hn⟩
      exfalso; apply hb
      intro a
      match a with
      | ⟨0, _⟩ =>
        show 0 ≤ _ ∧ _ < ((M : ℕ) : ℤ)
        rw [pair_start0, pair_window0, hr]; have := r.isLt; omega
      | ⟨1, _⟩ =>
        show 0 ≤ _ ∧ _ < ((N : ℕ) : ℤ)
        rw [pair_start1, pair_window1, hn]; have := n.isLt; omega

/-- The scatter at `(r, n)`, over the named dimension numbers. -/
theorem pair_sum (x : (⟨2, ![M, N]⟩ : Shape).Idx → EReal) (idx : IVec (⟨3, ![A, B, 2]⟩ : Shape) w)
    (upd : (⟨2, ![A, B]⟩ : Shape).Idx → EReal) (r : Fin M) (n : Fin N) :
    Ideal.hostScatterAdd (pairDims h) x idx upd (ix2 r n)
      = x (ix2 r n) + ∑ a : Fin A, ∑ b : Fin B,
          if (idx (ix3 a b (0 : Fin 2))).toInt = (r.val : ℤ) ∧ (idx (ix3 a b (1 : Fin 2))).toInt = (n.val : ℤ)
            then upd (ix2 a b) else 0 := by
  unfold Ideal.hostScatterAdd
  congr 1
  rw [Finset.sum_filter, sum_idx2]
  refine Finset.sum_congr rfl fun a _ => Finset.sum_congr rfl fun b _ => ?_
  have hiff : ((pairDims h).resultIdx? (ix2 a b) idx = some (ix2 r n)) ↔
      ((idx (ix3 a b (0 : Fin 2))).toInt = (r.val : ℤ) ∧ (idx (ix3 a b (1 : Fin 2))).toInt = (n.val : ℤ)) :=
    pair_resultIdx_iff h (ix2 a b) idx r n
  simp only [hiff]
end Pairs

/-! ## The layout, over its literal dimension numbers -/

/-- An accumulating scatter with two index words per update (operand `[M, N]`, scatter indices `[A, B, 2]` with
    the index vector last, updates `[A, B]`, no window axis), read at `(r, n)`: the operand's element plus the sum
    over the updates `(a, b)` of the update element where word `0`, read signed, is `r` and word `1`, read signed,
    is `n`, and `0` elsewhere. -/
theorem scatterAdd_pairs {M N A B w : Nat}
    (h : ScatterDims.WF (⟨2, ![M, N]⟩ : Shape) (⟨3, ![A, B, 2]⟩ : Shape) (⟨2, ![A, B]⟩ : Shape) [] [0, 1] [0, 1] 2)
    (x : (⟨2, ![M, N]⟩ : Shape).Idx → EReal) (idx : IVec (⟨3, ![A, B, 2]⟩ : Shape) w)
    (upd : (⟨2, ![A, B]⟩ : Shape).Idx → EReal) (r : Fin M) (n : Fin N) :
    Ideal.hostScatterAdd (⟨[], [0, 1], [0, 1], 2, h⟩ : ScatterDims (⟨2, ![M, N]⟩ : Shape) (⟨3, ![A, B, 2]⟩ : Shape) (⟨2, ![A, B]⟩ : Shape)) x idx upd (ix2 r n)
      = x (ix2 r n) + ∑ a : Fin A, ∑ b : Fin B,
          if (idx (ix3 a b (0 : Fin 2))).toInt = (r.val : ℤ) ∧ (idx (ix3 a b (1 : Fin 2))).toInt = (n.val : ℤ) then upd (ix2 a b) else 0 := by
  exact pair_sum h x idx upd r n

end Cert.LibScatterPair

end
-- ==== Proof.RefVal.lean ====
/-
  The reference's results read one entry at a time: the scattered histogram at (r, k) is the count of row r's
  valid slots whose bin word is k; the projections and the distance term are then the closed forms.
-/
import proofs.«423792_j90847148245151_1_alg».proof.Proof.RefTerm
import proofs.«423792_j90847148245151_1_alg».proof.Proof.SpecFacts
import proofs.«423792_j90847148245151_1_alg».proof.Proof.LibScatterPair
import proofs.«423792_j90847148245151_1_alg».proof.Proof.LibPlainRows
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.Hand

open Cert.ReferenceIdeal Idealize.ShloMosaic Idealize.ShloMosaic.ValueIdx
open Facts₀ Facts

variable [Facts]

/-! ## The index pairs of the scatter -/

/-- The row number of slot (a, b) is the word of a. -/
theorem rRows_apply (a : Fin 8192) (b : Fin 64) : rRows (ix2 a b) = BitVec.ofNat 32 a.val := by
  unfold rRows
  refine (broadcastInDim_apply ![0, 1] bcast_S8192x1_S8192x64_0_1 _ (ix2 a b) (ix2 a (0 : Fin 1)) ?_).trans ?_
  · intro c
    match c with
    | ⟨0, _⟩ => rfl
    | ⟨1, _⟩ => rfl
  refine (broadcastInDim_apply ![0] bcast_S8192_S8192x1_0 _ (ix2 a (0 : Fin 1)) (ix1 a) ?_).trans ?_
  · intro c
    match c with
    | ⟨0, _⟩ => rfl
  rfl

/-- The wrap of negative words, at one slot. -/
theorem wrapNeg_apply (x : IVec S8192x64 32) (n : BitVec 32) (i : S8192x64.Idx) :
    wrapNeg x n i = Scalar.select (IntOp.cmpi .slt (x i) 0#32) (IntOp.addi (x i) n) (x i) := rfl

/-- A word array that is nowhere negative is unchanged by the wrap. -/
theorem wrapNeg_of_nonneg (x : IVec S8192x64 32) (n : BitVec 32) (i : S8192x64.Idx) (hx : 0 ≤ (x i).toInt) :
    wrapNeg x n i = x i := by
  rw [wrapNeg_apply]
  exact Cert.Spec.wrap_of_nonneg (x i) n hx

/-- Component 0 of the index pair of slot (a, b) is the word of the row number a. -/
theorem rPairs_apply0 (tok : IVec S65536 32) (idx : IVec S8192x64 32) (a : Fin 8192) (b : Fin 64) :
    rPairs tok idx (ix3 a b (0 : Fin 2)) = BitVec.ofNat 32 a.val := by
  unfold rPairs
  refine (concatenate_pair_apply_left (t := S8192x64x2) (s₁ := S8192x64x1) (s₂ := S8192x64x1) (2 : Fin 3) _ _
    concatenates_S8192x64x1_S8192x64x1_S8192x64x2_d2 (ix3 a b (0 : Fin 2)) rfl (ix3 a b (0 : Fin 1)) ?_).trans ?_
  · intro c
    match c with
    | ⟨0, _⟩ => rfl
    | ⟨1, _⟩ => rfl
    | ⟨2, _⟩ => rfl
  refine (broadcastInDim_apply ![0, 1] bcast_S8192x64_S8192x64x1_0_1 _ (ix3 a b (0 : Fin 1)) (ix2 a b) ?_).trans ?_
  · intro c
    match c with
    | ⟨0, _⟩ => rfl
    | ⟨1, _⟩ => rfl
  rw [wrapNeg_of_nonneg _ _ _ (by rw [rRows_apply, Cert.Spec.row_word_toInt]; exact Int.natCast_nonneg _), rRows_apply]

/-- Component 1 of the index pair of slot (a, b) is the slot's bin word. -/
theorem rPairs_apply1 (tok : IVec S65536 32) (idx : IVec S8192x64 32) (a : Fin 8192) (b : Fin 64) :
    rPairs tok idx (ix3 a b (1 : Fin 2)) = rBins tok idx (ix2 a b) := by
  unfold rPairs
  refine (concatenate_pair_apply_right (t := S8192x64x2) (s₁ := S8192x64x1) (s₂ := S8192x64x1) (2 : Fin 3) _ _
    concatenates_S8192x64x1_S8192x64x1_S8192x64x2_d2 (ix3 a b (1 : Fin 2)) rfl rfl (ix3 a b (0 : Fin 1)) ?_ ?_).trans ?_
  · intro c hc
    match c with
    | ⟨0, _⟩ => rfl
    | ⟨1, _⟩ => rfl
    | ⟨2, _⟩ => exact absurd rfl hc
  · rfl
  refine (broadcastInDim_apply ![0, 1] bcast_S8192x64_S8192x64x1_0_1 _ (ix3 a b (0 : Fin 1)) (ix2 a b) ?_).trans ?_
  · intro c
    match c with
    | ⟨0, _⟩ => rfl
    | ⟨1, _⟩ => rfl
  exact wrapNeg_of_nonneg _ _ _ (Cert.Spec.binsT_nonneg _ _ _ tok idx (ix2 a b))

/-! ## The histogram -/

/-- Slot (a, b) lands on (r, k) exactly when a is r and the slot's bin word is the word of k. -/
theorem rPairs_lands_iff (tok : IVec S65536 32) (idx : IVec S8192x64 32) (a r : Fin 8192) (b : Fin 64) (k : Fin 128) :
    ((rPairs tok idx (ix3 a b (0 : Fin 2))).toInt = (r.val : ℤ) ∧ (rPairs tok idx (ix3 a b (1 : Fin 2))).toInt = (k.val : ℤ))
      ↔ (a = r ∧ rBins tok idx (ix2 a b) = BitVec.ofNat 32 k.val) := by
  rw [rPairs_apply0, rPairs_apply1, Cert.Spec.row_word_toInt, Cert.Spec.toInt_eq_iff]
  refine and_congr_left' ⟨fun h => Fin.ext (by omega), fun h => by rw [h]⟩

/-- The histogram at (r, k) is the count of row r's valid slots whose bin word is k. -/
theorem rCounts_apply (tok : IVec S65536 32) (idx : IVec S8192x64 32) (r : Fin 8192) (k : Fin 128) :
    rCounts (F := Ideal) tok idx (ix2 r k)
      = Cert.Spec.counts (rBins tok idx) (Cert.Spec.validT bcast_S_S8192x64 idx) r k := by
  unfold rCounts
  refine (Cert.LibScatterPair.scatterAdd_pairs scatter_S8192x128_S8192x64x2_S8192x64_n_01_01_2_wf
    (broadcastInDim S8192x128 ![] bcast_S_S8192x128 (constant (F := Ideal) S_ .f32 0x00000000#32)) (rPairs tok idx)
    (Cert.Spec.validT (F := Ideal) bcast_S_S8192x64 idx) r k).trans ?_
  have h0 : broadcastInDim S8192x128 ![] bcast_S_S8192x128 (constant (F := Ideal) S_ .f32 0x00000000#32) (ix2 r k) = 0 :=
    Ideal.ofBits_zero_f32
  rw [h0, zero_add]
  unfold Cert.Spec.counts
  rw [Finset.sum_eq_single r]
  · refine Finset.sum_congr rfl fun s _ => ?_
    refine if_congr ?_ rfl rfl
    rw [rPairs_lands_iff]
    exact and_iff_right rfl
  · intro a _ ha
    refine Finset.sum_eq_zero fun s _ => ?_
    rw [if_neg]
    rw [rPairs_lands_iff]
    exact fun h => ha h.1
  · intro h; exact absurd (Finset.mem_univ r) h

/-! ## The normalised histogram and the projections -/

/-- The normalised histogram at (r, k): row r's count of bin k divided by the row's size. -/
theorem rNorm_apply (tok : IVec S65536 32) (idx : IVec S8192x64 32) (sizes : IVec S8192 32)
    (h1 : Cert.Spec.TRow.ShapeCasts Cert.Spec.TCol1) (r : Fin 8192) (k : Fin 128) :
    rNorm (F := Ideal) tok idx sizes (ix2 r k)
      = Ideal.div (Cert.Spec.counts (rBins tok idx) (Cert.Spec.validT bcast_S_S8192x64 idx) r k)
          (shapeCast Cert.Spec.TCol1 (Cert.Spec.denV (F := Ideal) bcast_S_S8192 sizes) h1 (ix2 r (0 : Fin 1))) := by
  unfold rNorm
  rw [hostDivf_apply, rCounts_apply]
  congr 1
  refine (broadcastInDim_apply ![0, 1] bcast_S8192x1_S8192x128_0_1 _ (ix2 r k) (ix2 r (0 : Fin 1)) ?_).trans ?_
  · intro c
    match c with
    | ⟨0, _⟩ => rfl
    | ⟨1, _⟩ => rfl
  refine (broadcastInDim_apply ![0] bcast_S8192_S8192x1_0 _ (ix2 r (0 : Fin 1)) (ix1 r) ?_).trans ?_
  · intro c
    match c with
    | ⟨0, _⟩ => rfl
  refine (shapeCast_apply _ h1 (ix2 r (0 : Fin 1)) (ix1 r) ?_).symm
  rw [Shape.rowMajor_val_two, Shape.rowMajor_val_one]
  show r.val = r.val * 1 + 0
  omega

/-- A projection of the reference is the closed form over the same bin words, masks, sizes, weights and bias. -/
theorem rProj_eq (tok : IVec S65536 32) (idx : IVec S8192x64 32) (sizes : IVec S8192 32) (w : FVec Ideal S1024x128 .f32)
    (b : FVec Ideal S1024 .f32) (h1 : Cert.Spec.TRow.ShapeCasts Cert.Spec.TCol1)
    (h2 : (⟨1, ![1024]⟩ : Shape).ShapeCasts Cert.Spec.TB1) :
    rProj (F := Ideal) tok idx sizes w b
      = Cert.Spec.projK (rBins tok idx) (Cert.Spec.validT bcast_S_S8192x64 idx)
          (shapeCast Cert.Spec.TCol1 (Cert.Spec.denV bcast_S_S8192 sizes) h1)
          (transpose S128x1024 [1, 0] w transposes_S1024x128_S128x1024_1_0)
          (shapeCast Cert.Spec.TB1 b h2) := by
  funext y
  obtain ⟨r, d, rfl⟩ : ∃ (r : Fin 8192) (d : Fin 1024), y = ix2 r d := ⟨y 0, y 1, eq_ix2 y⟩
  rw [Cert.Spec.projK_apply]
  unfold rProj Cert.Spec.projAt
  rw [addf_apply]
  congr 1
  · refine (PlainRows.dotGeneral_rows_apply dot_S8192x128_S128x1024_S8192x1024_1_0_0_1_n_n rfl none _ _ r d).trans ?_
    refine Finset.sum_congr rfl fun k _ => ?_
    rw [rNorm_apply tok idx sizes h1]
  · refine (PlainRows.rowBroadcast_apply b bcast_S1024_S1x1024_1 bcast_S1x1024_S8192x1024_0_1 r d).trans ?_
    refine (shapeCast_apply b h2 (ix2 (0 : Fin 1) d) (ix1 d) ?_).symm
    rw [Shape.rowMajor_val_two, Shape.rowMajor_val_one]
    show d.val = 0 * 1024 + d.val
    omega

/-- Over non-negative position words the reference's distance term is the closed form over the position numbers. -/
theorem rGeom_eq (p : IVec S8192 32) (hp : ∀ i, 0 ≤ (p i).toInt) (h1 : Cert.Spec.TRow.ShapeCasts Cert.Spec.TCol1)
    (h2 : Cert.Spec.TRow.ShapeCasts Cert.Spec.TRow1) :
    rGeom (F := Ideal) p
      = Cert.Spec.geomK (shapeCast Cert.Spec.TCol1 (sitofp .f32 p) h1) (shapeCast Cert.Spec.TRow1 (sitofp .f32 p) h2) := by
  funext y
  obtain ⟨i, j, rfl⟩ : ∃ (i j : Fin 8192), y = ix2 i j := ⟨y 0, y 1, eq_ix2 y⟩
  rw [Cert.Spec.geomK_apply]
  have hA : broadcastInDim S8192x8192 ![0, 1] bcast_S8192x1_S8192x8192_0_1
      (broadcastInDim S8192x1 ![0] bcast_S8192_S8192x1_0 p) (ix2 i j) = p (ix1 i) := by
    refine (broadcastInDim_apply ![0, 1] bcast_S8192x1_S8192x8192_0_1 _ (ix2 i j) (ix2 i (0 : Fin 1)) ?_).trans ?_
    · intro c
      match c with
      | ⟨0, _⟩ => rfl
      | ⟨1, _⟩ => rfl
    refine broadcastInDim_apply ![0] bcast_S8192_S8192x1_0 _ (ix2 i (0 : Fin 1)) (ix1 i) ?_
    intro c
    match c with
    | ⟨0, _⟩ => rfl
  have hB : broadcastInDim S8192x8192 ![0, 1] bcast_S1x8192_S8192x8192_0_1
      (broadcastInDim S1x8192 ![1] bcast_S8192_S1x8192_1 p) (ix2 i j) = p (ix1 j) :=
    PlainRows.rowBroadcast_apply p bcast_S8192_S1x8192_1 bcast_S1x8192_S8192x8192_0_1 i j
  have hc : shapeCast Cert.Spec.TCol1 (sitofp (F := Ideal) .f32 p) h1 (ix2 i (0 : Fin 1))
      = (((p (ix1 i)).toInt : ℝ) : EReal) := by
    refine (shapeCast_apply _ h1 (ix2 i (0 : Fin 1)) (ix1 i) ?_).trans rfl
    rw [Shape.rowMajor_val_two, Shape.rowMajor_val_one]
    show i.val = i.val * 1 + 0
    omega
  have hr : shapeCast Cert.Spec.TRow1 (sitofp (F := Ideal) .f32 p) h2 (ix2 (0 : Fin 1) j)
      = (((p (ix1 j)).toInt : ℝ) : EReal) := by
    refine (shapeCast_apply _ h2 (ix2 (0 : Fin 1) j) (ix1 j) ?_).trans rfl
    rw [Shape.rowMajor_val_two, Shape.rowMajor_val_one]
    show j.val = 0 * 8192 + j.val
    omega
  unfold Cert.Spec.geomAt
  rw [hc, hr, ← Cert.Spec.dist_words _ _ (hp _) (hp _), ← hA, ← hB]
  rfl

end Cert.ReferenceIdeal.Hand

end
-- ==== Proof.PreFacts.lean ====
/-
  What the precondition says about the positions: the last conjunct is the test "every position word is at
  least 0 read signed", reduced by "and" over the array; where the whole precondition is 1 every word passes it.
-/
import proofs.«423792_j90847148245151_1_alg».proof.Pre_finite_inputs
import proofs.«423792_j90847148245151_1_alg».proof.Proof.Gen.Pre_finite_inputs
import Idealize.ShloMosaic.Lib.ReduceAll
import Idealize.ShloMosaic.Lib.Affine
import Idealize.ShloMosaic.Lib.ValueIdx

noncomputable section

namespace Cert.Pre_finite_inputs.Hand

open Cert.Pre_finite_inputs Idealize.ShloMosaic

variable {F : FTy → Type} [FloatOps F] [Facts]

instance : Subsingleton S_.Idx := ⟨fun _ _ => funext fun d => d.elim0⟩

/-- Where the precondition holds every position word is non-negative read signed. -/
theorem positions_nonneg (a0 : IVec S65536 32) (a1 : IVec S8192x64 32) (a2 : IVec S8192 32) (a3 : IVec S8192 32)
    (a4 : FVec F S1024x128 .f32) (a5 : FVec F S1024 .f32) (a6 : FVec F S1024x128 .f32) (a7 : FVec F S1024 .f32)
    (h : fn (F := F) a0 a1 a2 a3 a4 a5 a6 a7 = fun _ => 1#1) (i : S8192.Idx) : 0 ≤ (a3 i).toInt := by
  have h0 := congrFun h ValueIdx.ix0
  dsimp only [fn, fn_part1] at h0
  have h1 := (IntOp.andi_eq_one.mp h0).2
  have h2 := Host.reduce_andi_all _ _ _ _ _ h1 i
  have h3 : (0#32 : BitVec 32).sle (a3 i) = true := by
    have : IntOp.cmpi .sge (a3 i) 0#32 = 1#1 := h2
    unfold IntOp.cmpi at this
    revert this
    cases (0#32 : BitVec 32).sle (a3 i) <;> simp
  have h4 := BitVec.sle_iff_toInt_le.mp h3
  simpa using h4

end Cert.Pre_finite_inputs.Hand

end
-- ==== Proof.lean ====
/-
  The certificate: the kernel program (a histogram of hashed token bins per set, normalised and projected by two
  weight matrices with bias rows, in one pallas_call; the pairwise position distances times -1 in a second)
  against the plain reference, over the extended reals.

  Both programs hash the gathered token of every set slot by the same host operations, so the bin words and the
  slot masks are one function of the arguments on both sides. The kernel counts a row's bins by comparing the
  bin words with an iota and summing the selected masks over the slots; the reference scatters the masks into
  zeros at (row, bin) index pairs. A bin word is a floor remainder by 128, never negative, so the reference's
  wrap of negative indices leaves it alone, and both counts are the sum over the row's slots of the mask where
  the bin word is k. Dividing by the row size, the product with the transposed weights and the bias are then
  the same sums on both sides; no law of the extended reals beyond 0 + x = x is used.

  The distance term differs in where the subtraction happens: the kernel subtracts the position NUMBERS and takes
  the absolute value there; the reference subtracts the position WORDS (wrapping), takes the word's absolute
  value, then reads it as a number. For positions that are non-negative words (the precondition's added
  conjunct) the word difference does not wrap and the two agree.
-/
import proofs.«423792_j90847148245151_1_alg».proof.Defs
import proofs.«423792_j90847148245151_1_alg».proof.Proof.Gen.Kernel
import proofs.«423792_j90847148245151_1_alg».proof.Proof.Gen.Kernel.Frame
import proofs.«423792_j90847148245151_1_alg».proof.Proof.Gen.KernelIdeal
import proofs.«423792_j90847148245151_1_alg».proof.Proof.Gen.KernelIdeal.Frame
import proofs.«423792_j90847148245151_1_alg».proof.Proof.Gen.ReferenceIdeal
import proofs.«423792_j90847148245151_1_alg».proof.Proof.Gen.Pre_finite_inputs
import proofs.«423792_j90847148245151_1_alg».proof.Proof.KRun
import proofs.«423792_j90847148245151_1_alg».proof.Proof.KHost
import proofs.«423792_j90847148245151_1_alg».proof.Proof.RefRun
import proofs.«423792_j90847148245151_1_alg».proof.Proof.RefVal
import proofs.«423792_j90847148245151_1_alg».proof.Proof.PreFacts
import Idealize.ShloMosaic.Adequacy
import Idealize.ShloMosaic.Init

noncomputable section

namespace Cert.Proof

open Idealize.ShloMosaic Idealize.SL.Sem

/-- The reference's frame: its run with the results dropped. -/
theorem frame_ri : Cert.frame_ReferenceIdeal := fun m ρ _ =>
  (θ_run Cert.ReferenceIdeal.defs _ _).mono (fun _ h c => (h c).2.2.2) (Cert.ReferenceIdeal.Hand.run_ref (F := Ideal) m ρ)

/-- Both idealized programs end with the three closed forms of the kernel's arguments. -/
theorem algebraic : Cert.algebraic_KernelIdeal_ReferenceIdeal := by
  intro m ρ m' ρ' hpre hagree
  refine ⟨_, _, _, (θ_run Cert.KernelIdeal.defs _ _).mono (fun r h c =>
      ⟨(h c).1.trans (Cert.KernelIdeal.Hand.out_phi m ρ c), (h c).2.1.trans (Cert.KernelIdeal.Hand.out_desc m ρ c),
        (h c).2.2.1.trans (Cert.KernelIdeal.Hand.out_geom m ρ c), (h c).2.2.2⟩)
      (Cert.KernelIdeal.Hand.run_out (F := Ideal) m ρ), ?_⟩
  refine (θ_run Cert.ReferenceIdeal.defs _ _).mono (fun r h c => ⟨(h c).1.trans ?_, (h c).2.1.trans ?_, (h c).2.2.1.trans ?_, (h c).2.2.2⟩)
    (Cert.ReferenceIdeal.Hand.run_ref (F := Ideal) m' ρ')
  · rw [(hagree c).1, (hagree c).2.1, (hagree c).2.2.1, (hagree c).2.2.2.2.1, (hagree c).2.2.2.2.2.1]
    exact Cert.ReferenceIdeal.Hand.rProj_eq _ _ _ _ _ Cert.KernelIdeal.Gen.shapeCasts_S8192_S8192x1 Cert.KernelIdeal.Gen.shapeCasts_S1024_S1x1024
  · rw [(hagree c).1, (hagree c).2.1, (hagree c).2.2.1, (hagree c).2.2.2.2.2.2.1, (hagree c).2.2.2.2.2.2.2]
    exact Cert.ReferenceIdeal.Hand.rProj_eq _ _ _ _ _ Cert.KernelIdeal.Gen.shapeCasts_S8192_S8192x1 Cert.KernelIdeal.Gen.shapeCasts_S1024_S1x1024
  · rw [(hagree c).2.2.2.1]
    exact Cert.ReferenceIdeal.Hand.rGeom_eq _
      (Cert.Pre_finite_inputs.Hand.positions_nonneg _ _ _ _ _ _ _ _ (hpre c))
      Cert.KernelIdeal.Gen.shapeCasts_S8192_S8192x1 Cert.KernelIdeal.Gen.shapeCasts_S8192_S1x8192

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
